-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S4096x1000 : Shape := ⟨2, ![4096, 1000]⟩
abbrev S1x1000 : Shape := ⟨2, ![1, 1000]⟩
abbrev S1000 : Shape := ⟨1, ![1000]⟩
abbrev S12288 : Shape := ⟨1, ![12288]⟩
abbrev S_ : Shape := ⟨0, ![]⟩
abbrev S4096 : Shape := ⟨1, ![4096]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel
  bcast_S_S4096x1000 : S_.BroadcastsInDim S4096x1000 (![] : Fin 0 → Fin S4096x1000.rank)
  reducesTo_S4096x1000_S_d0_1 : S4096x1000.ReducesTo [0, 1] S_
  bcast_S_S1x1000 : S_.BroadcastsInDim S1x1000 (![] : Fin 0 → Fin S1x1000.rank)
  reducesTo_S1x1000_S_d0_1 : S1x1000.ReducesTo [0, 1] S_
  bcast_S_S1000 : S_.BroadcastsInDim S1000 (![] : Fin 0 → Fin S1000.rank)
  reducesTo_S1000_S_d0 : S1000.ReducesTo [0] S_
  slices_S12288_S4096_0 : S12288.Slices ![0] S4096
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : IVec S12288 32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_v19 : IVec S4096 32 := (extractStridedSlice S4096 ![0] · slices_S12288_S4096_0) main_arg4
  let main_c_6 : IVec S_ 32 := constantI S_ 32 0#32
  let main_v20 : IVec S4096 32 := broadcastInDim S4096 ![] bcast_S_S4096 main_c_6
  let main_v21 : IVec S4096 1 := cmpi .sge main_v19 main_v20
  let main_v22 : IVec S4096 32 := (extractStridedSlice S4096 ![0] · slices_S12288_S4096_0) main_arg4
  let main_c_7 : IVec S_ 32 := constantI S_ 32 1000#32
  let main_v23 : IVec S4096 32 := broadcastInDim S4096 ![] bcast_S_S4096 main_c_7
  let main_v24 : IVec S4096 1 := cmpi .slt main_v22 main_v23
  let main_v25 : IVec S4096 1 := andi main_v21 main_v24
  let main_c_8 : IVec S_ 1 := constantI S_ 1 1#1
  let main_v26 : IVec S_ 1 := (fun x v => Host.reduce IntOp.andi x v reducesTo_S4096_S_d0 h_S_) main_v25 main_c_8
  let main_v27 : IVec S_ 1 := andi main_v18 main_v26
  main_v27

def fn {F : FTy → Type} [FloatOps F] (main_arg0 : FVec F S12288x128 .f32) (main_arg1 : FVec F S4096x1000 .f32) (main_arg2 : FVec F S1x1000 .f32) (main_arg3 : FVec F S1000 .f32) (main_arg4 : IVec S12288 32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  let main_v4 : FVec F S4096x1000 .f32 := Host.absf main_arg1
  let main_cst_0 : FVec F S_ .f32 := constant S_ .f32 0x7F800000#32
  let main_v5 : FVec F S4096x1000 .f32 := broadcastInDim S4096x1000 ![] bcast_S_S4096x1000 main_cst_0
  let main_v6 : IVec S4096x1000 1 := cmpf .olt main_v4 main_v5
  let main_c_1 : IVec S_ 1 := constantI S_ 1 1#1
  let main_v7 : IVec S_ 1 := (fun x v => Host.reduce IntOp.andi x v reducesTo_S4096x1000_S_d0_1 h_S_) main_v6 main_c_1
  let main_v8 : IVec S_ 1 := andi main_v3 main_v7
  let main_v9 : FVec F S1x1000 .f32 := Host.absf main_arg2
  let main_cst_2 : FVec F S_ .f32 := constant S_ .f32 0x7F800000#32
  let main_v10 : FVec F S1x1000 .f32 := broadcastInDim S1x1000 ![] bcast_S_S1x1000 main_cst_2
  let main_v11 : IVec S1x1000 1 := cmpf .olt main_v9 main_v10
  let main_c_3 : IVec S_ 1 := constantI S_ 1 1#1
  let main_v12 : IVec S_ 1 := (fun x v => Host.reduce IntOp.andi x v reducesTo_S1x1000_S_d0_1 h_S_) main_v11 main_c_3
  let main_v13 : IVec S_ 1 := andi main_v8 main_v12
  let main_v14 : FVec F S1000 .f32 := Host.absf main_arg3
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg4 main_v13 main_v16
-- ==== Kernel.lean ====
abbrev S12288x128 : Shape := ⟨2, ![12288, 128]⟩
abbrev S4096x1000 : Shape := ⟨2, ![4096, 1000]⟩
abbrev S1x1000 : Shape := ⟨2, ![1, 1000]⟩
abbrev S1000 : Shape := ⟨1, ![1000]⟩
abbrev S12288 : Shape := ⟨1, ![12288]⟩
abbrev S4096 : Shape := ⟨1, ![4096]⟩
abbrev S4096x1 : Shape := ⟨2, ![4096, 1]⟩
abbrev S1x12288 : Shape := ⟨2, ![1, 12288]⟩
abbrev S_ : Shape := ⟨0, ![]⟩
abbrev S4096x128 : Shape := ⟨2, ![4096, 128]⟩
abbrev S1024x128 : Shape := ⟨2, ![1024, 128]⟩
abbrev S1024x1 : Shape := ⟨2, ![1024, 1]⟩
abbrev S2048x128 : Shape := ⟨2, ![2048, 128]⟩
abbrev S1x2048 : Shape := ⟨2, ![1, 2048]⟩
abbrev S1024x2048 : Shape := ⟨2, ![1024, 2048]⟩
abbrev S1024 : Shape := ⟨1, ![1024]⟩
abbrev S2048x1000 : Shape := ⟨2, ![2048, 1000]⟩
abbrev S2048x1 : Shape := ⟨2, ![2048, 1]⟩
abbrev S2048 : Shape := ⟨1, ![2048]⟩

abbrev nBuf : Space → Nat
  | .hbm => 35
  | .vmem => 21
  | .smem => 0
  | _ => 0

abbrev bufTy : (tb : Table) → Fin (tcTables nBuf tb) → BufTy
  | .hbm, ⟨0, _⟩ => ⟨S12288x128, .f32⟩
  | .hbm, ⟨1, _⟩ => ⟨S4096x1000, .f32⟩
  | .hbm, ⟨2, _⟩ => ⟨S1x1000, .f32⟩
  | .hbm, ⟨3, _⟩ => ⟨S1000, .f32⟩
  | .hbm, ⟨4, _⟩ => ⟨S12288, .i32⟩
  | .hbm, ⟨5, _⟩ => ⟨S4096, .i32⟩
  | .hbm, ⟨6, _⟩ => ⟨S4096x1, .i32⟩
  | .hbm, ⟨7, _⟩ => ⟨S1x12288, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S4096, .f32⟩
  | .hbm, ⟨18, _⟩ => ⟨S4096x1, .f32⟩
  | .hbm, ⟨19, _⟩ => ⟨S4096x128, .f32⟩
  | .hbm, ⟨20, _⟩ => ⟨S4096x1, .f32⟩
  | .hbm, ⟨21, _⟩ => ⟨S4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096x1, .f32⟩
  | .hbm, ⟨27, _⟩ => ⟨S4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S12288x128, .f32⟩
  | .local _ .vmem, ⟨3, _⟩ => ⟨S1024x1, .i32⟩
  | .local _ .vmem, ⟨4, _⟩ => ⟨S1024x1, .i32⟩
  | .local _ .vmem, ⟨5, _⟩ => ⟨S1x12288, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S2048x1000, .f32⟩
  | .local _ .vmem, ⟨15, _⟩ => ⟨S2048x1000, .f32⟩
  | .local _ .vmem, ⟨16, _⟩ => ⟨S1x1000, .f32⟩
  | .local _ .vmem, ⟨17, _⟩ => ⟨S2048x1, .i32⟩
  | .local _ .vmem, ⟨18, _⟩ => ⟨S2048x1, .i32⟩
  | .local _ .vmem, ⟨19, _⟩ => ⟨S2048x1, .f32⟩
  | .local _ .vmem, ⟨20, _⟩ => ⟨S2048x1, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![4, 6], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_off2 (i : grid0.Coords) : Fin 2 → Nat :=
  let c0_1 : Index := 0#32
  let arg1 : BitVec 32 := BitVec.ofNat 32 (i 1).val
  let c2048_i32 : BitVec 32 := 2048#32
  let v3 : BitVec 32 := Scalar.muli arg1 c2048_i32
  let v4 : BitVec 32 := v3
  let v7 : Index := Scalar.indexCast v4
  ![0, v7.toNat]
def k0_cond2 (i : grid0.Coords) : BitVec 1 :=
  let arg1 : BitVec 32 := BitVec.ofNat 32 (i 1).val
  let c5_i32 : BitVec 32 := 5#32
  let v70 : BitVec 1 := Scalar.cmpi .eq arg1 c5_i32
  let v71 : BitVec 32 := Scalar.extui v70
  let c0_i32_29 : BitVec 32 := 0#32
  let v72 : BitVec 1 := Scalar.cmpi .ne v71 c0_i32_29
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S12288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x12288 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S12288_S4096_0 : S12288.Slices ![0] S4096
  shapeCasts_S4096_S4096x1 : S4096.ShapeCasts S4096x1
  shapeCasts_S12288_S1x12288 : S12288.ShapeCasts S1x12288
  bcast_S_S4096 : S_.BroadcastsInDim S4096 (![] : Fin 0 → Fin S4096.rank)
  bcast_S4096_S4096x1_0 : S4096.BroadcastsInDim S4096x1 (![0] : Fin 1 → Fin S4096x1.rank)
  slices_S12288x128_S4096x128_0_0 : S12288x128.Slices ![0, 0] S4096x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S2048x128 : 0 < S2048x128.numel
  h_S1x2048 : 0 < S1x2048.numel
  shapeCasts_S1x2048_S1x2048 : S1x2048.ShapeCasts S1x2048
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1024x2048_d0_w32 : S1024x2048.Iotas .tc 32 [0]
  iota_S1024x2048_d1_w32 : S1024x2048.Iotas .tc 32 [1]
  natLt_1_32 : 1 < 32
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  shapeCasts_S4096x1_S4096 : S4096x1.ShapeCasts S4096
  reducesTo_S4096_S_d0 : S4096.ReducesTo [0] S_
  h_S_ : 0 < S_.numel
  inb_S2048x1000_S2048x1000_0_0 : ∀ a, (![0, 0] : Fin 2 → Nat) a + S2048x1000.size a ≤ S2048x1000.size a
  h_S2048x1000 : 0 < S2048x1000.numel
  inb_S1x1000_S1x1000_0_0 : ∀ a, (![0, 0] : Fin 2 → Nat) a + S1x1000.size a ≤ S1x1000.size a
  h_S1x1000 : 0 < S1x1000.numel
  broadcasts_S1x1000_S2048x1000 : S1x1000.Broadcasts S2048x1000
  reduces_S2048x1000_S2048 : S2048x1000.Reduces [1] S2048
  shapeCasts_S2048_S2048x1 : S2048.ShapeCasts S2048x1
  broadcasts_S2048x1_S2048x1000 : S2048x1.Broadcasts S2048x1000
  iota_S2048x1000_d1_w32 : S2048x1000.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  gather_S1000_S4096x1_S4096_n_0_n_n_0_1_1_wf : GatherDims.WF S1000 S4096x1 S4096 [] [0] [] [0] [] 1 ![1]
  dot_S1024x128_S2048x128_S1024x2048_1_1_0_0_n_n_wf : DotDims.WF S1024x128 S2048x128 S1024x2048 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S12288x128.size a
  k0_off2_inb : ∀ i : grid0.Coords, ∀ a, (k0_off2 i) a + S1x2048.size a ≤ S1x12288.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12288x128.size a ≤ S12288x128.size a
  hwx0_1 : ∀ i : grid0.Coords, EltTy.bits .f32 = 32 ∨ (Rect.block (s := S12288x128) S12288x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x12288.size a ≤ S1x12288.size a
  hwx0_3 : ∀ i : grid0.Coords, EltTy.bits .i32 = 32 ∨ (Rect.block (s := S1x12288) S1x12288.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1000.size a ≤ S4096x1000.size a
  hwx1_0 : ∀ i : grid1.Coords, EltTy.bits .f32 = 32 ∨ (Rect.block (s := S4096x1000) S2048x1000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1000.size a ≤ S1x1000.size a
  hwx1_1 : ∀ i : grid1.Coords, EltTy.bits .f32 = 32 ∨ (Rect.block (s := S1x1000) S1x1000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S4096x1.size a
  hwx1_2 : ∀ i : grid1.Coords, EltTy.bits .i32 = 32 ∨ (Rect.block (s := S4096x1) S2048x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S4096x1.size a
  hwx1_3 : ∀ i : grid1.Coords, EltTy.bits .f32 = 32 ∨ (Rect.block (s := S4096x1) S2048x1.size (cc1_transform_3 i) (hinb1_3 i)).WholeWords (EltTy.packing .f32)

variable [Facts₀]

def gather_S1000_S4096x1_S4096_n_0_n_n_0_1_1 : GatherDims S1000 S4096x1 S4096 where
  offsetDims := []
  collapsedSliceDims := [0]
  operandBatchingDims := []
  startIndicesBatchingDims := []
  startIndexMap := [0]
  indexVectorDim := 1
  sliceSizes := ![1]
  wf := gather_S1000_S4096x1_S4096_n_0_n_n_0_1_1_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_v12) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S12288x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x12288.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg1) S2048x1000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x1000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S2048x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S12288x128 : Shape := ⟨2, ![12288, 128]⟩
abbrev S4096x1000 : Shape := ⟨2, ![4096, 1000]⟩
abbrev S1x1000 : Shape := ⟨2, ![1, 1000]⟩
abbrev S1000 : Shape := ⟨1, ![1000]⟩
abbrev S12288 : Shape := ⟨1, ![12288]⟩
abbrev S4096 : Shape := ⟨1, ![4096]⟩
abbrev S4096x1 : Shape := ⟨2, ![4096, 1]⟩
abbrev S1x12288 : Shape := ⟨2, ![1, 12288]⟩
abbrev S4096x12288 : Shape := ⟨2, ![4096, 12288]⟩
abbrev S4096x128 : Shape := ⟨2, ![4096, 128]⟩
abbrev S128x12288 : Shape := ⟨2, ![128, 12288]⟩
abbrev S_ : Shape := ⟨0, ![]⟩
abbrev S4096x2 : Shape := ⟨2, ![4096, 2]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 131
  | .vmem => 0
  | .smem => 0
  | _ => 0

abbrev hbmTy0_0 (i : Nat) : BufTy := match i % 128 with
  | 0 => ⟨S12288x128, .f32⟩
  | 1 => ⟨S4096x1000, .f32⟩
  | 2 => ⟨S1x1000, .f32⟩
  | 3 => ⟨S1000, .f32⟩
  | 4 => ⟨S12288, .i32⟩
  | 5 => ⟨S4096, .i32⟩
  | 6 => ⟨S4096x1, .i32⟩
  | 7 => ⟨S1x12288, .i32⟩
  | 8 => ⟨S4096x12288, .i32⟩
  | 9 => ⟨S4096x12288, .i32⟩
  | 10 => ⟨S4096x12288, .i1⟩
  | 11 => ⟨S4096x12288, .f32⟩
  | 12 => ⟨S4096x128, .f32⟩
  | 13 => ⟨S128x12288, .f32⟩
  | 14 => ⟨S4096x12288, .f32⟩
  | 15 => ⟨S_, .f32⟩
  | 16 => ⟨S4096x12288, .f32⟩
  | 17 => ⟨S4096x12288, .f32⟩
  | 18 => ⟨S_, .f32⟩
  | 19 => ⟨S4096, .f32⟩
  | 20 => ⟨S4096x1, .f32⟩
  | 21 => ⟨S4096x12288, .f32⟩
  | 22 => ⟨S4096x12288, .f32⟩
  | 23 => ⟨S4096, .i32⟩
  | 24 => ⟨S_, .f32⟩
  | 25 => ⟨S4096x12288, .f32⟩
  | 26 => ⟨S_, .i32⟩
  | 27 => ⟨S4096, .i32⟩
  | 28 => ⟨S4096, .i1⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S4096x1, .i32⟩
  | 42 => ⟨S4096x2, .i32⟩
  | 43 => ⟨S_, .f32⟩
  | 44 => ⟨S4096, .f32⟩
  | 45 => ⟨S4096x12288, .f32⟩
  | 46 => ⟨S4096x12288, .f32⟩
  | 47 => ⟨S4096x12288, .f32⟩
  | 48 => ⟨S4096x12288, .f32⟩
  | 49 => ⟨S_, .f32⟩
  | 50 => ⟨S4096, .f32⟩
  | 51 => ⟨S4096x1, .f32⟩
  | 52 => ⟨S_, .f32⟩
  | 53 => ⟨S4096x1, .f32⟩
  | 54 => ⟨S4096x1, .f32⟩
  | 55 => ⟨S4096x1, .f32⟩
  | 56 => ⟨S4096x12288, .f32⟩
  | 57 => ⟨S4096x12288, .f32⟩
  | 58 => ⟨S4096x12288, .f32⟩
  | 59 => ⟨S_, .f32⟩
  | 60 => ⟨S4096, .f32⟩
  | 61 => ⟨S_, .f32⟩
  | 62 => ⟨S4096, .f32⟩
  | 63 => ⟨S4096, .f32⟩
  | 64 => ⟨S4096, .i32⟩
  | 65 => ⟨S_, .i32⟩
  | 66 => ⟨S4096, .i32⟩
  | 67 => ⟨S4096, .i1⟩
  | 68 => ⟨S_, .i32⟩
  | 69 => ⟨S4096, .i32⟩
  | 70 => ⟨S4096, .i32⟩
  | 71 => ⟨S4096, .i32⟩
  | 72 => ⟨S4096x1, .i32⟩
  | 73 => ⟨S4096, .f32⟩
  | 74 => ⟨S_, .f32⟩
  | 75 => ⟨S4096, .f32⟩
  | 76 => ⟨S4096, .f32⟩
  | 77 => ⟨S4096, .f32⟩
  | 78 => ⟨S_, .f32⟩
  | 79 => ⟨S_, .f32⟩
  | 80 => ⟨S_, .f32⟩
  | 81 => ⟨S_, .f32⟩
  | 82 => ⟨S4096x1000, .f32⟩
  | 83 => ⟨S4096x1000, .f32⟩
  | 84 => ⟨S_, .f32⟩
  | 85 => ⟨S4096, .f32⟩
  | 86 => ⟨S_, .f32⟩
  | 87 => ⟨S4096, .f32⟩
  | 88 => ⟨S4096, .f32⟩
  | 89 => ⟨S4096x1, .f32⟩
  | 90 => ⟨S4096x1000, .f32⟩
  | 91 => ⟨S4096x1000, .f32⟩
  | 92 => ⟨S4096x1000, .f32⟩
  | 93 => ⟨S_, .f32⟩
  | 94 => ⟨S4096, .f32⟩
  | 95 => ⟨S4096x1, .f32⟩
  | 96 => ⟨S4096x1, .f32⟩
  | 97 => ⟨S4096x1000, .f32⟩
  | 98 => ⟨S4096x1000, .f32⟩
  | 99 => ⟨S4096, .i32⟩
  | 100 => ⟨S4096x1, .i32⟩
  | 101 => ⟨S_, .i32⟩
  | 102 => ⟨S4096x1, .i32⟩
  | 103 => ⟨S4096x1, .i1⟩
  | 104 => ⟨S_, .i32⟩
  | 105 => ⟨S4096x1, .i32⟩
  | 106 => ⟨S4096x1, .i32⟩
  | 107 => ⟨S4096x1, .i32⟩
  | 108 => ⟨S4096x1x1, .i32⟩
  | 109 => ⟨S1, .i32⟩
  | 110 => ⟨S_, .i32⟩
  | 111 => ⟨S4096x1x1, .i32⟩
  | 112 => ⟨S4096x1x1, .i1⟩
  | 113 => ⟨S1x1x1, .i32⟩
  | 114 => ⟨S4096x1x1, .i32⟩
  | 115 => ⟨S4096x1x1, .i1⟩
  | 116 => ⟨S4096x1x1, .i1⟩
  | 117 => ⟨S_, .i1⟩
  | 118 => ⟨S4096x1, .i1⟩
  | 119 => ⟨S4096x1, .f32⟩
  | 120 => ⟨S_, .f32⟩
  | 121 => ⟨S4096x1, .f32⟩
  | 122 => ⟨S4096x1, .f32⟩
  | 123 => ⟨S_, .f32⟩
  | 124 => ⟨S_, .f32⟩
  | 125 => ⟨S_, .f32⟩
  | 126 => ⟨S_, .f32⟩
  | 127 => ⟨S_, .f32⟩
  | _ => ⟨S12288x128, .f32⟩

abbrev hbmTy0_1 (i : Nat) : BufTy := match i % 128 with
  | 0 => ⟨S_, .f32⟩
  | 1 => ⟨S_, .f32⟩
  | 2 => ⟨S_, .f32⟩
  | _ => ⟨S12288x128, .f32⟩

abbrev hbmTy (i : Nat) : BufTy := match i / 128 with
  | 0 => hbmTy0_0 i
  | 1 => hbmTy0_1 i
  | _ => ⟨S12288x128, .f32⟩

abbrev bufTy : (tb : Table) → Fin (tcTables nBuf tb) → BufTy
  | .hbm, ⟨i, _⟩ => hbmTy i
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_10 : Ref sig .tc := ⟨.hbm, 65, rfl⟩
abbrev main_v48 : Ref sig .tc := ⟨.hbm, 66, rfl⟩
abbrev main_v49 : Ref sig .tc := ⟨.hbm, 67, rfl⟩
abbrev main_c_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call0_cst : Ref sig .tc := ⟨.hbm, 84, rfl⟩
abbrev main_call0_v0 : Ref sig .tc := ⟨.hbm, 85, rfl⟩
abbrev main_call0_cst_0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_v5 : Ref sig .tc := ⟨.hbm, 91, rfl⟩
abbrev main_call0_v6 : Ref sig .tc := ⟨.hbm, 92, rfl⟩
abbrev main_call0_cst_1 : Ref sig .tc := ⟨.hbm, 93, rfl⟩
abbrev main_call0_v7 : Ref sig .tc := ⟨.hbm, 94, rfl⟩
abbrev main_call0_v8 : Ref sig .tc := ⟨.hbm, 95, rfl⟩
abbrev main_call0_v9 : Ref sig .tc := ⟨.hbm, 96, rfl⟩
abbrev main_call0_v10 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_call1_c : Ref sig .tc := ⟨.hbm, 101, rfl⟩
abbrev main_call1_v0 : Ref sig .tc := ⟨.hbm, 102, rfl⟩
abbrev main_call1_v1 : Ref sig .tc := ⟨.hbm, 103, rfl⟩
abbrev main_call1_c_0 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_c_1 : Ref sig .tc := ⟨.hbm, 109, rfl⟩
abbrev main_call1_c_2 : Ref sig .tc := ⟨.hbm, 110, rfl⟩
abbrev main_call1_v6 : Ref sig .tc := ⟨.hbm, 111, rfl⟩
abbrev main_call1_v7 : Ref sig .tc := ⟨.hbm, 112, rfl⟩
abbrev main_call1_v8 : Ref sig .tc := ⟨.hbm, 113, rfl⟩
abbrev main_call1_v9 : Ref sig .tc := ⟨.hbm, 114, rfl⟩
abbrev main_call1_v10 : Ref sig .tc := ⟨.hbm, 115, rfl⟩
abbrev main_call1_v11 : Ref sig .tc := ⟨.hbm, 116, rfl⟩
abbrev main_call1_c_3 : Ref sig .tc := ⟨.hbm, 117, rfl⟩
abbrev main_call1_v12 : Ref sig .tc := ⟨.hbm, 118, rfl⟩
abbrev main_call1_v13 : Ref sig .tc := ⟨.hbm, 119, rfl⟩
abbrev main_call1_cst : Ref sig .tc := ⟨.hbm, 120, rfl⟩
abbrev main_call1_v14 : Ref sig .tc := ⟨.hbm, 121, rfl⟩
abbrev main_v65 : Ref sig .tc := ⟨.hbm, 122, rfl⟩
abbrev main_cst_15 : Ref sig .tc := ⟨.hbm, 123, rfl⟩
abbrev main_v66 : Ref sig .tc := ⟨.hbm, 124, rfl⟩
abbrev main_cst_16 : Ref sig .tc := ⟨.hbm, 125, rfl⟩
abbrev main_v67 : Ref sig .tc := ⟨.hbm, 126, rfl⟩
abbrev main_v68 : Ref sig .tc := ⟨.hbm, 127, rfl⟩
abbrev main_cst_17 : Ref sig .tc := ⟨.hbm, 128, rfl⟩
abbrev main_v69 : Ref sig .tc := ⟨.hbm, 129, rfl⟩
abbrev main_v70 : Ref sig .tc := ⟨.hbm, 130, rfl⟩

abbrev nD : Nat := 1
abbrev τ : Topo := Topo.v7x

variable {F : FTy → Type} [FloatOps F]

class Facts₀ : Prop where
  slices_S12288_S4096_0 : S12288.Slices ![0] S4096
  bcast_S4096_S4096x1_0 : S4096.BroadcastsInDim S4096x1 (![0] : Fin 1 → Fin S4096x1.rank)
  bcast_S12288_S1x12288_1 : S12288.BroadcastsInDim S1x12288 (![1] : Fin 1 → Fin S1x12288.rank)
  bcast_S4096x1_S4096x12288_0_1 : S4096x1.BroadcastsInDim S4096x12288 (![0, 1] : Fin 2 → Fin S4096x12288.rank)
  bcast_S1x12288_S4096x12288_0_1 : S1x12288.BroadcastsInDim S4096x12288 (![0, 1] : Fin 2 → Fin S4096x12288.rank)
  slices_S12288x128_S4096x128_0_0 : S12288x128.Slices ![0, 0] S4096x128
  transposes_S12288x128_S128x12288_1_0 : S12288x128.Transposes [1, 0] S128x12288
  bcast_S_S4096x12288 : S_.BroadcastsInDim S4096x12288 (![] : Fin 0 → Fin S4096x12288.rank)
  reducesTo_S4096x12288_S4096_d1 : S4096x12288.ReducesTo [1] S4096
  h_S_ : 0 < S_.numel
  bcast_S_S4096 : S_.BroadcastsInDim S4096 (![] : Fin 0 → Fin S4096.rank)
  concatenates_S4096x1_S4096x1_S4096x2_d1 : Shape.Concatenates [S4096x1, S4096x1] S4096x2 1
  bcast_S_S4096x1 : S_.BroadcastsInDim S4096x1 (![] : Fin 0 → Fin S4096x1.rank)
  reducesTo_S4096_S_d0 : S4096.ReducesTo [0] S_
  bcast_S1x1000_S4096x1000_0_1 : S1x1000.BroadcastsInDim S4096x1000 (![0, 1] : Fin 2 → Fin S4096x1000.rank)
  reducesTo_S4096x1000_S4096_d1 : S4096x1000.ReducesTo [1] S4096
  bcast_S4096x1_S4096x1000_0_1 : S4096x1.BroadcastsInDim S4096x1000 (![0, 1] : Fin 2 → Fin S4096x1000.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  dot_S4096x128_S128x12288_S4096x12288_1_0_0_1_n_n_wf : DotDims.WF S4096x128 S128x12288 S4096x12288 [1] [0] [0] [1] [] []
  scatter_S4096x12288_S4096x2_S4096_n_01_01_1_wf : ScatterDims.WF S4096x12288 S4096x2 S4096 [] [0, 1] [0, 1] 1
  gather_S1000_S4096x1_S4096_n_0_n_n_0_1_1_wf : GatherDims.WF S1000 S4096x1 S4096 [] [0] [] [0] [] 1 ![1]
  gather_S4096x1000_S4096x1x1_S4096x1_n_1_0_0_1_2_11_wf : GatherDims.WF S4096x1000 S4096x1x1 S4096x1 [] [1] [0] [1] [0] 2 ![1, 1]

variable [Facts₀]

def dot_S4096x128_S128x12288_S4096x12288_1_0_0_1_n_n : DotDims S4096x128 S128x12288 S4096x12288 where
  lhsContracting := [1]
  rhsContracting := [0]
  lhsNonContracting := [0]
  rhsNonContracting := [1]
  lhsBatch := []
  rhsBatch := []
  wf := dot_S4096x128_S128x12288_S4096x12288_1_0_0_1_n_n_wf
def scatter_S4096x12288_S4096x2_S4096_n_01_01_1 : ScatterDims S4096x12288 S4096x2 S4096 where
  updateWindowDims := []
  insertedWindowDims := [0, 1]
  scatterDimsToOperandDims := [0, 1]
  indexVectorDim := 1
  wf := scatter_S4096x12288_S4096x2_S4096_n_01_01_1_wf
def gather_S1000_S4096x1_S4096_n_0_n_n_0_1_1 : GatherDims S1000 S4096x1 S4096 where
  offsetDims := []
  collapsedSliceDims := [0]
  operandBatchingDims := []
  startIndicesBatchingDims := []
  startIndexMap := [0]
  indexVectorDim := 1
  sliceSizes := ![1]
  wf := gather_S1000_S4096x1_S4096_n_0_n_n_0_1_1_wf
def gather_S4096x1000_S4096x1x1_S4096x1_n_1_0_0_1_2_11 : GatherDims S4096x1000 S4096x1x1 S4096x1 where
  offsetDims := []
  collapsedSliceDims := [1]
  operandBatchingDims := [0]
  startIndicesBatchingDims := [0]
  startIndexMap := [1]
  indexVectorDim := 2
  sliceSizes := ![1, 1]
  wf := gather_S4096x1000_S4096x1x1_S4096x1_n_1_0_0_1_2_11_wf

class Facts : Prop extends Facts₀ where

variable [Facts]
-- ==== Proof.R0Shared.lean ====
/-
  Region 0 of the kernel program — the contrastive kernel on its 4 × 6 grid — what its three control cases share.
  Point t = 6·(row block) + (column block). The body resets its four accumulators at column block 0, updates them
  at every column block, and stores the output block at column block 5: the two conditions in closed form over
  the grid, where the output window is idle, the staging and scratch buffers the body is called on, each input
  window's block as the region finds it, and the region invariant unfolded to the buffers it holds.
-/
import proofs.«404244_j8306466750557_2_alg».proof.Proof.Gen.KernelIdeal.Launch
import proofs.«404244_j8306466750557_2_alg».proof.Proof.Gen.KernelIdeal.Skeleton
import proofs.«404244_j8306466750557_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

-- membership in a rectangle of the kernel's extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
-- the buffer contents when the region is entered: a parameter, instantiated by the run
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched its block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

/-! ## The two conditions, in closed form over the grid -/

/-- "This is the first column block": the reset of the accumulators runs. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 6 = 0 :=
  (by decide +kernel : ∀ t : Fin grid0.N, cond0_0 (grid0.coords t) ↔ t.val % 6 = 0)

/-- "This is the last column block": the output block is computed and stored. -/
abbrev cond0_1 (i : grid0.Coords) : Prop := k0_cond2 i = 1#1
theorem hcond0_1 : ∀ t : Fin cfg0.N, cond0_1 (grid0.coords t) ↔ t.val % 6 = 5 :=
  (by decide +kernel : ∀ t : Fin grid0.N, cond0_1 (grid0.coords t) ↔ t.val % 6 = 5)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last column block the body stores nothing into the output window, and its block is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last column block the output window is live. -/
theorem liveAt0_5 : ∀ t : Fin cfg0.N, cond0_1 (grid0.coords t) → cfg0.idle 5 (grid0.coords t) = false := by decide +kernel

/-! ## The buffers the body is called on -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S12288x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x12288 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The four accumulators: whole scoped buffers of the kernel's own (running maximum, exponential sum, positives' similarity sum, positives' count). -/
abbrev scM0_0 : Memref sig .tc .vmem S1024x1 .f32 := Memref.whole cc0_scratch0
abbrev VS0_0 : View sig .tc .vmem S1024x1 .f32 := scM0_0.view
abbrev scM0_1 : Memref sig .tc .vmem S1024x1 .f32 := Memref.whole cc0_scratch1
abbrev VS0_1 : View sig .tc .vmem S1024x1 .f32 := scM0_1.view
abbrev scM0_2 : Memref sig .tc .vmem S1024x1 .f32 := Memref.whole cc0_scratch2
abbrev VS0_2 : View sig .tc .vmem S1024x1 .f32 := scM0_2.view
abbrev scM0_3 : Memref sig .tc .vmem S1024x1 .f32 := Memref.whole cc0_scratch3
abbrev VS0_3 : View sig .tc .vmem S1024x1 .f32 := scM0_3.view
/-- One staging buffer of the output window, through which its contents are stated. -/
abbrev VO0_5 : View sig .tc .vmem S1024x1 .f32 := (Memref.whole cc0_stg5_0 : Memref sig .tc .vmem S1024x1 .f32).view

/-- The core's other scoped buffers (the second region's staging buffers), each whole at some contents: they ride through the region untouched. -/
def others0 (c : Dev nD) : sProp 𝕄 :=
  iprop((∃ d, owns (c : Thread nD τ) (Memref.whole cc1_stg0_0 : Memref sig .tc .vmem S2048x1000 .f32) fullShare d)
    ∗ (∃ d, owns (c : Thread nD τ) (Memref.whole cc1_stg0_1 : Memref sig .tc .vmem S2048x1000 .f32) fullShare d)
    ∗ (∃ d, owns (c : Thread nD τ) (Memref.whole cc1_stg1_0 : Memref sig .tc .vmem S1x1000 .f32) fullShare d)
    ∗ (∃ d, owns (c : Thread nD τ) (Memref.whole cc1_stg2_0 : Memref sig .tc .vmem S2048x1 .i32) fullShare d)
    ∗ (∃ d, owns (c : Thread nD τ) (Memref.whole cc1_stg2_1 : Memref sig .tc .vmem S2048x1 .i32) fullShare d)
    ∗ (∃ d, owns (c : Thread nD τ) (Memref.whole cc1_stg3_0 : Memref sig .tc .vmem S2048x1 .f32) fullShare d)
    ∗ (∃ d, owns (c : Thread nD τ) (Memref.whole cc1_stg3_1 : Memref sig .tc .vmem S2048x1 .f32) fullShare d))

/-- The region invariant of a kernel that describes none of its scratch, unfolded: the four accumulators at some contents, the
    other scoped buffers, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d) ∗ others0 c) ∗ (∃ r, prngReg c r)) := by
  unfold Pipeline.ΦA others0; rw [scopedRest0_eq]; simp only [scM0_0, scM0_1, scM0_2, scM0_3, owns_whole]; try rfl

end Cert.KernelIdeal.Frame

end
-- ==== Proof.R0Runs.lean ====
/-
  Region 0's kernel body run once per control case: A at the first column block, B at the middle ones, C at the last.
  Each run is the body's memory operations stepped in order over whole staging buffers; what each buffer ends with
  is recorded as the list of its stores.
-/
import proofs.«404244_j8306466750557_2_alg».proof.Proof.R0Shared
-- membership in a rectangle of the kernel's extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first column block (the reset runs, no output is stored): the accumulators start from anything. On whole buffers — the five input blocks at their contents, the output buffer at contents handed back untouched —
    it runs to the continuation with the inputs as they were and each buffer it stored into holding its stores, as pieces (last first):
    the pieces are found by running the body's memory operations in order. -/
noncomputable def kernelRun0_A (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S12288x128 .f32) (x2 : Vec F S1024x1 .i32) (x3 : Vec F S1x12288 .i32) (x4 : Vec F S1024x1 .f32) :
    Σ' (L5 : List (View.Piece (Elt F) S1024x1 .f32)) (LS0 : List (View.Piece (Elt F) S1024x1 .f32)) (LS1 : List (View.Piece (Elt F) S1024x1 .f32)) (LS2 : List (View.Piece (Elt F) S1024x1 .f32)), { LS3 : List (View.Piece (Elt F) S1024x1 .f32) //
      ∀ (xi5 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi5
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare xi5
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)
              ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨[], ?_, ?_, ?_, ?_, fun xi5 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

set_option maxHeartbeats 4000000 in
/-- The body at a middle column block (no reset, no output): the accumulators start from what the block before left. On whole buffers — the five input blocks at their contents, the output buffer at contents handed back untouched —
    it runs to the continuation with the inputs as they were and each buffer it stored into holding its stores, as pieces (last first):
    the pieces are found by running the body's memory operations in order. -/
noncomputable def kernelRun0_B (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) :
    Σ' (L5 : List (View.Piece (Elt F) S1024x1 .f32)) (LS0 : List (View.Piece (Elt F) S1024x1 .f32)) (LS1 : List (View.Piece (Elt F) S1024x1 .f32)) (LS2 : List (View.Piece (Elt F) S1024x1 .f32)), { LS3 : List (View.Piece (Elt F) S1024x1 .f32) //
      ∀ (xi5 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi5
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare xi5
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)
              ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨[], ?_, ?_, ?_, ?_, fun xi5 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

set_option maxHeartbeats 4000000 in
/-- The body at the last column block (no reset; the output block is computed from the updated accumulators and stored). On whole buffers — the five input blocks at their contents, the output buffer at anything —
    it runs to the continuation with the inputs as they were and each buffer it stored into holding its stores, as pieces (last first):
    the pieces are found by running the body's memory operations in order. -/
noncomputable def kernelRun0_C (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) :
    Σ' (L5 : List (View.Piece (Elt F) S1024x1 .f32)) (LS0 : List (View.Piece (Elt F) S1024x1 .f32)) (LS1 : List (View.Piece (Elt F) S1024x1 .f32)) (LS2 : List (View.Piece (Elt F) S1024x1 .f32)), { LS3 : List (View.Piece (Elt F) S1024x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ owns (c : Thread nD τ) arg11 fullShare xs3
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)
              ∗ (∃ f, arg11.view.loc (c : Thread nD τ) ↦[arg11.view.set]{fullShare} arg11.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    iexists _; iexact HS3

end Cert.KernelIdeal.Frame

end
-- ==== Proof.R0Frame.lean ====
/-
  Region 0 of the kernel program, point by point. What each control case leaves in the four accumulators and in the
  output block is read back from the case's run; `outsAt0` follows the grid: at a first column block the case-A
  contents from the point's input blocks alone, at the others the case's contents over what the point before left
  in the accumulators. The region invariant holds the accumulators at those contents between points; the proof
  data hands each input window its block and the output window what the last column block of a row block stored.
-/
import proofs.«404244_j8306466750557_2_alg».proof.Proof.R0Runs
-- membership in a rectangle of the kernel's extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-! ## What each case leaves -/

/-- Case A's stores into accumulator 0 cover it. -/
theorem scover0_A_0 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S12288x128 .f32) (x2 : Vec F S1024x1 .i32) (x3 : Vec F S1x12288 .i32) (x4 : Vec F S1024x1 .f32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).2.1 S1024x1.size (by sl_kernel_rfl) y

/-- What case A leaves in accumulator 0: its stores read back. -/
def sout0_A_0 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S12288x128 .f32) (x2 : Vec F S1024x1 .i32) (x3 : Vec F S1x12288 .i32) (x4 : Vec F S1024x1 .f32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4).2.1)

/-- Case A's stores into accumulator 1 cover it. -/
theorem scover0_A_1 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S12288x128 .f32) (x2 : Vec F S1024x1 .i32) (x3 : Vec F S1x12288 .i32) (x4 : Vec F S1024x1 .f32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).2.2.1 S1024x1.size (by sl_kernel_rfl) y

/-- What case A leaves in accumulator 1: its stores read back. -/
def sout0_A_1 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S12288x128 .f32) (x2 : Vec F S1024x1 .i32) (x3 : Vec F S1x12288 .i32) (x4 : Vec F S1024x1 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4).2.2.1)

/-- Case A's stores into accumulator 2 cover it. -/
theorem scover0_A_2 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S12288x128 .f32) (x2 : Vec F S1024x1 .i32) (x3 : Vec F S1x12288 .i32) (x4 : Vec F S1024x1 .f32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).2.2.2.1 S1024x1.size (by sl_kernel_rfl) y

/-- What case A leaves in accumulator 2: its stores read back. -/
def sout0_A_2 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S12288x128 .f32) (x2 : Vec F S1024x1 .i32) (x3 : Vec F S1x12288 .i32) (x4 : Vec F S1024x1 .f32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3 x4).2.2.2.1)

/-- Case A's stores into accumulator 3 cover it. -/
theorem scover0_A_3 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S12288x128 .f32) (x2 : Vec F S1024x1 .i32) (x3 : Vec F S1x12288 .i32) (x4 : Vec F S1024x1 .f32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).2.2.2.2.1 S1024x1.size (by sl_kernel_rfl) y

/-- What case A leaves in accumulator 3: its stores read back. -/
def sout0_A_3 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S12288x128 .f32) (x2 : Vec F S1024x1 .i32) (x3 : Vec F S1x12288 .i32) (x4 : Vec F S1024x1 .f32) : Vec F S1024x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 hc0 hc1 x0 x1 x2 x3 x4).2.2.2.2.1)

/-- What case A leaves in the output window's buffer: its stores read back (none: a placeholder nothing consults, the window being idle and not written back at these points). -/
def out0_A_5 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S12288x128 .f32) (x2 : Vec F S1024x1 .i32) (x3 : Vec F S1x12288 .i32) (x4 : Vec F S1024x1 .f32) : Vec F S1024x1 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3 x4).1)

/-- Case B's stores into accumulator 0 cover it. -/
theorem scover0_B_0 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.1 S1024x1.size (by sl_kernel_rfl) y

/-- What case B leaves in accumulator 0: its stores read back. -/
def sout0_B_0 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.1)

/-- Case B's stores into accumulator 1 cover it. -/
theorem scover0_B_1 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1 S1024x1.size (by sl_kernel_rfl) y

/-- What case B leaves in accumulator 1: its stores read back. -/
def sout0_B_1 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1)

/-- Case B's stores into accumulator 2 cover it. -/
theorem scover0_B_2 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1 S1024x1.size (by sl_kernel_rfl) y

/-- What case B leaves in accumulator 2: its stores read back. -/
def sout0_B_2 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1)

/-- Case B's stores into accumulator 3 cover it. -/
theorem scover0_B_3 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.2.1 S1024x1.size (by sl_kernel_rfl) y

/-- What case B leaves in accumulator 3: its stores read back. -/
def sout0_B_3 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) : Vec F S1024x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.2.1)

/-- What case B leaves in the output window's buffer: its stores read back (none: a placeholder nothing consults, the window being idle and not written back at these points). -/
def out0_B_5 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) : Vec F S1024x1 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2 xs3).1)

/-- Case C's stores into accumulator 0 cover it. -/
theorem scover0_C_0 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.1 S1024x1.size (by sl_kernel_rfl) y

/-- What case C leaves in accumulator 0: its stores read back. -/
def sout0_C_0 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.1)

/-- Case C's stores into accumulator 1 cover it. -/
theorem scover0_C_1 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1 S1024x1.size (by sl_kernel_rfl) y

/-- What case C leaves in accumulator 1: its stores read back. -/
def sout0_C_1 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.1)

/-- Case C's stores into accumulator 2 cover it. -/
theorem scover0_C_2 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1 S1024x1.size (by sl_kernel_rfl) y

/-- What case C leaves in accumulator 2: its stores read back. -/
def sout0_C_2 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.1)

/-- Case C's stores into accumulator 3 cover it. -/
theorem scover0_C_3 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.2.1 S1024x1.size (by sl_kernel_rfl) y

/-- What case C leaves in accumulator 3: its stores read back. -/
def sout0_C_3 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) : Vec F S1024x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2 xs3).2.2.2.2.1)

/-- Case C's one store into the output block covers it. -/
theorem cover0_C_5 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2 xs3).1 S1024x1.size (by sl_kernel_rfl) y

/-- What case C leaves in the output window's buffer: its stores read back. -/
def out0_C_5 (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) : Vec F S1024x1 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2 xs3).1)

/-! ## What the buffers hold after each point -/

/-- After the body at position `n`: the output window's buffer, then the four accumulators. The first column block of a
    row block (n ≡ 0 mod 6) starts the accumulators afresh; every other point continues from the point before. -/
def outsAt0 (c : Dev nD) : (n : ℕ) → n < cfg0.N → Vec F S1024x1 .f32 × Vec F S1024x1 .f32 × Vec F S1024x1 .f32 × Vec F S1024x1 .f32 × Vec F S1024x1 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
        sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩),
        sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 6 = 0 then
      if h1 : (n + 1) % 6 = 5 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩),
        sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 6 = 5 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) ((outsAt0 c n (Nat.lt_of_succ_lt hn)).2.1) ((outsAt0 c n (Nat.lt_of_succ_lt hn)).2.2.1) ((outsAt0 c n (Nat.lt_of_succ_lt hn)).2.2.2.1) ((outsAt0 c n (Nat.lt_of_succ_lt hn)).2.2.2.2),
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) ((outsAt0 c n (Nat.lt_of_succ_lt hn)).2.1) ((outsAt0 c n (Nat.lt_of_succ_lt hn)).2.2.1) ((outsAt0 c n (Nat.lt_of_succ_lt hn)).2.2.2.1) ((outsAt0 c n (Nat.lt_of_succ_lt hn)).2.2.2.2),
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) ((outsAt0 c n (Nat.lt_of_succ_lt hn)).2.1) ((outsAt0 c n (Nat.lt_of_succ_lt hn)).2.2.1) ((outsAt0 c n (Nat.lt_of_succ_lt hn)).2.2.2.1) ((outsAt0 c n (Nat.lt_of_succ_lt hn)).2.2.2.2),
        sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) ((outsAt0 c n (Nat.lt_of_succ_lt hn)).2.1) ((outsAt0 c n (Nat.lt_of_succ_lt hn)).2.2.1) ((outsAt0 c n (Nat.lt_of_succ_lt hn)).2.2.2.1) ((outsAt0 c n (Nat.lt_of_succ_lt hn)).2.2.2.2),
        sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) ((outsAt0 c n (Nat.lt_of_succ_lt hn)).2.1) ((outsAt0 c n (Nat.lt_of_succ_lt hn)).2.2.1) ((outsAt0 c n (Nat.lt_of_succ_lt hn)).2.2.2.1) ((outsAt0 c n (Nat.lt_of_succ_lt hn)).2.2.2.2))
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) ((outsAt0 c n (Nat.lt_of_succ_lt hn)).2.1) ((outsAt0 c n (Nat.lt_of_succ_lt hn)).2.2.1) ((outsAt0 c n (Nat.lt_of_succ_lt hn)).2.2.2.1) ((outsAt0 c n (Nat.lt_of_succ_lt hn)).2.2.2.2),
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) ((outsAt0 c n (Nat.lt_of_succ_lt hn)).2.1) ((outsAt0 c n (Nat.lt_of_succ_lt hn)).2.2.1) ((outsAt0 c n (Nat.lt_of_succ_lt hn)).2.2.2.1) ((outsAt0 c n (Nat.lt_of_succ_lt hn)).2.2.2.2),
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) ((outsAt0 c n (Nat.lt_of_succ_lt hn)).2.1) ((outsAt0 c n (Nat.lt_of_succ_lt hn)).2.2.1) ((outsAt0 c n (Nat.lt_of_succ_lt hn)).2.2.2.1) ((outsAt0 c n (Nat.lt_of_succ_lt hn)).2.2.2.2),
        sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) ((outsAt0 c n (Nat.lt_of_succ_lt hn)).2.1) ((outsAt0 c n (Nat.lt_of_succ_lt hn)).2.2.1) ((outsAt0 c n (Nat.lt_of_succ_lt hn)).2.2.2.1) ((outsAt0 c n (Nat.lt_of_succ_lt hn)).2.2.2.2),
        sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) ((outsAt0 c n (Nat.lt_of_succ_lt hn)).2.1) ((outsAt0 c n (Nat.lt_of_succ_lt hn)).2.2.1) ((outsAt0 c n (Nat.lt_of_succ_lt hn)).2.2.2.1) ((outsAt0 c n (Nat.lt_of_succ_lt hn)).2.2.2.2))

theorem outsAt0_A (c : Dev nD) (t : Fin cfg0.N) (h0 : t.val % 6 = 0) (h1 : ¬t.val % 6 = 5) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t),
        sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t),
        sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t),
        sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t),
        sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

theorem outsAt0_B (c : Dev nD) (t : Fin cfg0.N) (h0 : ¬t.val % 6 = 0) (h1 : ¬t.val % 6 = 5) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) ((outsAt0 V c (t.val - 1) (Nat.lt_of_le_of_lt (Nat.sub_le _ _) t.isLt)).2.1) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2),
        sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) ((outsAt0 V c (t.val - 1) (Nat.lt_of_le_of_lt (Nat.sub_le _ _) t.isLt)).2.1) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2),
        sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) ((outsAt0 V c (t.val - 1) (Nat.lt_of_le_of_lt (Nat.sub_le _ _) t.isLt)).2.1) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2),
        sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) ((outsAt0 V c (t.val - 1) (Nat.lt_of_le_of_lt (Nat.sub_le _ _) t.isLt)).2.1) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2),
        sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) ((outsAt0 V c (t.val - 1) (Nat.lt_of_le_of_lt (Nat.sub_le _ _) t.isLt)).2.1) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 6 = 0) (h1 : t.val % 6 = 5) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) ((outsAt0 V c (t.val - 1) (Nat.lt_of_le_of_lt (Nat.sub_le _ _) t.isLt)).2.1) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2),
        sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) ((outsAt0 V c (t.val - 1) (Nat.lt_of_le_of_lt (Nat.sub_le _ _) t.isLt)).2.1) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2),
        sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) ((outsAt0 V c (t.val - 1) (Nat.lt_of_le_of_lt (Nat.sub_le _ _) t.isLt)).2.1) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2),
        sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) ((outsAt0 V c (t.val - 1) (Nat.lt_of_le_of_lt (Nat.sub_le _ _) t.isLt)).2.1) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2),
        sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) ((outsAt0 V c (t.val - 1) (Nat.lt_of_le_of_lt (Nat.sub_le _ _) t.isLt)).2.1) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2)) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point nothing is known of the accumulators; afterwards each holds what the
    point before left in it. The other scoped buffers and the generator register ride along. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1)
      ∗ owns (c : Thread nD τ) scM0_2 fullShare ((outsAt0 V c n hn).2.2.2.1) ∗ owns (c : Thread nD τ) scM0_3 fullShare ((outsAt0 V c n hn).2.2.2.2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2.1)
      ∗ owns (c : Thread nD τ) scM0_2 fullShare ((outsAt0 V c n hn).2.2.2.1) ∗ owns (c : Thread nD τ) scM0_3 fullShare ((outsAt0 V c n hn).2.2.2.2) ∗ others0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2.1)
      ∗ owns (c : Thread nD τ) scM0_2 fullShare ((outsAt0 V c (n - 1) (by omega)).2.2.2.1) ∗ owns (c : Thread nD τ) scM0_3 fullShare ((outsAt0 V c (n - 1) (by omega)).2.2.2.2) ∗ others0 c) ∗ (∃ r, prngReg c r)) := by
  cases n with
  | zero => exact absurd rfl hz
  | succ n => rfl

/-! ## The proof data -/

/-- Pipeline 0's proof data on core `c`: the arrays as the region finds them; after the body each input's buffer at its block,
    the output's at `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point. The inputs' buffers hold their blocks; the closed forms say which case the point is in; the
    invariant hands the body the accumulators at what the point before left (at anything before the first point) and
    takes them back at this point's contents; away from the last column block the output buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 24 := lt_of_lt_of_eq t.isLt (show cfg0.N = 24 from N_0)
  by_cases h0 : t.val % 6 = 0
  · by_cases h1 : t.val % 6 = 5
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [outsAt0_A V c t h0 h1]
      unfold sout0_A_0 sout0_A_1 sout0_A_2 sout0_A_3; (try dsimp only)
      by_cases hz : t.val = 0
      ·
        rw [PhiS_castSucc V c t, PhiS_zero V c _ _ hz, PhiA0_eq]
        iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hoth Hg]
        · isplitl [HS0 HS1 HS2 HS3 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS_castSucc V c t, PhiS_pos V c _ _ hz]
        iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        isplitl [HS3]; · iexists _; iexact HS3
        iintro ⟨H0, H1, H2, H3, H4, H5, ⟨%es0, HS0⟩, ⟨%es1, HS1⟩, ⟨%es2, HS2⟩, ⟨%es3, HS3⟩⟩
        isplitl [HS0 HS1 HS2 HS3 Hoth Hg]
        · isplitl [HS0 HS1 HS2 HS3 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 6 = 5
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold out0_C_5 sout0_C_0 sout0_C_1 sout0_C_2 sout0_C_3; (try dsimp only)
      by_cases hz : t.val = 0
      · exfalso; omega
      ·
        rw [PhiS_castSucc V c t, PhiS_pos V c _ _ hz]
        iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _ _ _).2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, ⟨%e5, H5⟩, ⟨%es0, HS0⟩, ⟨%es1, HS1⟩, ⟨%es2, HS2⟩, ⟨%es3, HS3⟩⟩
        isplitl [HS0 HS1 HS2 HS3 Hoth Hg]
        · isplitl [HS0 HS1 HS2 HS3 Hoth]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t (fun h => h1 ((hcond0_1 t).mp h))) (noFlush0_5 t (fun h => h1 ((hcond0_1 t).mp h)))]
      rw [outsAt0_B V c t h0 h1]
      unfold sout0_B_0 sout0_B_1 sout0_B_2 sout0_B_3; (try dsimp only)
      by_cases hz : t.val = 0
      · exfalso; omega
      ·
        rw [PhiS_castSucc V c t, PhiS_pos V c _ _ hz]
        iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _ _ _).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hoth Hg]
        · isplitl [HS0 HS1 HS2 HS3 Hoth]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the plain one back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3, Hoth⟩, Hg⟩
  isplitl [HS0 HS1 HS2 HS3 Hoth]
  · isplitl [HS0]; · iexists _; iexact HS0
    isplitl [HS1]; · iexists _; iexact HS1
    isplitl [HS2]; · iexists _; iexact HS2
    isplitl [HS3]; · iexists _; iexact HS3
    iexact Hoth
  iexact Hg

theorem hout0 (c : Dev nD) : (dat0 V c).Φ (Fin.last cfg0.N) ⊢ Pipeline.ΦA spec0 c :=
  Phi_out0 V c _ (by rw [Fin.val_last]; have : cfg0.N = 24 := N_0; omega)

end

end Cert.KernelIdeal.Frame

end
-- ==== Proof.R1Frame.lean ====
/- Region 1 of the kernel program (the cross-entropy kernel, pipeline 1) as a pipeline of the plainest class, stated
   at a PARAMETER `V` (the TensorCore's buffer contents when the region is entered) and at any float family `F`.

   The kernel reads three blocks at a grid point — a [2048,1000] block of logits, the whole [1,1000] weight row, a
   [2048,1] block of labels — and writes one [2048,1] block: a closed function `k1_pay1` of the three. So what the
   pipeline's body leaves in the output window's staging buffer is that function of the three input blocks, and what it
   finds in each input window's staging buffer is that window's block at the point, whether or not the block was moved
   there at that very point (the weight row is moved once, and its block index never changes). This module gives the
   blocks (`iblk1`), the output as a function of them (`out1_3`), the body's Hoare triple (`sound_kernel1`), the
   pipeline's proof data (`dat1`) and the library's body obligation for it (`body_obligation1`). -/
import proofs.«404244_j8306466750557_2_alg».proof.Proof.Gen.KernelIdeal.Launch
import proofs.«404244_j8306466750557_2_alg».proof.Proof.Gen.KernelIdeal.Skeleton
import proofs.«404244_j8306466750557_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of 2048 entries recurses once per coordinate of that axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents at the moment region 1 is entered
variable (V : (c : Dev nD) → (b : Ref sig .tc) → Buf (Elt F) ((c : Thread nD τ).loc b))

/-! ## The windows' blocks -/

/-- The block of window `w` at grid point `t`: the entries of the window's array, as the region finds it, that the
    window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The logits window: for any proof data over `V`'s array whose body leaves the block where it found it, the current
    staging buffer holds the block of the point. The block is moved in at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window: its block index is the same at both points, so the row moved in at the first point is still
    the block of the second; the staging buffer holds the block of the point at either. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The label window: as the logits window, moved in at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S2048x1000 := Rect.unit (s := S2048x1000) ![0, 0] S2048x1000.size inb_S2048x1000_S2048x1000_0_0
abbrev r1_1 : Rect S1x1000 := Rect.unit (s := S1x1000) ![0, 0] S1x1000.size inb_S1x1000_S1x1000_0_0
abbrev r1_2 : Rect S2048x1 := Rect.unit (s := S2048x1) ![0, 0] S2048x1.size inb_S2048x1_S2048x1_0_0

/-! ## What the body leaves in the output window's buffer -/

/-- The output buffer after the body, as a function of the three input blocks: the one store's payload laid over the
    whole buffer. -/
def out1_3 (x0 : Vec F S2048x1000 .f32) (x1 : Vec F S1x1000 .f32) (x2 : Vec F S2048x1 .i32) : Vec F S2048x1 .f32 :=
  View.canon [⟨r1_2, k1_pay1 (View.ld x0 r1_0) (View.ld x1 r1_1) (View.ld x2 r1_2)⟩]

/-- The one store is of the whole buffer: every index lies in its rectangle. -/
theorem cover1_3 (p0 : Vec F S2048x1 .f32) (y : S2048x1.Idx) :
    ∃ pc ∈ ([⟨r1_2, p0⟩] : List (View.Piece (Elt F) S2048x1 .f32)), y ∈ pc.1.set :=
  View.cover_of_tiled [⟨r1_2, p0⟩] S2048x1.size (by rfl) y

/-! ## The body's triple -/

set_option maxHeartbeats 1000000 in
/-- The kernel on four whole memrefs, the three inputs' reading `x0`, `x1`, `x2` and the output's holding anything:
    it runs to a state where the inputs' read as before and the output's reads `out1_3 x0 x1 x2`. (The kernel also
    loads the output buffer before it stores; the value loaded is not used.) -/
theorem sound_kernel1 (c : Dev nD) (E : Set ℕ) (i : grid1.Coords) (arg1 : Memref sig .tc .vmem S2048x1000 .f32) (harg1 : arg1.IsWhole)
    (arg2 : Memref sig .tc .vmem S1x1000 .f32) (harg2 : arg2.IsWhole) (arg3 : Memref sig .tc .vmem S2048x1 .i32) (harg3 : arg3.IsWhole)
    (arg4 : Memref sig .tc .vmem S2048x1 .f32) (harg4 : arg4.IsWhole)
    (x0 : Vec F S2048x1000 .f32) (x1 : Vec F S1x1000 .f32) (x2 : Vec F S2048x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__ce_kernel i arg1 harg1 arg2 harg2 arg3 harg3 arg4 harg4) K := by
  simp only [cc1__ce_kernel_eq_skeleton]; unfold cc1__ce_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays are `V`'s; after the body at point `t` each input window's
    buffer holds its block and the output window's holds `out1_3` of the three blocks; the invariant is the class's
    (the scoped rest and the generator register, untouched); every share is full and nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by
  dsimp only [dat1]

/-- Each input window's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's debts, and each window's current staging
    buffer at what the pipeline has put there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the same with each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks, so the kernel's triple applies at those blocks;
    the invariant and the debts are carried across unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.Run.lean ====
/-
  The kernel program's run. @main is five segments: host operations, the contrastive region, host operations, the
  cross-entropy region, host operations. The buffer contents at each boundary are a fold from the launch memory: a
  host stretch applies its operations; a region replaces its arrays by what its write-backs leave and keeps every
  other buffer. Each region is entered from every unscoped buffer at the boundary's contents and left at the next
  boundary's; the generator register and the core's (empty) dues ride along. The launch then says: every weakly fair
  execution terminates with every unscoped buffer at the last boundary's contents — from which the argument arrays
  read back as launched, and the result as the fold's value.
-/
import proofs.«404244_j8306466750557_2_alg».proof.Proof.R0Frame
import proofs.«404244_j8306466750557_2_alg».proof.Proof.R1Frame
import proofs.«404244_j8306466750557_2_alg».proof.Proof.Gen.KernelIdeal.Regions
-- membership in a rectangle of the kernel's extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => m (c, b)
/-- After the first host stretch: what the contrastive region is entered from. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the contrastive region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second host stretch: what the cross-entropy region is entered from. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the cross-entropy region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last host stretch: the end. -/
abbrev W5 : Dev nD → Valuation τ sig (Elt F) := fun c => StableHlo.after hostOps2 (W4 m c)

/-! ## The arguments end as launched: no host operation writes one, and a region only reads it -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 1).trans (((dat0 (V1 m) c).arrAt_in 1 rfl _).trans (A_eq0 (V1 m) c 1))
    _ = W0 m c (Proc.devRef .tc main_arg0) := StableHlo.after_of_writes_sub hostOps0 _ hostOps0_writes (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := (W4_arr m c 0).trans (((dat1 (V3 m) c).arrAt_in 0 rfl _).trans (A_eq1 (V3 m) c 0))
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := (W4_arr m c 1).trans (((dat1 (V3 m) c).arrAt_in 1 rfl _).trans (A_eq1 (V3 m) c 1))
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents. -/
abbrev Tₙ (c : Dev nD) : sProp 𝕄 := StableHlo.held (c : Thread nD τ) (Pipeline.ucRefs τ sig) (W5 m c)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄)
        ⊢ iprop(Tₙ m c ∗ ∃ W, owes (c : Thread nD τ) (0 : CellTallies nD τ sig Unit) W)
      iintro ⟨Hh, -, HO⟩
      isplitl [Hh]; · iexact Hh
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      show (iprop(StableHlo.held (c : Thread nD τ) (Pipeline.ucRefs τ sig) (W5 m c) ∗ SI s') : sProp 𝕄) ⊢ _
      unfold StableHlo.held
      iintro ⟨Hh, HSI⟩
      imodintro
      iapply (pointsTo_read_all (Pipeline.ucRefs τ sig) (fun b => (((c : Thread nD τ)).1, b)) (W5 m c) s')
      isplitl [Hh] <;> iassumption)
    (hQ := fun s h => h)

/-- THE FRAME, at any float family: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Frame

end
-- ==== Proof.Spec.lean ====
/-
  The mathematics both programs compute, on plain index types and extended reals.

  A batch of 4096 anchors (the first rows of a 12288 × 128 feature table) is scored against every row of the
  table: the similarity of anchor i and row j is their inner product over the temperature. Per anchor, a
  softmax over all rows but the anchor's own, averaged over the rows that carry the anchor's label (its
  positives), gives the supervised-contrastive term; a log-softmax of the class logits plus a per-class offset,
  read at the anchor's class, gives the cross-entropy term; the result is the mean of the second, negated,
  plus the mean of the first weighted per anchor.

  The two programs arrange this differently: one divides the inner product by the temperature, takes one
  maximum and one sum over all 12288 rows, and averages the log-probabilities over the positives; the other
  multiplies by the temperature's reciprocal, walks the rows in six blocks of 2048 carrying a running maximum and
  rescaled running sums, and subtracts the maximum and the log-sum once after averaging the similarities.
  This module states both arrangements and the block recurrence; that they agree on finite data is proved
  in the module that imports it.
-/
import Idealize.ShloMosaic.PureOps.Ideal

noncomputable section

namespace Cert.Spec

open Idealize.ShloMosaic

/-- The temperature: the single-precision word of 0.07, read exactly. -/
def temp : EReal := Ideal.ofBits .f32 0x3D8F5C29#32
/-- The reciprocal of that word's exact value. -/
def invTemp : EReal := ((134217728 / 9395241 : ℝ) : EReal)
/-- The guard added under the logarithm. -/
def eps : EReal := Ideal.ofBits .f32 0x2B8CBCCC#32
/-- Minus one, one, and the batch size 4096, as the words both programs carry. -/
def negOne : EReal := Ideal.ofBits .f32 0xBF800000#32
def one : EReal := Ideal.ofBits .f32 0x3F800000#32
def count : EReal := Ideal.ofBits .f32 0x45800000#32

/-- Anchor `i` as a row of the whole table. -/
def anchor (i : Fin 4096) : Fin 12288 := Fin.castLE (by decide) i

/-- Column `q` of block `b`, the rows walked in six blocks of 2048. -/
def col (b : Fin 6) (q : Fin 2048) : Fin 12288 := ⟨2048 * b.val + q.val, by have := b.isLt; have := q.isLt; omega⟩

section Contrastive

variable (f : Fin 12288 → Fin 128 → EReal) (lab : Fin 12288 → BitVec 32)

/-- The inner product of anchor `i` with row `j`. -/
def dot (i : Fin 4096) (j : Fin 12288) : EReal := ∑ k : Fin 128, f (anchor i) k * f j k
/-- Zero at the anchor's own row, one elsewhere. -/
def notSelf (i : Fin 4096) (j : Fin 12288) : EReal := if i.val = j.val then 0 else 1
/-- One where row `j` carries anchor `i`'s label. -/
def sameLabel (i : Fin 4096) (j : Fin 12288) : EReal := if lab (anchor i) = lab j then 1 else 0
/-- The positives of anchor `i`: the other rows with its label. -/
def pos (i : Fin 4096) (j : Fin 12288) : EReal := sameLabel lab i j * notSelf i j

/-- The similarity as one program scales it: the quotient by the temperature. -/
def simDiv (i : Fin 4096) (j : Fin 12288) : EReal := Ideal.div (dot f i j) temp
/-- And as the other does: the product with the reciprocal. -/
def simMul (i : Fin 4096) (j : Fin 12288) : EReal := dot f i j * invTemp

variable (a : Fin 4096 → Fin 12288 → EReal)

/-- The largest similarity in row `i`, the anchor's own column included. -/
def rowMax (i : Fin 4096) : EReal := Finset.univ.sup (a i)
/-- The softmax denominator of row `i`: every column but the anchor's own. -/
def expSum (i : Fin 4096) : EReal := ∑ j, Ideal.exp (a i j - rowMax a i) * notSelf i j
/-- How many positives anchor `i` has. -/
def posCount (i : Fin 4096) : EReal := ∑ j, pos lab i j
/-- The log-probability of column `j` in row `i`. -/
def logProb (i : Fin 4096) (j : Fin 12288) : EReal := (a i j - rowMax a i) - Ideal.log (expSum a i + eps)
/-- The mean log-probability over the positives, averaged entry by entry. -/
def meanLogProb (i : Fin 4096) : EReal := Ideal.div (∑ j, pos lab i j * logProb a i j) (posCount lab i)
/-- The same mean with the maximum and the log-sum subtracted once, after averaging the similarities. -/
def meanShifted (i : Fin 4096) : EReal :=
  (Ideal.div (∑ j, pos lab i j * a i j) (posCount lab i) - rowMax a i) - Ideal.log (expSum a i + eps)

/-- The running state of the block walk: maximum so far, rescaled exponential sum, sum of the positives' similarities, their count. -/
structure Acc where
  m : EReal
  l : EReal
  s : EReal
  c : EReal

/-- Before the first block: no maximum yet, empty sums. -/
def accInit : Acc := ⟨⊥, 0, 0, 0⟩

/-- One block of row `i`: the maximum grows, the exponential sum is rescaled to the new maximum and extended, the
    other two sums are extended. -/
def accStep (i : Fin 4096) (b : Fin 6) (st : Acc) : Acc :=
  let m' := max st.m (Finset.univ.sup fun q => a i (col b q))
  { m := m'
    l := st.l * Ideal.exp (st.m - m') + ∑ q, Ideal.exp (a i (col b q) - m') * notSelf i (col b q)
    s := st.s + ∑ q, pos lab i (col b q) * a i (col b q)
    c := st.c + ∑ q, pos lab i (col b q) }

/-- The state after the first `n` blocks. -/
def accAfter (i : Fin 4096) : ℕ → Acc
  | 0 => accInit
  | n + 1 => if h : n < 6 then accStep lab a i ⟨n, h⟩ (accAfter i n) else accAfter i n

/-- What the block walk returns for row `i` from its final state. -/
def meanOfAcc (st : Acc) : EReal := (Ideal.div st.s st.c - st.m) - Ideal.log (st.l + eps)

/-- The per-anchor contrastive term in the two arrangements, `rew` the anchor's weight. -/
def rowLossDiv (rew : Fin 4096 → EReal) (i : Fin 4096) : EReal := (negOne * meanLogProb lab (simDiv f) i) * rew i
def rowLossMul (rew : Fin 4096 → EReal) (i : Fin 4096) : EReal := (negOne * meanShifted lab (simMul f) i) * rew i

end Contrastive

section CrossEntropy

variable (s : Fin 4096 → Fin 1000 → EReal) (w : Fin 1000 → EReal) (cls : Fin 4096 → Fin 1000)

/-- The offset class logits. -/
def logit (i : Fin 4096) (k : Fin 1000) : EReal := s i k + w k
def logitMax (i : Fin 4096) : EReal := Finset.univ.sup (logit s w i)
def shifted (i : Fin 4096) (k : Fin 1000) : EReal := logit s w i k - logitMax s w i
/-- The log of the softmax denominator of row `i`. -/
def lse (i : Fin 4096) : EReal := Ideal.log (∑ k, Ideal.exp (shifted s w i k))
def logp (i : Fin 4096) (k : Fin 1000) : EReal := shifted s w i k - lse s w i
/-- The log-probability of anchor `i`'s own class. -/
def target (i : Fin 4096) : EReal := logp s w i (cls i)

end CrossEntropy

section Result

variable (f : Fin 12288 → Fin 128 → EReal) (lab : Fin 12288 → BitVec 32)
  (s : Fin 4096 → Fin 1000 → EReal) (w : Fin 1000 → EReal) (cls : Fin 4096 → Fin 1000) (rew : Fin 4096 → EReal)

/-- The result, one way: the negated mean of the class log-probabilities plus the mean contrastive term. -/
def resultDiv : EReal :=
  (-(Ideal.div (∑ i, target s w cls i) count)) + one * Ideal.div (∑ i, rowLossDiv f lab rew i) count
/-- The other way: the mean of the negated log-probabilities, each as `0 - x`, plus the mean contrastive term. -/
def resultMul : EReal :=
  Ideal.div (∑ i, ((0 : EReal) - target s w cls i)) count + one * Ideal.div (∑ i, rowLossMul f lab rew i) count

end Result

end Cert.Spec

end
-- ==== Proof.Arrays.lean ====
/-
  The argument arrays of the two programs read as the plain functions the specification is stated over, and the
  result both ways as a function of the five arrays. `cls` names each anchor's class: the anchors' labels are
  class numbers below 1000 (`ClassesOf`), which is what the added domain condition says.
-/
import Idealize.ShloMosaic.Lib.ValueIdx
import proofs.«404244_j8306466750557_2_alg».proof.Proof.Spec

noncomputable section

namespace Cert.Arrays

open Idealize.ShloMosaic Idealize.ShloMosaic.ValueIdx

/-- The feature table, row `j`, coordinate `k`. -/
def featOf (a0 : FVec Ideal ⟨2, ![12288, 128]⟩ .f32) : Fin 12288 → Fin 128 → EReal := fun j k => a0 (ix2 j k)
/-- The class logits of anchor `i`. -/
def supOf (a1 : FVec Ideal ⟨2, ![4096, 1000]⟩ .f32) : Fin 4096 → Fin 1000 → EReal := fun i k => a1 (ix2 i k)
/-- The per-class offset (one row). -/
def wOf (a2 : FVec Ideal ⟨2, ![1, 1000]⟩ .f32) : Fin 1000 → EReal := fun k => a2 (ix2 0 k)
/-- The per-class weight. -/
def cwOf (a3 : FVec Ideal ⟨1, ![1000]⟩ .f32) : Fin 1000 → EReal := fun k => a3 (ix1 k)
/-- The labels of all rows. -/
def labOf (a4 : IVec ⟨1, ![12288]⟩ 32) : Fin 12288 → BitVec 32 := fun j => a4 (ix1 j)
/-- Each anchor's weight: the class weight at its class. -/
def rewOf (a3 : FVec Ideal ⟨1, ![1000]⟩ .f32) (cls : Fin 4096 → Fin 1000) : Fin 4096 → EReal := fun i => cwOf a3 (cls i)

/-- The anchors' labels are the class numbers `cls`. -/
def ClassesOf (a4 : IVec ⟨1, ![12288]⟩ 32) (cls : Fin 4096 → Fin 1000) : Prop :=
  ∀ i : Fin 4096, labOf a4 (Spec.anchor i) = BitVec.ofNat 32 (cls i).val

/-- Every entry of a float array is a real number. -/
def Finite {S : Shape} (x : FVec Ideal S .f32) : Prop := ∀ i, ∃ r : ℝ, x i = (r : EReal)

/-- The result in the arrangement that divides by the temperature. -/
def resultDiv (a0 : FVec Ideal ⟨2, ![12288, 128]⟩ .f32) (a1 : FVec Ideal ⟨2, ![4096, 1000]⟩ .f32) (a2 : FVec Ideal ⟨2, ![1, 1000]⟩ .f32)
    (a3 : FVec Ideal ⟨1, ![1000]⟩ .f32) (a4 : IVec ⟨1, ![12288]⟩ 32) (cls : Fin 4096 → Fin 1000) : EReal :=
  Spec.resultDiv (featOf a0) (labOf a4) (supOf a1) (wOf a2) cls (rewOf a3 cls)
/-- The result in the arrangement that multiplies by its reciprocal and walks the rows in blocks. -/
def resultMul (a0 : FVec Ideal ⟨2, ![12288, 128]⟩ .f32) (a1 : FVec Ideal ⟨2, ![4096, 1000]⟩ .f32) (a2 : FVec Ideal ⟨2, ![1, 1000]⟩ .f32)
    (a3 : FVec Ideal ⟨1, ![1000]⟩ .f32) (a4 : IVec ⟨1, ![12288]⟩ 32) (cls : Fin 4096 → Fin 1000) : EReal :=
  Spec.resultMul (featOf a0) (labOf a4) (supOf a1) (wOf a2) cls (rewOf a3 cls)

end Cert.Arrays

end
-- ==== Proof.HostGlue.lean ====
/-
  What the host operations around the two kernel regions compute, read at an index, over the extended reals.

  Before the first region the host cuts the anchors' rows off the feature table (the first 4096 of its 12288
  rows), lays the labels out as a column of the anchors' labels and as one row of all labels, and takes each
  anchor's weight out of the per-class table at the anchor's label (a label that is a class number below 1000 is
  its own position in the table). Between the regions it averages the first region's 4096 row values: their sum
  from zero, divided by the batch size. After the second region it averages that region's row values the same
  way and adds one times the first mean. Each statement is over arbitrary contents before the stretch, so that
  it applies whatever the regions have left in their output arrays.
-/
import proofs.«404244_j8306466750557_2_alg».proof.Proof.Gen.KernelIdeal.Launch
import proofs.«404244_j8306466750557_2_alg».proof.Proof.Gen.KernelIdeal.Regions
import proofs.«404244_j8306466750557_2_alg».proof.Proof.Arrays
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.IdealHost

noncomputable section

namespace Cert.KernelIdeal.HostGlue

open Cert.KernelIdeal Cert.KernelIdeal.Gen Idealize.ShloMosaic Idealize.ShloMosaic.ValueIdx

/-! ## Indices and small shape operations read at an index -/

/-- The rank-1 index at a coordinate, in the library's two spellings. -/
theorem ofFin_eq_ix1 {n : Nat} (p : Fin n) : Shape.Idx.ofFin p = ix1 p := by
  funext a
  have ha : a = 0 := Subsingleton.elim _ _
  subst ha
  exact Fin.ext rfl

/-- A vector kept as a column reads, at row `i`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column read back as a vector reads, at `i`, the column at row `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The leading stretch of a vector reads, at `i`, the vector at the same position. -/
theorem slice1_head_apply {α : Type} {n m : ℕ} (x : (⟨1, ![n]⟩ : Shape).Idx → α)
    (h : (⟨1, ![n]⟩ : Shape).Slices ![0] ⟨1, ![m]⟩) (i : Fin m) (k : Fin n) (hk : k.val = i.val) :
    extractStridedSlice ⟨1, ![m]⟩ ![0] x h (ix1 i) = x (ix1 k) :=
  extractStridedSlice_apply _ _ _ _ _ (fun ax => by
    match ax with
    | ⟨0, _⟩ => exact hk.trans (Nat.zero_add _).symm)

/-- A rank-1 index set is its coordinate's range … -/
def idxEquiv1 {n : Nat} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The two composite reads: a column's mean, and the class-weight take -/

/-- The host's mean of a column: the entries summed from the zero word, the sum divided by the batch size's word. -/
theorem mean_column (x : FVec Ideal S4096x1 .f32) :
    Host.divf
        (Host.reduceAdd (shapeCast S4096 x shapeCasts_S4096x1_S4096) (constant (F := Ideal) S_ .f32 0x00000000#32) reducesTo_S4096_S_d0 h_S_)
        (constant (F := Ideal) S_ .f32 0x45800000#32) ix0
      = Ideal.div (∑ r : Fin 4096, x (ix2 r 0)) Cert.Spec.count := by
  rw [hostDivf_apply, hostReduceAdd_apply, Ideal.hostReduceAdd_total _ (fun b => b.elim0), constant_apply, constant_apply,
    Ideal.ofBits_zero_f32, zero_add, sum_idx1]
  simp only [shapeCast_a1_a_apply]
  rfl

/-- The class-weight take. The start index is the label, moved up by 1000 where it is negative (the wrap a
    negative position gets); a label that is a class number `c` below 1000 is kept, is inside the table, and the
    take reads the table at `c`. -/
theorem take_class (tab : FVec Ideal S1000 .f32) (lab : IVec S4096 32) (r : Fin 4096) (c : Fin 1000)
    (hlab : lab (ix1 r) = BitVec.ofNat 32 c.val) :
    shapeCast S4096x1
        (Host.gather gather_S1000_S4096x1_S4096_n_0_n_n_0_1_1 tab
          (broadcastInDim S4096x1 ![0] bcast_S4096_S4096x1_0
            (select (cmpi .slt lab (broadcastInDim S4096 ![] bcast_S_S4096 (constantI S_ 32 0#32)))
              (addi lab (broadcastInDim S4096 ![] bcast_S_S4096 (constantI S_ 32 1000#32))) lab)))
        shapeCasts_S4096_S4096x1 (ix2 r 0)
      = tab (ix1 c) := by
  have hc := c.isLt
  have hlab' : lab (Shape.Idx.ofFin r) = BitVec.ofNat 32 c.val := by rw [ofFin_eq_ix1]; exact hlab
  -- the label is not negative
  have hneg : IntOp.cmpi .slt (BitVec.ofNat 32 c.val) 0#32 = 0#1 := by
    refine eq_zero_of_ne_one fun h => ?_
    have := (StableHlo.Predicate.slt_iff_toNat (a := BitVec.ofNat 32 c.val) (b := 0#32)
      (by rw [BitVec.toNat_ofNat]; omega) (by decide)).mp h
    simp at this
  -- so the start index is the class number
  have hidx : (broadcastInDim S4096x1 ![0] bcast_S4096_S4096x1_0
      (select (cmpi .slt lab (broadcastInDim S4096 ![] bcast_S_S4096 (constantI S_ 32 0#32)))
        (addi lab (broadcastInDim S4096 ![] bcast_S_S4096 (constantI S_ 32 1000#32))) lab)) (StableHlo.Predicate.ixP r)
      = BitVec.ofNat 32 c.val := by
    rw [StableHlo.Predicate.bcast_col1]
    show Scalar.select (IntOp.cmpi .slt (lab (Shape.Idx.ofFin r)) 0#32) _ (lab (Shape.Idx.ofFin r)) = _
    rw [hlab', hneg, select_zero]
  rw [shapeCast_a_a1_apply, ← ofFin_eq_ix1, StableHlo.Predicate.gather_take _ rfl rfl rfl rfl _ _ r (by decide),
    ← ofFin_eq_ix1 c]
  refine congrArg tab (congrArg Shape.Idx.ofFin (Fin.ext ?_))
  change min _ (1000 - 1) = c.val
  rw [hidx, StableHlo.Predicate.toInt_ofNat_small c.val (by omega), Int.toNat_natCast]
  omega

/-! ## Before the first region: what the two regions are handed -/

/-- The anchors' features: row `r` of the cut is row `r` of the table. -/
theorem q_apply (W : Valuation τ sig (Elt Ideal)) (r : Fin 4096) (k : Fin 128) :
    (StableHlo.after hostOps0 W (Proc.devRef .tc main_v12) : S4096x128.Idx → EReal) (ix2 r k)
      = (W (Proc.devRef .tc main_arg0) : S12288x128.Idx → EReal) (ix2 (Cert.Spec.anchor r) k) := by
  have e : (StableHlo.after hostOps0 W (Proc.devRef .tc main_v12) : S4096x128.Idx → EReal)
      = extractStridedSlice S4096x128 ![0, 0] (W (Proc.devRef .tc main_arg0) : S12288x128.Idx → EReal) slices_S12288x128_S4096x128_0_0 := by
    show StableHlo.after hostOps0 W (Proc.devRef .tc main_v12) = _
    after_results <;> rfl
  rw [e]
  exact slice2_axis0_apply 0 _ _ r k (Cert.Spec.anchor r) (Nat.zero_add _).symm

/-- The anchors' labels as a column. -/
theorem labRow_apply (W : Valuation τ sig (Elt Ideal)) (r : Fin 4096) :
    (StableHlo.after hostOps0 W (Proc.devRef .tc main_v1) : S4096x1.Idx → BitVec 32) (ix2 r 0)
      = (W (Proc.devRef .tc main_arg4) : S12288.Idx → BitVec 32) (ix1 (Cert.Spec.anchor r)) := by
  have e : (StableHlo.after hostOps0 W (Proc.devRef .tc main_v1) : S4096x1.Idx → BitVec 32)
      = shapeCast S4096x1 (extractStridedSlice S4096 ![0] (W (Proc.devRef .tc main_arg4) : S12288.Idx → BitVec 32) slices_S12288_S4096_0)
          shapeCasts_S4096_S4096x1 := by
    show StableHlo.after hostOps0 W (Proc.devRef .tc main_v1) = _
    after_results <;> rfl
  rw [e, shapeCast_a_a1_apply]
  exact slice1_head_apply _ _ r (Cert.Spec.anchor r) rfl

/-- All labels as one row. -/
theorem labCol_apply (W : Valuation τ sig (Elt Ideal)) (j : Fin 12288) :
    (StableHlo.after hostOps0 W (Proc.devRef .tc main_v2) : S1x12288.Idx → BitVec 32) (ix2 0 j)
      = (W (Proc.devRef .tc main_arg4) : S12288.Idx → BitVec 32) (ix1 j) := by
  have e : (StableHlo.after hostOps0 W (Proc.devRef .tc main_v2) : S1x12288.Idx → BitVec 32)
      = shapeCast S1x12288 (W (Proc.devRef .tc main_arg4) : S12288.Idx → BitVec 32) shapeCasts_S12288_S1x12288 := by
    show StableHlo.after hostOps0 W (Proc.devRef .tc main_v2) = _
    after_results <;> rfl
  rw [e]
  exact shapeCast_a_1a_apply _ _ 0 j

/-- Each anchor's weight: the class table at the anchor's class. -/
theorem rew_apply (W : Valuation τ sig (Elt Ideal)) (cls : Fin 4096 → Fin 1000)
    (hcls : Cert.Arrays.ClassesOf (W (Proc.devRef .tc main_arg4)) cls) (r : Fin 4096) :
    (StableHlo.after hostOps0 W (Proc.devRef .tc main_v11) : S4096x1.Idx → EReal) (ix2 r 0)
      = Cert.Arrays.rewOf (W (Proc.devRef .tc main_arg3)) cls r := by
  have e : (StableHlo.after hostOps0 W (Proc.devRef .tc main_v11) : S4096x1.Idx → EReal)
      = shapeCast S4096x1
          (Host.gather gather_S1000_S4096x1_S4096_n_0_n_n_0_1_1 (W (Proc.devRef .tc main_arg3) : S1000.Idx → EReal)
            (broadcastInDim S4096x1 ![0] bcast_S4096_S4096x1_0
              (select
                (cmpi .slt (extractStridedSlice S4096 ![0] (W (Proc.devRef .tc main_arg4) : S12288.Idx → BitVec 32) slices_S12288_S4096_0)
                  (broadcastInDim S4096 ![] bcast_S_S4096 (constantI S_ 32 0#32)))
                (addi (extractStridedSlice S4096 ![0] (W (Proc.devRef .tc main_arg4) : S12288.Idx → BitVec 32) slices_S12288_S4096_0)
                  (broadcastInDim S4096 ![] bcast_S_S4096 (constantI S_ 32 1000#32)))
                (extractStridedSlice S4096 ![0] (W (Proc.devRef .tc main_arg4) : S12288.Idx → BitVec 32) slices_S12288_S4096_0))))
          shapeCasts_S4096_S4096x1 := by
    show StableHlo.after hostOps0 W (Proc.devRef .tc main_v11) = _
    after_results <;> rfl
  rw [e]
  exact take_class _ _ r (cls r) ((slice1_head_apply _ _ r (Cert.Spec.anchor r) rfl).trans (hcls r))

/-- A reference the first stretch does not write keeps its contents. -/
theorem keeps0 (W : Valuation τ sig (Elt Ideal)) (b : Ref sig .tc) (hb : b ∉ hostOps0_W) :
    StableHlo.after hostOps0 W (Proc.devRef .tc b) = W (Proc.devRef .tc b) :=
  StableHlo.after_of_writes_sub hostOps0 _ hostOps0_writes hb

/-! ## Between the regions: the mean of the first region's rows -/

/-- The mean of the first region's row values: their sum over the 4096 anchors, divided by the batch size. -/
theorem mean0_apply (W : Valuation τ sig (Elt Ideal)) :
    (StableHlo.after hostOps1 W (Proc.devRef .tc main_v16) : S_.Idx → EReal) ix0
      = Ideal.div (∑ r : Fin 4096, (W (Proc.devRef .tc main_v13) : S4096x1.Idx → EReal) (ix2 r 0)) Cert.Spec.count := by
  have e : (StableHlo.after hostOps1 W (Proc.devRef .tc main_v16) : S_.Idx → EReal)
      = Host.divf
          (Host.reduceAdd (shapeCast S4096 (W (Proc.devRef .tc main_v13) : S4096x1.Idx → EReal) shapeCasts_S4096x1_S4096)
            (constant (F := Ideal) S_ .f32 0x00000000#32) reducesTo_S4096_S_d0 h_S_)
          (constant (F := Ideal) S_ .f32 0x45800000#32) := by
    show StableHlo.after hostOps1 W (Proc.devRef .tc main_v16) = _
    after_results <;> rfl
  rw [e]
  exact mean_column _

/-! ## After the second region: the result -/

/-- The result: the mean of the second region's row values plus one times the first mean. -/
theorem result_apply (W : Valuation τ sig (Elt Ideal)) :
    (StableHlo.after hostOps2 W (Proc.devRef .tc main_v22) : S_.Idx → EReal) ix0
      = Ideal.div (∑ r : Fin 4096, (W (Proc.devRef .tc main_v17) : S4096x1.Idx → EReal) (ix2 r 0)) Cert.Spec.count
        + Cert.Spec.one * (W (Proc.devRef .tc main_v16) : S_.Idx → EReal) ix0 := by
  have e : (StableHlo.after hostOps2 W (Proc.devRef .tc main_v22) : S_.Idx → EReal)
      = addf
          (Host.divf
            (Host.reduceAdd (shapeCast S4096 (W (Proc.devRef .tc main_v17) : S4096x1.Idx → EReal) shapeCasts_S4096x1_S4096)
              (constant (F := Ideal) S_ .f32 0x00000000#32) reducesTo_S4096_S_d0 h_S_)
            (constant (F := Ideal) S_ .f32 0x45800000#32))
          (mulf (constant (F := Ideal) S_ .f32 0x3F800000#32) (W (Proc.devRef .tc main_v16) : S_.Idx → EReal)) := by
    show StableHlo.after hostOps2 W (Proc.devRef .tc main_v22) = _
    after_results <;> rfl
  rw [e, addf_apply, mulf_apply, mean_column, constant_apply]
  rfl

end Cert.KernelIdeal.HostGlue

end
-- ==== Proof.R1Value.lean ====
/- What region 1 of the kernel program leaves in its output array, at the extended reals.

   The cross-entropy kernel, at a block of 2048 rows: add the weight row to the logits, subtract each row's maximum,
   subtract the log of the row's sum of exponentials (the log-probabilities), multiply by the indicator of "lane = the
   row's label", sum each row, and store zero minus that sum. Where the label of a row is a class number below 1000 the
   indicator is one at that lane and zero elsewhere, so the row sum is the log-probability of the row's class. The two
   grid points write the two halves of the [4096,1] output, so the array ends holding, at row r, zero minus the
   log-probability of row r's class. -/
import proofs.«404244_j8306466750557_2_alg».proof.Proof.R1Frame
import proofs.«404244_j8306466750557_2_alg».proof.Proof.Arrays
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.R1Value

open Cert.KernelIdeal Cert.KernelIdeal.Gen
open Idealize.ShloMosaic Idealize.ShloMosaic.TcCoe Idealize.SL.Sem
open Idealize.ShloMosaic.Pipeline (Dat)
open Idealize.ShloMosaic.ValueIdx

/-! ## Reading the layout operations and the lane reductions of a [2048,1000] block at an index -/

/-- The index a one-axis reduction over the lanes inserts: row p, lane k. -/
theorem lift_eq (p : Fin 2048) (k : Fin 1000) :
    reduces_S2048x1000_S2048.lift (ix1 p) k = ix2 p k := by
  funext a
  apply Fin.ext
  match a with
  | ⟨0, _⟩ => rfl
  | ⟨1, _⟩ => rfl

/-- A [2048] vector viewed as a [2048,1] column reads, at (p, q), its entry p. -/
theorem col_apply {α : Type} (u : S2048.Idx → α) (p : Fin 2048) (q : Fin 1) :
    shapeCast S2048x1 u shapeCasts_S2048_S2048x1 (ix2 p q) = u (ix1 p) :=
  shapeCast_apply u _ _ _ (by
    have hq : q.val = 0 := by omega
    rw [Shape.rowMajor_val_two, Shape.rowMajor_val_one]
    show p.val = p.val * 1 + q.val
    omega)

/-- A [2048,1] column broadcast along the lanes reads, at (p, k), the column's entry (p, 0). -/
theorem bcol_apply {α : Type} (u : S2048x1.Idx → α) (p : Fin 2048) (k : Fin 1000) :
    broadcastTo S2048x1000 u broadcasts_S2048x1_S2048x1000 (ix2 p k) = u (ix2 p 0) := by
  refine broadcastTo_apply u _ (ix2 p k) (ix2 p 0) fun ax => ?_
  match ax with
  | ⟨0, _⟩ => rfl
  | ⟨1, _⟩ => rfl

/-- The lane sum of a [2048,1000] vector, as a column, at (p, q): the sum over row p. -/
theorem rowSum_apply (v : FVec Ideal S2048x1000 .f32) (p : Fin 2048) (q : Fin 1) :
    shapeCast S2048x1 (multiReduction .add [1] S2048 v 0x00000000#32 reduces_S2048x1000_S2048 (.inl rfl) rfl) shapeCasts_S2048_S2048x1 (ix2 p q)
      = ∑ k : Fin 1000, v (ix2 p k) := by
  refine (col_apply _ p q).trans ?_
  refine (Ideal.multiReduction_add_single v 0x00000000#32 reduces_S2048x1000_S2048 (.inl rfl) rfl (ix1 p)).trans ?_
  exact Finset.sum_congr rfl fun k _ => congrArg v (lift_eq p k)

/-- The lane maximum of a [2048,1000] vector, as a column, at (p, q): the supremum over row p (the fold starts at the
    word of minus infinity, the least extended real). -/
theorem rowMax_apply (v : FVec Ideal S2048x1000 .f32) (p : Fin 2048) (q : Fin 1) :
    shapeCast S2048x1 (multiReduction .maximumf [1] S2048 v 0xFF800000#32 reduces_S2048x1000_S2048 (.inl rfl) rfl) shapeCasts_S2048_S2048x1 (ix2 p q)
      = Finset.univ.sup fun k : Fin 1000 => v (ix2 p k) := by
  refine (col_apply _ p q).trans ?_
  refine (Ideal.multiReduction_maximumf_single v 0xFF800000#32 reduces_S2048x1000_S2048 (.inl rfl) rfl (ix1 p)).trans ?_
  have hb : (FloatOps.ofBits (F := Ideal) .f32 0xFF800000#32) = (⊥ : EReal) := by
    show Ideal.ofBits .f32 0xFF800000#32 = ⊥
    simp [Ideal.ofBits, Ideal.ieee]
  have hf : (v ∘ reduces_S2048x1000_S2048.lift (ix1 p)) = fun k => v (ix2 p k) := funext fun k => congrArg v (lift_eq p k)
  rw [hb, hf]
  rfl

/-! ## The kernel's arithmetic, stage by stage -/

/-- The offset logits of a block: logits plus the weight row. -/
def lg (x0 : Vec Ideal S2048x1000 .f32) (x1 : Vec Ideal S1x1000 .f32) : FVec Ideal S2048x1000 .f32 :=
  addf x0 (broadcastTo S2048x1000 x1 broadcasts_S1x1000_S2048x1000)

/-- Each row shifted by its maximum. -/
def sh (x0 : Vec Ideal S2048x1000 .f32) (x1 : Vec Ideal S1x1000 .f32) : FVec Ideal S2048x1000 .f32 :=
  subf (lg x0 x1) (broadcastTo S2048x1000 (shapeCast S2048x1 (multiReduction .maximumf [1] S2048 (lg x0 x1) 0xFF800000#32 reduces_S2048x1000_S2048 (.inl rfl) rfl) shapeCasts_S2048_S2048x1) broadcasts_S2048x1_S2048x1000)

/-- The log-probabilities: the shifted rows minus the log of the row's sum of exponentials. -/
def lp (x0 : Vec Ideal S2048x1000 .f32) (x1 : Vec Ideal S1x1000 .f32) : FVec Ideal S2048x1000 .f32 :=
  subf (sh x0 x1) (broadcastTo S2048x1000 (log (shapeCast S2048x1 (multiReduction .add [1] S2048 (exp (sh x0 x1)) 0x00000000#32 reduces_S2048x1000_S2048 (.inl rfl) rfl) shapeCasts_S2048_S2048x1)) broadcasts_S2048x1_S2048x1000)

/-- The indicator of "lane = the row's label", as a float. -/
def oh (x2 : Vec Ideal S2048x1 .i32) : FVec Ideal S2048x1000 .f32 :=
  sitofp .f32 (extui 32 (cmpi .eq (iota .tc S2048x1000 32 [1] iota_S2048x1000_d1_w32)
    (broadcastTo S2048x1000 (shapeCast S2048x1 x2 shapeCasts_S2048x1_S2048x1) broadcasts_S2048x1_S2048x1000)) natLt_1_32)

/-- The payload is zero minus the lane sum of log-probability times indicator. -/
theorem pay_eq (x0 : Vec Ideal S2048x1000 .f32) (x1 : Vec Ideal S1x1000 .f32) (x2 : Vec Ideal S2048x1 .i32) :
    k1_pay1 x0 x1 x2 = subf (broadcast S2048x1 (Scalar.ofBits .f32 0x00000000#32))
      (shapeCast S2048x1 (multiReduction .add [1] S2048 (mulf (lp x0 x1) (oh x2)) 0x00000000#32 reduces_S2048x1000_S2048 (.inl rfl) rfl) shapeCasts_S2048_S2048x1) := rfl

theorem lg_apply (x0 : Vec Ideal S2048x1000 .f32) (x1 : Vec Ideal S1x1000 .f32) (p : Fin 2048) (k : Fin 1000) :
    lg x0 x1 (ix2 p k) = x0 (ix2 p k) + x1 (ix2 0 k) :=
  congrArg (x0 (ix2 p k) + ·) (broadcastTo_1b_ab_apply x1 _ p k)

theorem sh_apply (x0 : Vec Ideal S2048x1000 .f32) (x1 : Vec Ideal S1x1000 .f32) (p : Fin 2048) (k : Fin 1000) :
    sh x0 x1 (ix2 p k) = lg x0 x1 (ix2 p k) - Finset.univ.sup fun k' : Fin 1000 => lg x0 x1 (ix2 p k') :=
  congrArg (lg x0 x1 (ix2 p k) - ·) ((bcol_apply _ p k).trans (rowMax_apply (lg x0 x1) p 0))

theorem lp_apply (x0 : Vec Ideal S2048x1000 .f32) (x1 : Vec Ideal S1x1000 .f32) (p : Fin 2048) (k : Fin 1000) :
    lp x0 x1 (ix2 p k) = sh x0 x1 (ix2 p k) - Ideal.log (∑ k' : Fin 1000, Ideal.exp (sh x0 x1 (ix2 p k'))) :=
  congrArg (sh x0 x1 (ix2 p k) - ·) ((bcol_apply _ p k).trans (congrArg Ideal.log (rowSum_apply (exp (sh x0 x1)) p 0)))

/-- At a row whose label is the class number k₀, the indicator is one at lane k₀ and zero elsewhere. -/
theorem oh_apply (x2 : Vec Ideal S2048x1 .i32) (p : Fin 2048) (k k₀ : Fin 1000)
    (hk : (x2 : S2048x1.Idx → BitVec 32) (ix2 p 0) = BitVec.ofNat 32 k₀.val) :
    oh x2 (ix2 p k) = if k = k₀ then 1 else 0 := by
  have e1 : iota .tc S2048x1000 32 [1] iota_S2048x1000_d1_w32 (ix2 p k) = BitVec.ofNat 32 k.val :=
    iota_single_apply _ _ _ _ _ _
  have e2 : broadcastTo S2048x1000 (shapeCast S2048x1 (x2 : S2048x1.Idx → BitVec 32) shapeCasts_S2048x1_S2048x1) broadcasts_S2048x1_S2048x1000 (ix2 p k)
      = BitVec.ofNat 32 k₀.val := by
    refine (bcol_apply _ p k).trans ?_
    rw [shapeCast_self]; exact hk
  show (((BitVec.setWidth 32 (IntOp.cmpi .eq (iota .tc S2048x1000 32 [1] iota_S2048x1000_d1_w32 (ix2 p k))
      (broadcastTo S2048x1000 (shapeCast S2048x1 (x2 : S2048x1.Idx → BitVec 32) shapeCasts_S2048x1_S2048x1) broadcasts_S2048x1_S2048x1000 (ix2 p k)))).toInt : ℝ) : EReal) = _
  rw [e1, e2]
  by_cases h : k = k₀
  · subst h
    rw [if_pos rfl]
    simp [IntOp.cmpi]
  · rw [if_neg h]
    have hne : (BitVec.ofNat 32 k.val == BitVec.ofNat 32 k₀.val) = false := by
      rw [beq_eq_false_iff_ne]
      intro e
      have e' := congrArg BitVec.toNat e
      rw [BitVec.toNat_ofNat, BitVec.toNat_ofNat, Nat.mod_eq_of_lt (by have := k.isLt; omega), Nat.mod_eq_of_lt (by have := k₀.isLt; omega)] at e'
      exact h (Fin.ext e')
    simp [IntOp.cmpi, hne]

/-- The log-probability of class k₀ in a row of logits a offset by w. -/
def rowTarget (a w : Fin 1000 → EReal) (k₀ : Fin 1000) : EReal :=
  ((a k₀ + w k₀) - Finset.univ.sup fun k => a k + w k)
    - Ideal.log (∑ k, Ideal.exp ((a k + w k) - Finset.univ.sup fun k' => a k' + w k'))

theorem target_eq_rowTarget (s : Fin 4096 → Fin 1000 → EReal) (w : Fin 1000 → EReal) (cls : Fin 4096 → Fin 1000) (i : Fin 4096) :
    Cert.Spec.target s w cls i = rowTarget (s i) w (cls i) := rfl

/-- THE PAYLOAD AT (p, q), at a row whose label is the class number k₀: zero minus the log-probability of k₀. -/
theorem pay_apply (x0 : Vec Ideal S2048x1000 .f32) (x1 : Vec Ideal S1x1000 .f32) (x2 : Vec Ideal S2048x1 .i32) (p : Fin 2048) (q : Fin 1)
    (k₀ : Fin 1000) (hk : (x2 : S2048x1.Idx → BitVec 32) (ix2 p 0) = BitVec.ofNat 32 k₀.val) :
    k1_pay1 x0 x1 x2 (ix2 p q) = (0 : EReal) - rowTarget (fun k => x0 (ix2 p k)) (fun k => x1 (ix2 0 k)) k₀ := by
  rw [pay_eq]
  show Ideal.ofBits .f32 0x00000000#32 - shapeCast S2048x1 (multiReduction .add [1] S2048 (mulf (lp x0 x1) (oh x2)) 0x00000000#32 reduces_S2048x1000_S2048 (.inl rfl) rfl) shapeCasts_S2048_S2048x1 (ix2 p q) = _
  rw [rowSum_apply, Ideal.ofBits_zero_f32]
  congr 1
  rw [Finset.sum_eq_single k₀ (fun k _ hne => by rw [mulf_apply, oh_apply x2 p k k₀ hk, if_neg hne, mul_zero])
    (fun h => absurd (Finset.mem_univ _) h)]
  rw [mulf_apply, oh_apply x2 p k₀ k₀ hk, if_pos rfl, mul_one, lp_apply]
  simp only [sh_apply, lg_apply]
  rfl

/-! ## From the blocks to the array -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The block index maps over the two grid points: the logits, label and output windows move to block t along the
    rows at point t; the weight window stays at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 2 := lt_of_lt_of_eq t.isLt (show cfg1.N = 2 from N_1)

/-- Row p of the block of point t is row 2048·t + p of the array. -/
def rowOf (t : Fin cfg1.N) (p : Fin 2048) : Fin 4096 :=
  ⟨t.val * 2048 + p.val, by have := point_lt t; have := p.isLt; omega⟩

/-- The logits block at point t, entry (p, k): the logits array at (2048·t + p, k). -/
theorem blk0_apply (c : Dev nD) (t : Fin cfg1.N) (p : Fin 2048) (k : Fin 1000) :
    (Frame.iblk1 V c 0 t : S2048x1000.Idx → EReal) (ix2 p k) = (V c main_arg1 : S4096x1000.Idx → EReal) (ix2 (rowOf t p) k) := by
  obtain ⟨e0, e1, -⟩ := idx_facts t
  show (V c main_arg1 : S4096x1000.Idx → EReal) (((cfg1.win 0).blk t).view.emb (ix2 p k)) = _
  refine congrArg _ (funext fun a => Fin.ext ?_)
  match a with
  | ⟨0, _⟩ => show win1_0.index t (0 : Fin 2) * 2048 + 1 * p.val = t.val * 2048 + p.val; omega
  | ⟨1, _⟩ => show win1_0.index t (1 : Fin 2) * 1000 + 1 * k.val = k.val; omega

/-- The weight block at either point is the weight row itself. -/
theorem blk1_apply (c : Dev nD) (t : Fin cfg1.N) (k : Fin 1000) :
    (Frame.iblk1 V c 1 t : S1x1000.Idx → EReal) (ix2 0 k) = (V c main_arg2 : S1x1000.Idx → EReal) (ix2 0 k) := by
  obtain ⟨-, -, e2, e3, -⟩ := idx_facts t
  show (V c main_arg2 : S1x1000.Idx → EReal) (((cfg1.win 1).blk t).view.emb (ix2 0 k)) = _
  refine congrArg _ (funext fun a => Fin.ext ?_)
  match a with
  | ⟨0, _⟩ => show win1_1.index t (0 : Fin 2) * 1 + 1 * 0 = 0; omega
  | ⟨1, _⟩ => show win1_1.index t (1 : Fin 2) * 1000 + 1 * k.val = k.val; omega

/-- The label block at point t, entry (p, 0): the label column at (2048·t + p, 0). -/
theorem blk2_apply (c : Dev nD) (t : Fin cfg1.N) (p : Fin 2048) :
    (Frame.iblk1 V c 2 t : S2048x1.Idx → BitVec 32) (ix2 p 0) = (V c main_v1 : S4096x1.Idx → BitVec 32) (ix2 (rowOf t p) 0) := by
  obtain ⟨-, -, -, -, e4, e5, -⟩ := idx_facts t
  show (V c main_v1 : S4096x1.Idx → BitVec 32) (((cfg1.win 2).blk t).view.emb (ix2 p 0)) = _
  refine congrArg _ (funext fun a => Fin.ext ?_)
  match a with
  | ⟨0, _⟩ => show win1_2.index t (0 : Fin 2) * 2048 + 1 * p.val = t.val * 2048 + p.val; omega
  | ⟨1, _⟩ => show win1_2.index t (1 : Fin 2) * 1 + 1 * 0 = 0; omega

/-- What the output array ends holding: at row r, zero minus the log-probability of row r's class. -/
def G (c : Dev nD) (cls : Fin 4096 → Fin 1000) : S4096x1.Idx → EReal :=
  fun i => (0 : EReal) - Cert.Spec.target (Cert.Arrays.supOf (V c main_arg1)) (Cert.Arrays.wOf (V c main_arg2)) cls ⟨(i 0).val, idx2_lt0 i⟩

/-- What the body leaves in the output buffer, at an index j of the block, from blocks whose label at row j₀ is the
    class number k₀. -/
theorem out_apply (X0 : Vec Ideal S2048x1000 .f32) (X1 : Vec Ideal S1x1000 .f32) (X2 : Vec Ideal S2048x1 .i32) (j : S2048x1.Idx)
    (k₀ : Fin 1000) (hk : (X2 : S2048x1.Idx → BitVec 32) (ix2 (j 0) 0) = BitVec.ofNat 32 k₀.val) :
    Frame.out1_3 X0 X1 X2 j = (0 : EReal) - rowTarget (fun k => X0 (ix2 (j 0) k)) (fun k => X1 (ix2 0 k)) k₀ := by
  unfold Frame.out1_3
  rw [View.canon_unit_zero hz]
  simp only [View.ld_unit_zero (S := S2048x1000) hz, View.ld_unit_zero (S := S1x1000) hz, View.ld_unit_zero (S := S2048x1) hz]
  obtain ⟨p, q, rfl⟩ : ∃ (p : Fin 2048) (q : Fin 1), j = ix2 p q := ⟨j 0, j 1, eq_ix2 j⟩
  exact pay_apply X0 X1 X2 p q k₀ hk

/-- WHAT POINT t WRITES BACK is block t of G. -/
theorem flushed_eq (c : Dev nD) (cls : Fin 4096 → Fin 1000)
    (hlab : ∀ r : Fin 4096, (V c main_v1 : S4096x1.Idx → BitVec 32) (ix2 r 0) = BitVec.ofNat 32 (cls r).val) (t : Fin cfg1.N) :
    (Frame.dat1 V c).flushed 3 t = ((cfg1.win 3).blk t).view.read (Elt Ideal) (G V c cls) := by
  show (cfg1.win 3).cut (grid1.coords t) ((Frame.dat1 V c).after 3 t) = _
  rw [Frame.after1_3]
  funext j
  show Frame.out1_3 (Frame.iblk1 V c 0 t) (Frame.iblk1 V c 1 t) (Frame.iblk1 V c 2 t) j = G V c cls (((cfg1.win 3).blk t).view.emb j)
  refine (out_apply (Frame.iblk1 V c 0 t) (Frame.iblk1 V c 1 t) (Frame.iblk1 V c 2 t) j (cls (rowOf t (j 0)))
    ((blk2_apply V c t (j 0)).trans (hlab (rowOf t (j 0))))).trans ?_
  obtain ⟨-, -, -, -, -, -, e6, e7⟩ := idx_facts t
  have hr : (⟨((((cfg1.win 3).blk t).view.emb j) 0).val, idx2_lt0 _⟩ : Fin 4096) = rowOf t (j 0) := by
    apply Fin.ext
    show win1_3.index t (0 : Fin 2) * 2048 + 1 * (j 0).val = t.val * 2048 + (j 0).val
    omega
  show _ = (0 : EReal) - Cert.Spec.target (Cert.Arrays.supOf (V c main_arg1)) (Cert.Arrays.wOf (V c main_arg2)) cls ⟨((((cfg1.win 3).blk t).view.emb j) 0).val, idx2_lt0 _⟩
  rw [hr, target_eq_rowTarget]
  have h0 : (fun k => (Frame.iblk1 V c 0 t : S2048x1000.Idx → EReal) (ix2 (j 0) k)) = Cert.Arrays.supOf (V c main_arg1) (rowOf t (j 0)) :=
    funext fun k => blk0_apply V c t (j 0) k
  have h1 : (fun k => (Frame.iblk1 V c 1 t : S1x1000.Idx → EReal) (ix2 0 k)) = Cert.Arrays.wOf (V c main_arg2) :=
    funext fun k => blk1_apply V c t k
  exact congrArg₂ (fun a w => (0 : EReal) - rowTarget a w (cls (rowOf t (j 0)))) h0 h1

/-- An index of the output array is in point t's block iff each coordinate is in the block's range on its axis. -/
theorem mem_blk (t : Fin cfg1.N) (i : S4096x1.Idx) :
    i ∈ ((cfg1.win 3).blk t).view.set ↔ ∀ a : Fin 2, win1_3.index t a * S2048x1.size a ≤ (i a).val ∧ (i a).val < win1_3.index t a * S2048x1.size a + S2048x1.size a := by
  show i ∈ ((View.whole main_v17).slice (win1_3.rect t)).set ↔ _
  rw [View.set_slice_whole, Rect.mem_set_unit]
  exact Iff.rfl

/-- Every index of the output array is in the block of the point its row falls in (row r in block r / 2048). -/
theorem cover (i : S4096x1.Idx) : ∃ t : Fin cfg1.N, (cfg1.win 3).flush t = true ∧ i ∈ ((cfg1.win 3).blk t).view.set := by
  have hi0 : (i 0).val < 4096 := (i 0).isLt
  have hi1 : (i 1).val < 1 := (i 1).isLt
  have hN : (i 0).val / 2048 < cfg1.N := by rw [show cfg1.N = 2 from N_1]; omega
  obtain ⟨-, -, -, -, -, -, e6, e7⟩ := idx_facts ⟨(i 0).val / 2048, hN⟩
  refine ⟨⟨(i 0).val / 2048, hN⟩, flush1_3 _, ?_⟩
  rw [mem_blk]
  intro a
  match a with
  | ⟨0, _⟩ =>
    show win1_3.index ⟨(i 0).val / 2048, hN⟩ (0 : Fin 2) * 2048 ≤ (i 0).val ∧ (i 0).val < win1_3.index ⟨(i 0).val / 2048, hN⟩ (0 : Fin 2) * 2048 + 2048
    have e6' : win1_3.index ⟨(i 0).val / 2048, hN⟩ (0 : Fin 2) = (i 0).val / 2048 := e6
    omega
  | ⟨1, _⟩ =>
    show win1_3.index ⟨(i 0).val / 2048, hN⟩ (1 : Fin 2) * 1 ≤ (i 1).val ∧ (i 1).val < win1_3.index ⟨(i 0).val / 2048, hN⟩ (1 : Fin 2) * 1 + 1
    omega

end Blocks

/-- What region 1 leaves in its output array: at row r, zero minus the log-probability of row r's class. -/
theorem arrAt_out (V : (c : Dev nD) → (b : Ref sig .tc) → Buf (Elt Ideal) ((c : Thread nD τ).loc b)) (c : Dev nD) (cls : Fin 4096 → Fin 1000)
    (hlab : ∀ r : Fin 4096, (V c main_v1 : S4096x1.Idx → BitVec 32) (ValueIdx.ix2 r 0) = BitVec.ofNat 32 (cls r).val) (r : Fin 4096) :
    ((Frame.dat1 V c).arrAt 3 cfg1.N : S4096x1.Idx → EReal) (ValueIdx.ix2 r 0)
      = (0 : EReal) - Cert.Spec.target (Cert.Arrays.supOf (V c main_arg1)) (Cert.Arrays.wOf (V c main_arg2)) cls r :=
  congrFun ((Frame.dat1 V c).arrAt_eq_of_cover 3 (G V c cls) (fun t _ => flushed_eq V c cls hlab t) cover) (ValueIdx.ix2 r 0)

end Cert.KernelIdeal.R1Value

end
-- ==== Proof.R0Pieces.lean ====
/-
  Region 0 of the kernel program: what each control case of the contrastive kernel leaves in its four accumulators
  and in its output block, as functions of the values the body loads.

  The body loads the anchors' feature block (1024 rows), the 2048 rows of the feature table and the 2048 labels of
  the current column block, the anchors' labels and weights, and the four accumulators: the running maximum m, the
  rescaled exponential sum l, the positives' similarity sum s and the positives' count c. At the first column
  block (case A) it first stores the empty accumulators (minus infinity, zero, zero, zero), so the old values it
  then loads are those; at the others (cases B and C) the old values are what the block before left. Each case
  stores, in each accumulator, the update of the old value by the current block; the last column block (case C)
  also stores the output row values computed from the four updated accumulators and the weights. Each store
  covers its whole buffer, so what a buffer ends with is its last store's value, and a load after a covering
  store reads that store's value.
-/
import proofs.«404244_j8306466750557_2_alg».proof.Proof.R0Frame
import Idealize.ShloMosaic.Lib.Pipeline.Value
import Idealize.ShloMosaic.Lib.Tactic

set_option maxRecDepth 16384

noncomputable section

namespace Cert.KernelIdeal.R0Pieces

open Cert.KernelIdeal Cert.KernelIdeal.Gen Cert.KernelIdeal.Frame
open Idealize.ShloMosaic Idealize.ShloMosaic.TcCoe Idealize.ShloMosaic.Tactic Idealize.SL.Sem

variable {F : FTy → Type} [FloatOps F] [Named F]

/-- The zero offsets, in the spelling the stores and loads carry. -/
theorem hz : (![0, 0] : Fin 2 → Nat) = fun _ => 0 := funext fun a => by fin_cases a <;> rfl

/-! ## Case A: the first column block (the accumulators are reset, then updated) -/

/-- Case A, the running maximum: the larger of the old maximum (minus infinity, just stored by the reset) and the block's row maxima. -/
theorem sout0_A_0_eq (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S12288x128 .f32) (x2 : Vec F S1024x1 .i32) (x3 : Vec F S1x12288 .i32) (x4 : Vec F S1024x1 .f32) :
    Frame.sout0_A_0 c i arg2 harg2 arg3 harg3 arg4 harg4 arg5 harg5 arg6 harg6 arg7 harg7 arg8 harg8 arg9 harg9 arg10 harg10 arg11 harg11 hc0 hc1 x0 x1 x2 x3 x4
      = (k0_pay4 (k0_pay13 (View.ld x1 (Rect.unit (s := S12288x128) (k0_off1 i) S2048x128.size (k0_off1_inb i))) x0 (k0_pay6 (F := F)))) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1) hz]
  simp only [View.readCov_unit_zero (S := S1024x1) _ hz, View.readAt_eq_ld, harg2.read_unread, harg3.read_unread, harg4.read_unread, harg5.read_unread, harg6.read_unread, harg8.read_unread, harg9.read_unread, harg10.read_unread, harg11.read_unread, View.ld_unit_zero (S := S1024x128) hz, View.ld_unit_zero (S := S1024x1) hz]

/-- Case A, the exponential sum: the old sum (zero, just stored by the reset) rescaled to the new maximum plus the block's exponentials off the anchors' own columns. -/
theorem sout0_A_1_eq (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S12288x128 .f32) (x2 : Vec F S1024x1 .i32) (x3 : Vec F S1x12288 .i32) (x4 : Vec F S1024x1 .f32) :
    Frame.sout0_A_1 c i arg2 harg2 arg3 harg3 arg4 harg4 arg5 harg5 arg6 harg6 arg7 harg7 arg8 harg8 arg9 harg9 arg10 harg10 arg11 harg11 hc0 hc1 x0 x1 x2 x3 x4
      = (k0_pay1 (k0_pay10 (View.ld x1 (Rect.unit (s := S12288x128) (k0_off1 i) S2048x128.size (k0_off1_inb i))) x0) (k0_pay11 (F := F) i) (k0_pay13 (View.ld x1 (Rect.unit (s := S12288x128) (k0_off1 i) S2048x128.size (k0_off1_inb i))) x0 (k0_pay6 (F := F))) (k0_pay14 (View.ld x1 (Rect.unit (s := S12288x128) (k0_off1 i) S2048x128.size (k0_off1_inb i))) x0 (k0_pay6 (F := F)) (k0_pay6 (F := F))) (k0_pay7 (F := F))) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1) hz]
  simp only [View.readCov_unit_zero (S := S1024x1) _ hz, View.readAt_eq_ld, harg2.read_unread, harg3.read_unread, harg4.read_unread, harg5.read_unread, harg6.read_unread, harg8.read_unread, harg9.read_unread, harg10.read_unread, harg11.read_unread, View.ld_unit_zero (S := S1024x128) hz, View.ld_unit_zero (S := S1024x1) hz]

/-- Case A, the positives' similarity sum: the old sum (zero, just stored by the reset) plus the block's similarities at the positives. -/
theorem sout0_A_2_eq (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S12288x128 .f32) (x2 : Vec F S1024x1 .i32) (x3 : Vec F S1x12288 .i32) (x4 : Vec F S1024x1 .f32) :
    Frame.sout0_A_2 c i arg2 harg2 arg3 harg3 arg4 harg4 arg5 harg5 arg6 harg6 arg7 harg7 arg8 harg8 arg9 harg9 arg10 harg10 arg11 harg11 hc0 hc1 x0 x1 x2 x3 x4
      = (k0_pay2 (k0_pay10 (View.ld x1 (Rect.unit (s := S12288x128) (k0_off1 i) S2048x128.size (k0_off1_inb i))) x0) (k0_pay12 i (View.ld x3 (Rect.unit (s := S1x12288) (k0_off2 i) S1x2048.size (k0_off2_inb i))) x2) (k0_pay8 (F := F))) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1) hz]
  simp only [View.readCov_unit_zero (S := S1024x1) _ hz, View.readAt_eq_ld, harg2.read_unread, harg3.read_unread, harg4.read_unread, harg5.read_unread, harg6.read_unread, harg8.read_unread, harg9.read_unread, harg10.read_unread, harg11.read_unread, View.ld_unit_zero (S := S1024x128) hz, View.ld_unit_zero (S := S1024x1) hz]

/-- Case A, the positives' count: the old count (zero, just stored by the reset) plus the block's number of positives. -/
theorem sout0_A_3_eq (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S12288x128 .f32) (x2 : Vec F S1024x1 .i32) (x3 : Vec F S1x12288 .i32) (x4 : Vec F S1024x1 .f32) :
    Frame.sout0_A_3 c i arg2 harg2 arg3 harg3 arg4 harg4 arg5 harg5 arg6 harg6 arg7 harg7 arg8 harg8 arg9 harg9 arg10 harg10 arg11 harg11 hc0 hc1 x0 x1 x2 x3 x4
      = (k0_pay3 (k0_pay12 i (View.ld x3 (Rect.unit (s := S1x12288) (k0_off2 i) S1x2048.size (k0_off2_inb i))) x2) (k0_pay9 (F := F))) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1) hz]
  simp only [View.readCov_unit_zero (S := S1024x1) _ hz, View.readAt_eq_ld, harg2.read_unread, harg3.read_unread, harg4.read_unread, harg5.read_unread, harg6.read_unread, harg8.read_unread, harg9.read_unread, harg10.read_unread, harg11.read_unread, View.ld_unit_zero (S := S1024x128) hz, View.ld_unit_zero (S := S1024x1) hz]

/-! ## Case B: a middle column block (the accumulators are updated) -/

/-- Case B, the running maximum: the larger of the old maximum and the block's row maxima. -/
theorem sout0_B_0_eq (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) :
    Frame.sout0_B_0 c i arg2 harg2 arg3 harg3 arg4 harg4 arg5 harg5 arg6 harg6 arg7 harg7 arg8 harg8 arg9 harg9 arg10 harg10 arg11 harg11 hc0 hc1 x0 x1 x2 x3 x4 xs0 xs1 xs2 xs3
      = (k0_pay4 (k0_pay13 (View.ld x1 (Rect.unit (s := S12288x128) (k0_off1 i) S2048x128.size (k0_off1_inb i))) x0 xs0)) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  rw [View.canon_unit_zero (S := S1024x1) hz]
  simp only [View.readAt_eq_ld, harg2.read_unread, harg3.read_unread, harg4.read_unread, harg5.read_unread, harg6.read_unread, harg8.read_unread, harg9.read_unread, harg10.read_unread, harg11.read_unread, View.ld_unit_zero (S := S1024x128) hz, View.ld_unit_zero (S := S1024x1) hz]

/-- Case B, the exponential sum: the old sum rescaled to the new maximum plus the block's exponentials off the anchors' own columns. -/
theorem sout0_B_1_eq (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) :
    Frame.sout0_B_1 c i arg2 harg2 arg3 harg3 arg4 harg4 arg5 harg5 arg6 harg6 arg7 harg7 arg8 harg8 arg9 harg9 arg10 harg10 arg11 harg11 hc0 hc1 x0 x1 x2 x3 x4 xs0 xs1 xs2 xs3
      = (k0_pay1 (k0_pay10 (View.ld x1 (Rect.unit (s := S12288x128) (k0_off1 i) S2048x128.size (k0_off1_inb i))) x0) (k0_pay11 (F := F) i) (k0_pay13 (View.ld x1 (Rect.unit (s := S12288x128) (k0_off1 i) S2048x128.size (k0_off1_inb i))) x0 xs0) (k0_pay14 (View.ld x1 (Rect.unit (s := S12288x128) (k0_off1 i) S2048x128.size (k0_off1_inb i))) x0 xs0 xs0) xs1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  rw [View.canon_unit_zero (S := S1024x1) hz]
  simp only [View.readAt_eq_ld, harg2.read_unread, harg3.read_unread, harg4.read_unread, harg5.read_unread, harg6.read_unread, harg8.read_unread, harg9.read_unread, harg10.read_unread, harg11.read_unread, View.ld_unit_zero (S := S1024x128) hz, View.ld_unit_zero (S := S1024x1) hz]

/-- Case B, the positives' similarity sum: the old sum plus the block's similarities at the positives. -/
theorem sout0_B_2_eq (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) :
    Frame.sout0_B_2 c i arg2 harg2 arg3 harg3 arg4 harg4 arg5 harg5 arg6 harg6 arg7 harg7 arg8 harg8 arg9 harg9 arg10 harg10 arg11 harg11 hc0 hc1 x0 x1 x2 x3 x4 xs0 xs1 xs2 xs3
      = (k0_pay2 (k0_pay10 (View.ld x1 (Rect.unit (s := S12288x128) (k0_off1 i) S2048x128.size (k0_off1_inb i))) x0) (k0_pay12 i (View.ld x3 (Rect.unit (s := S1x12288) (k0_off2 i) S1x2048.size (k0_off2_inb i))) x2) xs2) := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  rw [View.canon_unit_zero (S := S1024x1) hz]
  simp only [View.readAt_eq_ld, harg2.read_unread, harg3.read_unread, harg4.read_unread, harg5.read_unread, harg6.read_unread, harg8.read_unread, harg9.read_unread, harg10.read_unread, harg11.read_unread, View.ld_unit_zero (S := S1024x128) hz, View.ld_unit_zero (S := S1024x1) hz]

/-- Case B, the positives' count: the old count plus the block's number of positives. -/
theorem sout0_B_3_eq (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) :
    Frame.sout0_B_3 c i arg2 harg2 arg3 harg3 arg4 harg4 arg5 harg5 arg6 harg6 arg7 harg7 arg8 harg8 arg9 harg9 arg10 harg10 arg11 harg11 hc0 hc1 x0 x1 x2 x3 x4 xs0 xs1 xs2 xs3
      = (k0_pay3 (k0_pay12 i (View.ld x3 (Rect.unit (s := S1x12288) (k0_off2 i) S1x2048.size (k0_off2_inb i))) x2) xs3) := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  rw [View.canon_unit_zero (S := S1024x1) hz]
  simp only [View.readAt_eq_ld, harg2.read_unread, harg3.read_unread, harg4.read_unread, harg5.read_unread, harg6.read_unread, harg8.read_unread, harg9.read_unread, harg10.read_unread, harg11.read_unread, View.ld_unit_zero (S := S1024x128) hz, View.ld_unit_zero (S := S1024x1) hz]

/-! ## Case C: the last column block (the accumulators are updated, the output block is stored) -/

/-- Case C, the running maximum: the larger of the old maximum and the block's row maxima. -/
theorem sout0_C_0_eq (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) :
    Frame.sout0_C_0 c i arg2 harg2 arg3 harg3 arg4 harg4 arg5 harg5 arg6 harg6 arg7 harg7 arg8 harg8 arg9 harg9 arg10 harg10 arg11 harg11 hc0 hc1 x0 x1 x2 x3 x4 xs0 xs1 xs2 xs3
      = (k0_pay4 (k0_pay13 (View.ld x1 (Rect.unit (s := S12288x128) (k0_off1 i) S2048x128.size (k0_off1_inb i))) x0 xs0)) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  rw [View.canon_unit_zero (S := S1024x1) hz]
  simp only [View.readAt_eq_ld, harg2.read_unread, harg3.read_unread, harg4.read_unread, harg5.read_unread, harg6.read_unread, harg8.read_unread, harg9.read_unread, harg10.read_unread, harg11.read_unread, View.ld_unit_zero (S := S1024x128) hz, View.ld_unit_zero (S := S1024x1) hz]

/-- Case C, the exponential sum: the old sum rescaled to the new maximum plus the block's exponentials off the anchors' own columns. -/
theorem sout0_C_1_eq (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) :
    Frame.sout0_C_1 c i arg2 harg2 arg3 harg3 arg4 harg4 arg5 harg5 arg6 harg6 arg7 harg7 arg8 harg8 arg9 harg9 arg10 harg10 arg11 harg11 hc0 hc1 x0 x1 x2 x3 x4 xs0 xs1 xs2 xs3
      = (k0_pay1 (k0_pay10 (View.ld x1 (Rect.unit (s := S12288x128) (k0_off1 i) S2048x128.size (k0_off1_inb i))) x0) (k0_pay11 (F := F) i) (k0_pay13 (View.ld x1 (Rect.unit (s := S12288x128) (k0_off1 i) S2048x128.size (k0_off1_inb i))) x0 xs0) (k0_pay14 (View.ld x1 (Rect.unit (s := S12288x128) (k0_off1 i) S2048x128.size (k0_off1_inb i))) x0 xs0 xs0) xs1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  rw [View.canon_unit_zero (S := S1024x1) hz]
  simp only [View.readAt_eq_ld, harg2.read_unread, harg3.read_unread, harg4.read_unread, harg5.read_unread, harg6.read_unread, harg8.read_unread, harg9.read_unread, harg10.read_unread, harg11.read_unread, View.ld_unit_zero (S := S1024x128) hz, View.ld_unit_zero (S := S1024x1) hz]

/-- Case C, the positives' similarity sum: the old sum plus the block's similarities at the positives. -/
theorem sout0_C_2_eq (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) :
    Frame.sout0_C_2 c i arg2 harg2 arg3 harg3 arg4 harg4 arg5 harg5 arg6 harg6 arg7 harg7 arg8 harg8 arg9 harg9 arg10 harg10 arg11 harg11 hc0 hc1 x0 x1 x2 x3 x4 xs0 xs1 xs2 xs3
      = (k0_pay2 (k0_pay10 (View.ld x1 (Rect.unit (s := S12288x128) (k0_off1 i) S2048x128.size (k0_off1_inb i))) x0) (k0_pay12 i (View.ld x3 (Rect.unit (s := S1x12288) (k0_off2 i) S1x2048.size (k0_off2_inb i))) x2) xs2) := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  rw [View.canon_unit_zero (S := S1024x1) hz]
  simp only [View.readAt_eq_ld, harg2.read_unread, harg3.read_unread, harg4.read_unread, harg5.read_unread, harg6.read_unread, harg8.read_unread, harg9.read_unread, harg10.read_unread, harg11.read_unread, View.ld_unit_zero (S := S1024x128) hz, View.ld_unit_zero (S := S1024x1) hz]

/-- Case C, the positives' count: the old count plus the block's number of positives. -/
theorem sout0_C_3_eq (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) :
    Frame.sout0_C_3 c i arg2 harg2 arg3 harg3 arg4 harg4 arg5 harg5 arg6 harg6 arg7 harg7 arg8 harg8 arg9 harg9 arg10 harg10 arg11 harg11 hc0 hc1 x0 x1 x2 x3 x4 xs0 xs1 xs2 xs3
      = (k0_pay3 (k0_pay12 i (View.ld x3 (Rect.unit (s := S1x12288) (k0_off2 i) S1x2048.size (k0_off2_inb i))) x2) xs3) := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  rw [View.canon_unit_zero (S := S1024x1) hz]
  simp only [View.readAt_eq_ld, harg2.read_unread, harg3.read_unread, harg4.read_unread, harg5.read_unread, harg6.read_unread, harg8.read_unread, harg9.read_unread, harg10.read_unread, harg11.read_unread, View.ld_unit_zero (S := S1024x128) hz, View.ld_unit_zero (S := S1024x1) hz]

/-- Case C, the output block: the quotient of the similarity sum by the count, less the maximum, less the logarithm of
    the guarded exponential sum (the sum plus a small constant), the whole times minus one and times the weights —
    over the four accumulators as just updated. -/
theorem out0_C_5_eq (c : Dev nD) (i : grid0.Coords) (arg2 : Memref sig .tc .vmem S1024x128 .f32) (harg2 : arg2.IsWhole) (arg3 : Memref sig .tc .vmem S12288x128 .f32) (harg3 : arg3.IsWhole) (arg4 : Memref sig .tc .vmem S1024x1 .i32) (harg4 : arg4.IsWhole) (arg5 : Memref sig .tc .vmem S1x12288 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S12288x128 .f32) (x2 : Vec F S1024x1 .i32) (x3 : Vec F S1x12288 .i32) (x4 : Vec F S1024x1 .f32) (xs0 : Vec F S1024x1 .f32) (xs1 : Vec F S1024x1 .f32) (xs2 : Vec F S1024x1 .f32) (xs3 : Vec F S1024x1 .f32) :
    Frame.out0_C_5 c i arg2 harg2 arg3 harg3 arg4 harg4 arg5 harg5 arg6 harg6 arg7 harg7 arg8 harg8 arg9 harg9 arg10 harg10 arg11 harg11 hc0 hc1 x0 x1 x2 x3 x4 xs0 xs1 xs2 xs3
      = k0_pay5 (k0_pay2 (k0_pay10 (View.ld x1 (Rect.unit (s := S12288x128) (k0_off1 i) S2048x128.size (k0_off1_inb i))) x0) (k0_pay12 i (View.ld x3 (Rect.unit (s := S1x12288) (k0_off2 i) S1x2048.size (k0_off2_inb i))) x2) xs2) (k0_pay3 (k0_pay12 i (View.ld x3 (Rect.unit (s := S1x12288) (k0_off2 i) S1x2048.size (k0_off2_inb i))) x2) xs3) (k0_pay4 (k0_pay13 (View.ld x1 (Rect.unit (s := S12288x128) (k0_off1 i) S2048x128.size (k0_off1_inb i))) x0 xs0)) (k0_pay1 (k0_pay10 (View.ld x1 (Rect.unit (s := S12288x128) (k0_off1 i) S2048x128.size (k0_off1_inb i))) x0) (k0_pay11 (F := F) i) (k0_pay13 (View.ld x1 (Rect.unit (s := S12288x128) (k0_off1 i) S2048x128.size (k0_off1_inb i))) x0 xs0) (k0_pay14 (View.ld x1 (Rect.unit (s := S12288x128) (k0_off1 i) S2048x128.size (k0_off1_inb i))) x0 xs0 xs0) xs1) x4 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  rw [View.canon_unit_zero (S := S1024x1) hz]
  simp only [View.readCov_unit_zero (S := S1024x1) _ hz, View.readAt_eq_ld, harg2.read_unread, harg3.read_unread, harg4.read_unread, harg5.read_unread, harg6.read_unread, harg8.read_unread, harg9.read_unread, harg10.read_unread, harg11.read_unread, View.ld_unit_zero (S := S1024x128) hz, View.ld_unit_zero (S := S1024x1) hz]

end Cert.KernelIdeal.R0Pieces

end
-- ==== Proof.R0Payloads.lean ====
/-
  The arithmetic of the contrastive kernel's body, read at one row of a row block.

  At grid point (row block, column block) the body forms the block of scaled similarities — the inner products of
  the 1024 anchor rows with the 2048 rows of the column block, times the reciprocal temperature —, the mask that
  leaves out an anchor's own column (the row's number in the whole table against the column's), and the positives'
  mask (equal labels, times the first mask). From these and the four running accumulators it computes the new
  maximum, the exponential sum rescaled to it and extended by the block, and the two plain sums extended by the
  block; at the last column block it turns the accumulators into the weighted row loss.

  Each of these is stated here at row `p` of the row block, over variables for the loaded vectors: first each
  payload from the payloads it reads, then, under hypotheses saying what the loaded vectors hold, against one block
  step of the specification. The lane reductions are read as a finite sum and a finite supremum over the 2048
  columns, the matrix product as a sum over the 128 features, the integer comparisons on words of naturals that are
  far below 2^32.
-/
import proofs.«404244_j8306466750557_2_alg».proof.Proof.Gen.KernelIdeal.Skeleton
import proofs.«404244_j8306466750557_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.R0Payloads

open Idealize.ShloMosaic Idealize.ShloMosaic.ValueIdx Cert.KernelIdeal Cert.KernelIdeal.Gen

theorem negInf_f32 : Ideal.ofBits .f32 0xFF800000#32 = ⊥ := by simp [Ideal.ofBits, Ideal.ieee]

theorem invTemp_named : Named.named (F := Ideal) κ "inv_temp" (φ := .f32) 0x41649249#32 = Spec.invTemp :=
  IdealRules.named_const.ideal_named_scalar _ _ _ _ rfl

/-- A vector cast to a one-column matrix reads, at `(p, u)`, the vector at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column matrix broadcast along its rows reads, at `(p, q)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem lift_row (p : Fin 1024) (q : Fin 2048) : reduces_S1024x2048_S1024.lift (ix1 p) q = ix2 p q := by
  funext a; match a with | ⟨0, _⟩ => rfl | ⟨1, _⟩ => rfl

/-- An exponential, a logarithm at an index are the element's. -/
theorem exp_apply {s : Shape} {φ : FTy} (a : FVec Ideal s φ) (j : s.Idx) : exp a j = Ideal.exp (a j) := rfl
theorem log_apply {s : Shape} {φ : FTy} (a : FVec Ideal s φ) (j : s.Idx) : log a j = Ideal.log (a j) := rfl

/-! ### The product of the anchor rows with the block's rows -/

theorem lhs_dot_0 (j : S1024x2048.Idx) (q : dot_S1024x128_S2048x128_S1024x2048_1_1_0_0_n_n.contr.Idx) :
    (dot_S1024x128_S2048x128_S1024x2048_1_1_0_0_n_n.lhsIdx j q 0).val = (j 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem lhs_dot_1 (j : S1024x2048.Idx) (q : dot_S1024x128_S2048x128_S1024x2048_1_1_0_0_n_n.contr.Idx) :
    (dot_S1024x128_S2048x128_S1024x2048_1_1_0_0_n_n.lhsIdx j q 1).val = (q ⟨0, by decide⟩).val :=
  dot_S1024x128_S2048x128_S1024x2048_1_1_0_0_n_n.lhsIdx_val_of_single rfl j q
theorem rhs_dot_0 (j : S1024x2048.Idx) (q : dot_S1024x128_S2048x128_S1024x2048_1_1_0_0_n_n.contr.Idx) :
    (dot_S1024x128_S2048x128_S1024x2048_1_1_0_0_n_n.rhsIdx j q 0).val = (j 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem rhs_dot_1 (j : S1024x2048.Idx) (q : dot_S1024x128_S2048x128_S1024x2048_1_1_0_0_n_n.contr.Idx) :
    (dot_S1024x128_S2048x128_S1024x2048_1_1_0_0_n_n.rhsIdx j q 1).val = (q ⟨0, by decide⟩).val :=
  dot_S1024x128_S2048x128_S1024x2048_1_1_0_0_n_n.rhsIdx_val_of_single rfl j q

/-- The scaled similarity block at `(p, q)`: the inner product of anchor row `p` with the block's row `q`, times the
    reciprocal temperature. -/
theorem pay10_apply (v6 : FVec Ideal S2048x128 .f32) (v10 : FVec Ideal S1024x128 .f32) (p : Fin 1024) (q : Fin 2048) :
    k0_pay10 v6 v10 (ix2 p q) = (∑ k : Fin 128, v10 (ix2 p k) * v6 (ix2 q k)) * Spec.invTemp := by
  unfold k0_pay10
  simp only [shapeCast_self, mulf_apply, broadcast_apply, invTemp_named, matmul]
  rw [Ideal.matmul_constant_zero_apply, ← Equiv.sum_comp (contrEquiv1 dot_S1024x128_S2048x128_S1024x2048_1_1_0_0_n_n 128 rfl rfl).symm]
  congr 1
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 p q) ((contrEquiv1 dot_S1024x128_S2048x128_S1024x2048_1_1_0_0_n_n 128 rfl rfl).symm k) = ix2 p k := funext fun a => Fin.ext (by
    match a with
    | ⟨0, _⟩ => exact lhs_dot_0 _ _
    | ⟨1, _⟩ => exact (lhs_dot_1 _ _).trans hk)
  have er : dot_S1024x128_S2048x128_S1024x2048_1_1_0_0_n_n.rhsIdx (ix2 p q) ((contrEquiv1 dot_S1024x128_S2048x128_S1024x2048_1_1_0_0_n_n 128 rfl rfl).symm k) = ix2 q k := funext fun a => Fin.ext (by
    match a with
    | ⟨0, _⟩ => exact rhs_dot_0 _ _
    | ⟨1, _⟩ => exact (rhs_dot_1 _ _).trans hk)
  rw [el, er]

/-! ### The two masks -/

/-- Words of naturals below `2 ^ 32` are equal exactly when the naturals are. -/
theorem ofNat32_eq_iff {x y : ℕ} (hx : x < 4294967296) (hy : y < 4294967296) :
    BitVec.ofNat 32 x = BitVec.ofNat 32 y ↔ x = y := by
  constructor
  · intro h
    have := congrArg BitVec.toNat h
    simp only [BitVec.toNat_ofNat] at this
    omega
  · rintro rfl; rfl

/-- The word of a row or column number: block number times block size plus the offset, with no wraparound to speak of. -/
theorem word_mul_add (x c p : ℕ) :
    IntOp.addi (Scalar.muli (BitVec.ofNat 32 x) (BitVec.ofNat 32 c)) (BitVec.ofNat 32 p) = BitVec.ofNat 32 (c * x + p) := by
  apply BitVec.eq_of_toNat_eq
  simp only [IntOp.addi, Scalar.muli, IntOp.muli, BitVec.toNat_add, BitVec.toNat_mul, BitVec.toNat_ofNat]
  rw [Nat.mul_comm c x]
  simp [Nat.add_mod, Nat.mul_mod]

/-- A decided bit, widened and read as a signed integer, is one or zero. -/
theorem bit_to_float (c : Bool) :
    FloatOps.sitofp (F := Ideal) .f32 ((BitVec.ofBool c).setWidth 32) = if c then 1 else 0 := by
  cases c
  · show (((BitVec.setWidth 32 (BitVec.ofBool false)).toInt : ℝ) : EReal) = _
    have h : (BitVec.setWidth 32 (BitVec.ofBool false)).toInt = 0 := by decide
    rw [h]; simp
  · show (((BitVec.setWidth 32 (BitVec.ofBool true)).toInt : ℝ) : EReal) = _
    have h : (BitVec.setWidth 32 (BitVec.ofBool true)).toInt = 1 := by decide
    rw [h]; simp

/-- The mask that leaves out the anchor's own column, at `(p, q)`: zero where the row's number in the whole table is
    the column's, one elsewhere. -/
theorem pay11_apply (i : grid0.Coords) (p : Fin 1024) (q : Fin 2048) :
    k0_pay11 (F := Ideal) i (ix2 p q)
      = if 1024 * (i 0).val + p.val = 2048 * (i 1).val + q.val then 0 else 1 := by
  have h0 : (i 0).val < 4 := (i 0).isLt
  have h1 : (i 1).val < 6 := (i 1).isLt
  have hp := p.isLt
  have hq := q.isLt
  unfold k0_pay11
  simp only [sitofp_apply, extui_apply, cmpi, addi, broadcast_apply]
  rw [iota_single_apply .tc S1024x2048 32 (0 : Fin 2) iota_S1024x2048_d0_w32 (ix2 p q),
    iota_single_apply .tc S1024x2048 32 (1 : Fin 2) iota_S1024x2048_d1_w32 (ix2 p q)]
  show FloatOps.sitofp (F := Ideal) .f32
      ((IntOp.cmpi .ne (IntOp.addi (Scalar.muli (BitVec.ofNat 32 (i 0).val) (BitVec.ofNat 32 1024)) (BitVec.ofNat 32 p.val))
        (IntOp.addi (Scalar.muli (BitVec.ofNat 32 (i 1).val) (BitVec.ofNat 32 2048)) (BitVec.ofNat 32 q.val))).setWidth 32) = _
  rw [word_mul_add, word_mul_add]
  show FloatOps.sitofp (F := Ideal) .f32 ((BitVec.ofBool (BitVec.ofNat 32 (1024 * (i 0).val + p.val)
      != BitVec.ofNat 32 (2048 * (i 1).val + q.val))).setWidth 32) = _
  rw [bit_to_float]
  by_cases h : 1024 * (i 0).val + p.val = 2048 * (i 1).val + q.val
  · rw [if_pos h, h]; simp
  · rw [if_neg h]
    have : BitVec.ofNat 32 (1024 * (i 0).val + p.val) ≠ BitVec.ofNat 32 (2048 * (i 1).val + q.val) := fun e =>
      h ((ofNat32_eq_iff (by omega) (by omega)).mp e)
    simp [this]

/-- The positives' mask at `(p, q)`: one where the anchor's label is the column's, times the mask above. -/
theorem pay12_apply (i : grid0.Coords) (v8 : IVec S1x2048 32) (v25 : IVec S1024x1 32) (p : Fin 1024) (q : Fin 2048) :
    k0_pay12 (F := Ideal) i v8 v25 (ix2 p q)
      = (if v25 (ix2 p 0) = v8 (ix2 0 q) then 1 else 0) * k0_pay11 (F := Ideal) i (ix2 p q) := by
  unfold k0_pay12
  simp only [shapeCast_self, mulf_apply, sitofp_apply, extui_apply, cmpi]
  rw [broadcastTo_a1_ab_apply, broadcastTo_1b_ab_apply]
  show FloatOps.sitofp (F := Ideal) .f32 ((BitVec.ofBool (v25 (ix2 p 0) == v8 (ix2 0 q))).setWidth 32) * _ = _
  rw [bit_to_float]
  congr 1
  by_cases h : v25 (ix2 p 0) = v8 (ix2 0 q)
  · simp [h]
  · simp [h]

/-! ### Lane reductions along a row -/

/-- A sum along the lanes of a `[1024, 2048]` vector, at row `p`. -/
theorem lane_sum (src : FVec Ideal S1024x2048 .f32) (hφ : FKind.Formats .f32)
    (hacc : (0x00000000#32 : BitVec 32) = 0x00000000#32) (p : Fin 1024) :
    multiReduction .add [1] S1024 src 0x00000000#32 reduces_S1024x2048_S1024 hφ hacc (ix1 p) = ∑ q : Fin 2048, src (ix2 p q) :=
  (Ideal.multiReduction_add_single src 0x00000000#32 reduces_S1024x2048_S1024 hφ hacc (ix1 p)).trans
    (Finset.sum_congr rfl fun q _ => congrArg src (lift_row p q))

/-- The fold of `max` from `⊥` over a finite set is its supremum. -/
theorem fold_max_bot {ι : Type*} (S : Finset ι) (g : ι → EReal) : S.fold max ⊥ g = S.sup g := rfl

/-- A maximum along the lanes of a `[1024, 2048]` vector, at row `p`: the fold of `max` from `-∞` is the supremum. -/
theorem lane_max (src : FVec Ideal S1024x2048 .f32) (hφ : FKind.Formats .f32)
    (hacc : (0xFF800000#32 : BitVec 32) = 0xFF800000#32) (p : Fin 1024) :
    multiReduction .maximumf [1] S1024 src 0xFF800000#32 reduces_S1024x2048_S1024 hφ hacc (ix1 p)
      = Finset.univ.sup fun q : Fin 2048 => src (ix2 p q) := by
  refine (Ideal.multiReduction_maximumf_single src 0xFF800000#32 reduces_S1024x2048_S1024 hφ hacc (ix1 p)).trans ?_
  have hfun : (src ∘ reduces_S1024x2048_S1024.lift (ix1 p)) = fun q : Fin 2048 => src (ix2 p q) :=
    funext fun q => congrArg src (lift_row p q)
  have hb : FloatOps.ofBits (F := Ideal) .f32 0xFF800000#32 = ⊥ := negInf_f32
  rw [hfun, hb]
  exact fold_max_bot _ _

theorem pay13_apply (v6 : FVec Ideal S2048x128 .f32) (v10 : FVec Ideal S1024x128 .f32) (v35 : FVec Ideal S1024x1 .f32) (p : Fin 1024) :
    k0_pay13 (F := Ideal) v6 v10 v35 (ix2 p 0)
      = max (v35 (ix2 p 0)) (Finset.univ.sup fun q : Fin 2048 => k0_pay10 (F := Ideal) v6 v10 (ix2 p q)) := by
  unfold k0_pay13
  generalize k0_pay10 (F := Ideal) v6 v10 = X
  refine (maximumf_apply _ _ _).trans ?_
  rw [shapeCast_a_a1_apply, lane_max]

theorem pay14_apply (v6 : FVec Ideal S2048x128 .f32) (v10 : FVec Ideal S1024x128 .f32) (v35 v37 : FVec Ideal S1024x1 .f32) (p : Fin 1024) :
    k0_pay14 (F := Ideal) v6 v10 v35 v37 (ix2 p 0) = Ideal.exp (v37 (ix2 p 0) - k0_pay13 (F := Ideal) v6 v10 v35 (ix2 p 0)) := by
  unfold k0_pay14
  simp only [exp_apply, subf_apply]

theorem pay1_apply (v14 v24 : FVec Ideal S1024x2048 .f32) (v36 v39 v44 : FVec Ideal S1024x1 .f32) (p : Fin 1024) :
    k0_pay1 v14 v24 v36 v39 v44 (ix2 p 0)
      = v44 (ix2 p 0) * v39 (ix2 p 0) + ∑ q : Fin 2048, Ideal.exp (v14 (ix2 p q) - v36 (ix2 p 0)) * v24 (ix2 p q) := by
  unfold k0_pay1
  simp only [shapeCast_self, addf_apply, mulf_apply]
  rw [shapeCast_a_a1_apply, lane_sum]
  congr 1
  refine Finset.sum_congr rfl fun q _ => ?_
  show Ideal.exp (v14 (ix2 p q) - broadcastTo S1024x2048 v36 broadcasts_S1024x1_S1024x2048 (ix2 p q)) * v24 (ix2 p q) = _
  rw [broadcastTo_a1_ab_apply]

theorem pay2_apply (v14 v32 : FVec Ideal S1024x2048 .f32) (v52 : FVec Ideal S1024x1 .f32) (p : Fin 1024) :
    k0_pay2 v14 v32 v52 (ix2 p 0) = v52 (ix2 p 0) + ∑ q : Fin 2048, v32 (ix2 p q) * v14 (ix2 p q) := by
  unfold k0_pay2
  simp only [shapeCast_self, addf_apply]
  rw [shapeCast_a_a1_apply, lane_sum]
  rfl

theorem pay3_apply (v32 : FVec Ideal S1024x2048 .f32) (v60 : FVec Ideal S1024x1 .f32) (p : Fin 1024) :
    k0_pay3 v32 v60 (ix2 p 0) = v60 (ix2 p 0) + ∑ q : Fin 2048, v32 (ix2 p q) := by
  unfold k0_pay3
  simp only [shapeCast_self, addf_apply]
  rw [shapeCast_a_a1_apply, lane_sum]

theorem pay4_eq (v36 : FVec Ideal S1024x1 .f32) : k0_pay4 v36 = v36 := by
  unfold k0_pay4
  exact shapeCast_self _ _

/-! ### The payloads against the block step of the specification -/

section Against

variable (f : Fin 12288 → Fin 128 → EReal) (lab : Fin 12288 → BitVec 32) (i : grid0.Coords)
  (p : Fin 1024) (row : Fin 4096) (b : Fin 6)
  (v10 : FVec Ideal S1024x128 .f32) (v6 : FVec Ideal S2048x128 .f32) (v25 : IVec S1024x1 32) (v8 : IVec S1x2048 32)

/-- The similarity block at `(p, q)` is the specification's similarity of the anchor with the block's column `q`. -/
theorem sim_apply (hq : ∀ k, v10 (ix2 p k) = f (Spec.anchor row) k) (hk : ∀ q k, v6 (ix2 q k) = f (Spec.col b q) k)
    (q : Fin 2048) : k0_pay10 (F := Ideal) v6 v10 (ix2 p q) = Spec.simMul f row (Spec.col b q) := by
  rw [pay10_apply]
  unfold Spec.simMul Spec.dot
  congr 1
  exact Finset.sum_congr rfl fun k _ => by rw [hq k, hk q k]

/-- The own-column mask at `(p, q)` is the specification's. -/
theorem notSelf_apply (hrow : row.val = 1024 * (i 0).val + p.val) (hb : b.val = (i 1).val) (q : Fin 2048) :
    k0_pay11 (F := Ideal) i (ix2 p q) = Spec.notSelf row (Spec.col b q) := by
  rw [pay11_apply]
  show _ = if row.val = 2048 * b.val + q.val then 0 else 1
  rw [hrow, hb]

/-- The positives' mask at `(p, q)` is the specification's. -/
theorem pos_apply (hrow : row.val = 1024 * (i 0).val + p.val) (hb : b.val = (i 1).val)
    (hlr : v25 (ix2 p 0) = lab (Spec.anchor row)) (hlc : ∀ q, v8 (ix2 0 q) = lab (Spec.col b q)) (q : Fin 2048) :
    k0_pay12 (F := Ideal) i v8 v25 (ix2 p q) = Spec.pos lab row (Spec.col b q) := by
  rw [pay12_apply, hlr, hlc q, notSelf_apply i p row b hrow hb q]
  rfl

variable (st : Spec.Acc) (mOld lOld sOld cOld : FVec Ideal S1024x1 .f32)

/-- The new running maximum at row `p`. -/
theorem pay_m (hq : ∀ k, v10 (ix2 p k) = f (Spec.anchor row) k) (hk : ∀ q k, v6 (ix2 q k) = f (Spec.col b q) k)
    (hm : mOld (ix2 p 0) = st.m) :
    k0_pay4 (k0_pay13 (F := Ideal) v6 v10 mOld) (ix2 p 0) = (Spec.accStep lab (Spec.simMul f) row b st).m := by
  have hX : (fun q : Fin 2048 => k0_pay10 (F := Ideal) v6 v10 (ix2 p q)) = fun q => Spec.simMul f row (Spec.col b q) :=
    funext (sim_apply f p row b v10 v6 hq hk)
  rw [pay4_eq, pay13_apply, hm, hX]
  rfl

/-- The rescaled and extended exponential sum at row `p`. -/
theorem pay_l (hrow : row.val = 1024 * (i 0).val + p.val) (hb : b.val = (i 1).val)
    (hq : ∀ k, v10 (ix2 p k) = f (Spec.anchor row) k) (hk : ∀ q k, v6 (ix2 q k) = f (Spec.col b q) k)
    (hm : mOld (ix2 p 0) = st.m) (hl : lOld (ix2 p 0) = st.l) :
    k0_pay1 (k0_pay10 (F := Ideal) v6 v10) (k0_pay11 (F := Ideal) i) (k0_pay13 (F := Ideal) v6 v10 mOld) (k0_pay14 (F := Ideal) v6 v10 mOld mOld) lOld (ix2 p 0)
      = (Spec.accStep lab (Spec.simMul f) row b st).l := by
  have hX := sim_apply f p row b v10 v6 hq hk
  have hN := notSelf_apply i p row b hrow hb
  rw [pay1_apply, pay14_apply, pay13_apply, hm, hl]
  generalize k0_pay10 (F := Ideal) v6 v10 = X at hX ⊢
  generalize k0_pay11 (F := Ideal) i = N at hN ⊢
  simp only [hX, hN]
  rfl

/-- The extended sum of the positives' similarities at row `p`. -/
theorem pay_s (hrow : row.val = 1024 * (i 0).val + p.val) (hb : b.val = (i 1).val)
    (hq : ∀ k, v10 (ix2 p k) = f (Spec.anchor row) k) (hk : ∀ q k, v6 (ix2 q k) = f (Spec.col b q) k)
    (hlr : v25 (ix2 p 0) = lab (Spec.anchor row)) (hlc : ∀ q, v8 (ix2 0 q) = lab (Spec.col b q))
    (hs : sOld (ix2 p 0) = st.s) :
    k0_pay2 (k0_pay10 (F := Ideal) v6 v10) (k0_pay12 (F := Ideal) i v8 v25) sOld (ix2 p 0)
      = (Spec.accStep lab (Spec.simMul f) row b st).s := by
  have hX := sim_apply f p row b v10 v6 hq hk
  have hP := pos_apply lab i p row b v25 v8 hrow hb hlr hlc
  rw [pay2_apply, hs]
  generalize k0_pay10 (F := Ideal) v6 v10 = X at hX ⊢
  generalize k0_pay12 (F := Ideal) i v8 v25 = P at hP ⊢
  simp only [hX, hP]
  rfl

/-- The extended count of the positives at row `p`. -/
theorem pay_c (hrow : row.val = 1024 * (i 0).val + p.val) (hb : b.val = (i 1).val)
    (hlr : v25 (ix2 p 0) = lab (Spec.anchor row)) (hlc : ∀ q, v8 (ix2 0 q) = lab (Spec.col b q))
    (hc : cOld (ix2 p 0) = st.c) :
    k0_pay3 (k0_pay12 (F := Ideal) i v8 v25) cOld (ix2 p 0) = (Spec.accStep lab (Spec.simMul f) row b st).c := by
  have hP := pos_apply lab i p row b v25 v8 hrow hb hlr hlc
  rw [pay3_apply, hc]
  generalize k0_pay12 (F := Ideal) i v8 v25 = P at hP ⊢
  simp only [hP]
  rfl

end Against

/-- The stored row loss at row `p`, from the four final accumulators and the row's weight. -/
theorem pay_out (s c m l rew : FVec Ideal S1024x1 .f32) (p : Fin 1024) :
    k0_pay5 (F := Ideal) s c m l rew (ix2 p 0)
      = (Spec.negOne * Spec.meanOfAcc ⟨m (ix2 p 0), l (ix2 p 0), s (ix2 p 0), c (ix2 p 0)⟩) * rew (ix2 p 0) := by
  unfold k0_pay5
  simp only [shapeCast_self, mulf_apply, subf_apply, divf_apply, addf_apply, log_apply, broadcast_apply]
  rfl

/-- The accumulators' initial values: no maximum yet, empty sums. -/
theorem pay_init_m (p : Fin 1024) : k0_pay6 (F := Ideal) (ix2 p 0) = Spec.accInit.m := by
  unfold k0_pay6
  simp only [shapeCast_self]
  exact negInf_f32
theorem pay_init_l (p : Fin 1024) : k0_pay7 (F := Ideal) (ix2 p 0) = Spec.accInit.l := by
  unfold k0_pay7
  simp only [shapeCast_self]
  exact Ideal.ofBits_zero_f32
theorem pay_init_s (p : Fin 1024) : k0_pay8 (F := Ideal) (ix2 p 0) = Spec.accInit.s := by
  unfold k0_pay8
  simp only [shapeCast_self]
  exact Ideal.ofBits_zero_f32
theorem pay_init_c (p : Fin 1024) : k0_pay9 (F := Ideal) (ix2 p 0) = Spec.accInit.c := by
  unfold k0_pay9
  simp only [shapeCast_self]
  exact Ideal.ofBits_zero_f32

end Cert.KernelIdeal.R0Payloads
end
-- ==== Proof.R0Blocks.lean ====
/-
  Region 0's blocks, read at an index.

  The region walks a 4 × 6 grid: point t has row block t / 6 and column block t % 6. Three inputs are cut into four
  blocks of 1024 rows and move with the row block — the anchors' features, labels and weights — so row p of point t's
  block is row 1024 (t / 6) + p of the array. Two inputs are whole arrays at every point — the feature table and the
  label row — and the body slices the column block's 2048 rows out of each itself, at offset 2048 (t % 6). The output is
  cut like the row-blocked inputs and written back at the last column block only; the four points that do so cover
  the array's 4096 rows, row r by the point 6 (r / 1024) + 5. Each relation between a printed index map and the grid is
  decided once over the 24 points.
-/
import proofs.«404244_j8306466750557_2_alg».proof.Proof.R0Frame
import Idealize.ShloMosaic.Lib.ValueIdx
import Idealize.ShloMosaic.Lib.Pipeline.Value

set_option maxRecDepth 16384

noncomputable section

namespace Cert.KernelIdeal.R0Blocks

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

/-! ### The grid: point t is row block t / 6, column block t % 6 -/

/-- Row p of point t's row block, as a row of the 4096. -/
abbrev rowOf (t : Fin cfg0.N) (p : Fin 1024) : Fin 4096 :=
  ⟨1024 * (t.val / 6) + p.val, by have ht : t.val < 24 := t.isLt; have := p.isLt; omega⟩
/-- Row q of point t's column block, as a row of the 12288. -/
abbrev colOf (t : Fin cfg0.N) (q : Fin 2048) : Fin 12288 :=
  ⟨2048 * (t.val % 6) + q.val, by have := q.isLt; omega⟩

/-- The printed index maps, decided over the 24 points: the three row-blocked inputs and the output sit at block
    (t / 6, 0); the two whole-array inputs at block (0, 0). -/
theorem idx_facts : ∀ t : Fin cfg0.N,
    win0_0.index t (0 : Fin 2) = t.val / 6 ∧ win0_0.index t (1 : Fin 2) = 0
    ∧ win0_1.index t (0 : Fin 2) = 0 ∧ win0_1.index t (1 : Fin 2) = 0
    ∧ win0_2.index t (0 : Fin 2) = t.val / 6 ∧ win0_2.index t (1 : Fin 2) = 0
    ∧ win0_3.index t (0 : Fin 2) = 0 ∧ win0_3.index t (1 : Fin 2) = 0
    ∧ win0_4.index t (0 : Fin 2) = t.val / 6 ∧ win0_4.index t (1 : Fin 2) = 0
    ∧ win0_5.index t (0 : Fin 2) = t.val / 6 ∧ win0_5.index t (1 : Fin 2) = 0 :=
  (by decide +kernel : ∀ t : Fin grid0.N, _)

/-- The two offsets the body slices its whole-array inputs at: 2048 times the column block. -/
theorem off_facts : ∀ t : Fin cfg0.N,
    k0_off1 (grid0.coords t) (0 : Fin 2) = 2048 * (t.val % 6) ∧ k0_off1 (grid0.coords t) (1 : Fin 2) = 0
    ∧ k0_off2 (grid0.coords t) (0 : Fin 2) = 0 ∧ k0_off2 (grid0.coords t) (1 : Fin 2) = 2048 * (t.val % 6) :=
  (by decide +kernel : ∀ t : Fin grid0.N, _)

section
variable (V : (c : Dev nD) → (b : Ref sig .tc) → Buf (Elt F) ((c : Thread nD τ).loc b))

/-! ### The input blocks, read off the arrays as the region finds them -/

/-- Window 0: the anchors' features, rows of the row block. -/
theorem blk0_apply (c : Dev nD) (t : Fin cfg0.N) (p : Fin 1024) (k : Fin 128) :
    (iblk0 V c 0 t : S1024x128.Idx → Elt F .f32) (ix2 p k) = (V c main_v12 : S4096x128.Idx → Elt F .f32) (ix2 (rowOf t p) k) := by
  show V c main_v12 (((cfg0.win 0).blk t).view.emb (ix2 p k)) = _
  refine congrArg (V c main_v12) (funext fun a => Fin.ext ?_)
  obtain ⟨e0, e1, -⟩ := idx_facts t
  match a with
  | ⟨0, _⟩ => show win0_0.index t (0 : Fin 2) * 1024 + 1 * p.val = 1024 * (t.val / 6) + p.val; omega
  | ⟨1, _⟩ => show win0_0.index t (1 : Fin 2) * 128 + 1 * k.val = k.val; omega

/-- Window 1: the whole feature table, at every point. -/
theorem blk1_eq (c : Dev nD) (t : Fin cfg0.N) :
    (iblk0 V c 1 t : S12288x128.Idx → Elt F .f32) = (V c main_arg0 : S12288x128.Idx → Elt F .f32) := by
  funext y
  show V c main_arg0 (((cfg0.win 1).blk t).view.emb y) = V c main_arg0 y
  refine congrArg (V c main_arg0) (funext fun a => Fin.ext ?_)
  obtain ⟨-, -, e0, e1, -⟩ := idx_facts t
  match a with
  | ⟨0, _⟩ => show win0_1.index t (0 : Fin 2) * 12288 + 1 * (y 0).val = (y 0).val; omega
  | ⟨1, _⟩ => show win0_1.index t (1 : Fin 2) * 128 + 1 * (y 1).val = (y 1).val; omega

/-- Window 2: the anchors' labels, rows of the row block. -/
theorem blk2_apply (c : Dev nD) (t : Fin cfg0.N) (p : Fin 1024) :
    (iblk0 V c 2 t : S1024x1.Idx → BitVec 32) (ix2 p (0 : Fin 1)) = (V c main_v1 : S4096x1.Idx → BitVec 32) (ix2 (rowOf t p) (0 : Fin 1)) := by
  show V c main_v1 (((cfg0.win 2).blk t).view.emb (ix2 p (0 : Fin 1))) = _
  refine congrArg (V c main_v1) (funext fun a => Fin.ext ?_)
  obtain ⟨-, -, -, -, e0, e1, -⟩ := idx_facts t
  match a with
  | ⟨0, _⟩ => show win0_2.index t (0 : Fin 2) * 1024 + 1 * p.val = 1024 * (t.val / 6) + p.val; omega
  | ⟨1, _⟩ => show win0_2.index t (1 : Fin 2) * 1 + 1 * 0 = 0; omega

/-- Window 3: the whole label row, at every point. -/
theorem blk3_eq (c : Dev nD) (t : Fin cfg0.N) :
    (iblk0 V c 3 t : S1x12288.Idx → BitVec 32) = (V c main_v2 : S1x12288.Idx → BitVec 32) := by
  funext y
  show V c main_v2 (((cfg0.win 3).blk t).view.emb y) = V c main_v2 y
  refine congrArg (V c main_v2) (funext fun a => Fin.ext ?_)
  obtain ⟨-, -, -, -, -, -, e0, e1, -⟩ := idx_facts t
  match a with
  | ⟨0, _⟩ => show win0_3.index t (0 : Fin 2) * 1 + 1 * (y 0).val = (y 0).val; omega
  | ⟨1, _⟩ => show win0_3.index t (1 : Fin 2) * 12288 + 1 * (y 1).val = (y 1).val; omega

/-- Window 4: the anchors' weights, rows of the row block. -/
theorem blk4_apply (c : Dev nD) (t : Fin cfg0.N) (p : Fin 1024) :
    (iblk0 V c 4 t : S1024x1.Idx → Elt F .f32) (ix2 p (0 : Fin 1)) = (V c main_v11 : S4096x1.Idx → Elt F .f32) (ix2 (rowOf t p) (0 : Fin 1)) := by
  show V c main_v11 (((cfg0.win 4).blk t).view.emb (ix2 p (0 : Fin 1))) = _
  refine congrArg (V c main_v11) (funext fun a => Fin.ext ?_)
  obtain ⟨-, -, -, -, -, -, -, -, e0, e1, -⟩ := idx_facts t
  match a with
  | ⟨0, _⟩ => show win0_4.index t (0 : Fin 2) * 1024 + 1 * p.val = 1024 * (t.val / 6) + p.val; omega
  | ⟨1, _⟩ => show win0_4.index t (1 : Fin 2) * 1 + 1 * 0 = 0; omega

end

/-! ### The body's two slices of its whole-array inputs: the column block's 2048 rows -/

theorem kslice_apply (x1 : Vec F S12288x128 .f32) (t : Fin cfg0.N) (q : Fin 2048) (k : Fin 128) :
    (View.ld x1 (Rect.unit (s := S12288x128) (k0_off1 (grid0.coords t)) S2048x128.size (k0_off1_inb (grid0.coords t)))
      : S2048x128.Idx → Elt F .f32) (ix2 q k) = x1 (ix2 (colOf t q) k) := by
  refine congrArg x1 (funext fun a => Fin.ext ?_)
  obtain ⟨e0, e1, -⟩ := off_facts t
  match a with
  | ⟨0, _⟩ => show k0_off1 (grid0.coords t) (0 : Fin 2) + 1 * q.val = 2048 * (t.val % 6) + q.val; omega
  | ⟨1, _⟩ => show k0_off1 (grid0.coords t) (1 : Fin 2) + 1 * k.val = k.val; omega

theorem lslice_apply (x3 : Vec F S1x12288 .i32) (t : Fin cfg0.N) (q : Fin 2048) :
    (View.ld x3 (Rect.unit (s := S1x12288) (k0_off2 (grid0.coords t)) S1x2048.size (k0_off2_inb (grid0.coords t)))
      : S1x2048.Idx → BitVec 32) (ix2 (0 : Fin 1) q) = x3 (ix2 (0 : Fin 1) (colOf t q)) := by
  refine congrArg x3 (funext fun a => Fin.ext ?_)
  obtain ⟨-, -, e0, e1⟩ := off_facts t
  match a with
  | ⟨0, _⟩ => show k0_off2 (grid0.coords t) (0 : Fin 2) + 1 * 0 = 0; omega
  | ⟨1, _⟩ => show k0_off2 (grid0.coords t) (1 : Fin 2) + 1 * q.val = 2048 * (t.val % 6) + q.val; omega

/-! ### The output window: written back at the last column block, onto the row block's rows -/

section
variable (V : (c : Dev nD) → (b : Ref sig .tc) → Buf (Elt F) ((c : Thread nD τ).loc b))

/-- Block t of a whole-array function, read at row p: the function at row 1024 (t / 6) + p. -/
theorem blk5_read (G : S4096x1.Idx → Elt F .f32) (t : Fin cfg0.N) (p : Fin 1024) :
    (((cfg0.win 5).blk t).view.read (Elt F) G : S1024x1.Idx → Elt F .f32) (ix2 p (0 : Fin 1)) = G (ix2 (rowOf t p) (0 : Fin 1)) := by
  show G (((cfg0.win 5).blk t).view.emb (ix2 p (0 : Fin 1))) = _
  refine congrArg G (funext fun a => Fin.ext ?_)
  obtain ⟨-, -, -, -, -, -, -, -, -, -, e0, e1⟩ := idx_facts t
  match a with
  | ⟨0, _⟩ => show win0_5.index t (0 : Fin 2) * 1024 + 1 * p.val = 1024 * (t.val / 6) + p.val; omega
  | ⟨1, _⟩ => show win0_5.index t (1 : Fin 2) * 1 + 1 * 0 = 0; omega

/-- An index of the output array is in point t's block iff each coordinate is in the block's range on its axis. -/
theorem mem_blk5 (t : Fin cfg0.N) (i : S4096x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v13).slice (win0_5.rect t)).set ↔ _
  rw [View.set_slice_whole, Rect.mem_set_unit]
  exact Iff.rfl

/-- Row r is covered by the point 6 (r / 1024) + 5, a point that writes back. -/
theorem cover5 (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  refine ⟨⟨6 * ((i 0).val / 1024) + 5, by show _ < 24; omega⟩, (flush0_5 _).mpr (by show (6 * ((i 0).val / 1024) + 5) % 6 = 5; omega), ?_⟩
  rw [mem_blk5]
  obtain ⟨-, -, -, -, -, -, -, -, -, -, e0, e1⟩ := idx_facts ⟨6 * ((i 0).val / 1024) + 5, by show _ < 24; omega⟩
  have e0' : win0_5.index ⟨6 * ((i 0).val / 1024) + 5, by show _ < 24; omega⟩ (0 : Fin 2) = (6 * ((i 0).val / 1024) + 5) / 6 := e0
  intro a
  match a with
  | ⟨0, _⟩ =>
    show win0_5.index _ (0 : Fin 2) * 1024 ≤ (i 0).val ∧ (i 0).val < win0_5.index _ (0 : Fin 2) * 1024 + 1024
    rw [e0']; omega
  | ⟨1, _⟩ =>
    show win0_5.index _ (1 : Fin 2) * 1 ≤ (i 1).val ∧ (i 1).val < win0_5.index _ (1 : Fin 2) * 1 + 1
    rw [e1]; omega

/-- THE OUTPUT ARRAY after the region: if every point of the last column block writes back block t of G, the array ends holding G. -/
theorem arrAt5_of (c : Dev nD) (G : S4096x1.Idx → Elt F .f32)
    (h : ∀ t : Fin cfg0.N, t.val % 6 = 5 → (dat0 V c).flushed 5 t = ((cfg0.win 5).blk t).view.read (Elt F) G) :
    (dat0 V c).arrAt 5 cfg0.N = G :=
  (dat0 V c).arrAt_eq_of_cover 5 G (fun t hf => h t ((flush0_5 t).mp hf)) cover5

end

end Cert.KernelIdeal.R0Blocks

end
-- ==== Proof.SpecOnline.lean ====
/-
  The online-softmax law for one row of similarities.

  The 12288 columns of row `i` are walked in six blocks of 2048. The walk carries the largest entry met so far, the
  sum of the exponentials of the entries met so far taken against that running maximum (the anchor's own column left
  out), and two plain sums over the positives. When a block raises the maximum from `m` to `m'`, the old exponential
  sum is multiplied by `exp (m - m')`; since `exp (x - m) * exp (m - m') = exp (x - m')` on the reals, and a finite sum of
  non-negative terms times a factor is the sum of the products, the rescaled sum is the sum against the new maximum.
  Before the first block the maximum is `⊥` and every sum is empty, so the same invariant holds with nothing walked.
  After the six blocks the columns walked are all of them: `(b, q) ↦ 2048 * b + q` is a bijection of
  `Fin 6 × Fin 2048` with `Fin 12288`, so the blockwise sums and the blockwise maximum are the row's.
-/
import proofs.«404244_j8306466750557_2_alg».proof.Proof.Spec
import Mathlib.Data.EReal.Operations
import Mathlib.Data.Finset.Lattice.Fold
import Mathlib.Algebra.BigOperators.Group.Finset.Basic
import Mathlib.Data.Fintype.BigOperators

noncomputable section

namespace Cert.Spec

open Idealize.ShloMosaic

/-! ### Elementary facts on the extended reals -/

/-- An exponential is never negative, at the infinities included. -/
theorem exp_nonneg (x : EReal) : 0 ≤ Ideal.exp x := by
  induction x with
  | bot => simp
  | top => simp
  | coe r => rw [Ideal.exp_coe]; exact_mod_cast (Real.exp_pos r).le

theorem notSelf_nonneg (i : Fin 4096) (j : Fin 12288) : 0 ≤ notSelf i j := by
  unfold notSelf; split_ifs <;> simp

/-- A finite sum of non-negative extended reals times a factor is the sum of the products. -/
theorem sum_mul_of_nonneg {ι : Type*} (S : Finset ι) (f : ι → EReal) (hf : ∀ x ∈ S, 0 ≤ f x) (c : EReal) :
    (∑ x ∈ S, f x) * c = ∑ x ∈ S, f x * c := by
  classical
  induction S using Finset.induction_on with
  | empty => simp
  | insert x S hx ih =>
    rw [Finset.sum_insert hx, Finset.sum_insert hx,
      EReal.right_distrib_of_nonneg (hf x (Finset.mem_insert_self x S))
        (Finset.sum_nonneg fun y hy => hf y (Finset.mem_insert_of_mem hy)),
      ih fun y hy => hf y (Finset.mem_insert_of_mem hy)]

/-- The maximum of finitely many reals, at least one, is a real. -/
theorem sup_isReal {ι : Type*} (S : Finset ι) (hS : S.Nonempty) (f : ι → EReal)
    (hf : ∀ x, ∃ r : ℝ, f x = (r : EReal)) : ∃ r : ℝ, S.sup f = (r : EReal) := by
  obtain ⟨x, -, hx⟩ := Finset.exists_mem_eq_sup S hS f
  rw [hx]; exact hf x

/-- Changing the reference point of an exponential: `exp (x - m) * exp (m - m') = exp (x - m')`, a weight carried along. -/
theorem exp_rescale (x m m' : ℝ) (w : EReal) :
    Ideal.exp ((x : EReal) - m) * w * Ideal.exp ((m : EReal) - m') = Ideal.exp ((x : EReal) - m') * w := by
  have h : x - m + (m - m') = x - m' := by ring
  rw [← EReal.coe_sub, ← EReal.coe_sub, ← EReal.coe_sub, Ideal.exp_coe, Ideal.exp_coe, Ideal.exp_coe,
    mul_right_comm, ← EReal.coe_mul, ← Real.exp_add, h]

theorem univ2048_nonempty : (Finset.univ : Finset (Fin 2048)).Nonempty := ⟨⟨0, by norm_num⟩, Finset.mem_univ _⟩

/-! ### The columns as six blocks -/

/-- Column `j` is column `j % 2048` of block `j / 2048`. -/
def colEquiv : Fin 6 × Fin 2048 ≃ Fin 12288 where
  toFun p := col p.1 p.2
  invFun j := (⟨j.val / 2048, by have := j.isLt; omega⟩, ⟨j.val % 2048, Nat.mod_lt _ (by norm_num)⟩)
  left_inv := by
    rintro ⟨b, q⟩
    have := b.isLt; have := q.isLt
    ext <;> simp only [col] <;> omega
  right_inv := by
    intro j
    ext; simp only [col]; omega

/-- A sum over the row, block by block. -/
theorem sum_blocks {M : Type*} [AddCommMonoid M] (g : Fin 12288 → M) :
    ∑ b : Fin 6, ∑ q : Fin 2048, g (col b q) = ∑ j, g j :=
  (Fintype.sum_prod_type' fun b q => g (col b q)).symm.trans (Fintype.sum_equiv colEquiv _ _ fun _ => rfl)

/-- The maximum over the row, block by block. -/
theorem sup_blocks (g : Fin 12288 → EReal) :
    (Finset.univ.sup fun b : Fin 6 => Finset.univ.sup fun q : Fin 2048 => g (col b q)) = Finset.univ.sup g := by
  apply le_antisymm
  · exact Finset.sup_le fun b _ => Finset.sup_le fun q _ => Finset.le_sup (f := g) (Finset.mem_univ _)
  · refine Finset.sup_le fun j _ => ?_
    have hj : col (colEquiv.symm j).1 (colEquiv.symm j).2 = j := colEquiv.apply_symm_apply j
    calc g j = g (col (colEquiv.symm j).1 (colEquiv.symm j).2) := by rw [hj]
      _ ≤ Finset.univ.sup fun q : Fin 2048 => g (col (colEquiv.symm j).1 q) :=
          Finset.le_sup (f := fun q : Fin 2048 => g (col (colEquiv.symm j).1 q)) (Finset.mem_univ _)
      _ ≤ _ := Finset.le_sup (f := fun b : Fin 6 => Finset.univ.sup fun q : Fin 2048 => g (col b q)) (Finset.mem_univ _)

/-- The blocks walked after `n` steps. -/
def blocksBelow (n : ℕ) : Finset (Fin 6) := Finset.univ.filter fun b => b.val < n

theorem blocksBelow_zero : blocksBelow 0 = ∅ := by simp [blocksBelow]

theorem blocksBelow_succ (n : ℕ) (h : n < 6) : blocksBelow (n + 1) = insert ⟨n, h⟩ (blocksBelow n) := by
  ext b; simp only [blocksBelow, Finset.mem_filter, Finset.mem_univ, true_and, Finset.mem_insert, Fin.ext_iff]; omega

theorem notMem_blocksBelow (n : ℕ) (h : n < 6) : (⟨n, h⟩ : Fin 6) ∉ blocksBelow n := by simp [blocksBelow]

theorem blocksBelow_six : blocksBelow 6 = Finset.univ := by
  ext b; simp [blocksBelow, b.isLt]

/-! ### The invariant of the walk -/

section Walk

variable (lab : Fin 12288 → BitVec 32) (a : Fin 4096 → Fin 12288 → EReal) (i : Fin 4096)

/-- Rescaling the exponential sum over a set of blocks from those blocks' own maximum to any real reference point. -/
theorem rescale_sum (ha : ∀ j, ∃ r : ℝ, a i j = (r : EReal)) (T : Finset (Fin 6)) (m' : ℝ) :
    (∑ b ∈ T, ∑ q, Ideal.exp (a i (col b q) - T.sup fun b => Finset.univ.sup fun q => a i (col b q)) * notSelf i (col b q))
        * Ideal.exp ((T.sup fun b => Finset.univ.sup fun q => a i (col b q)) - m')
      = ∑ b ∈ T, ∑ q, Ideal.exp (a i (col b q) - m') * notSelf i (col b q) := by
  rcases T.eq_empty_or_nonempty with rfl | hT
  · simp
  obtain ⟨m, hm⟩ := sup_isReal T hT (fun b => Finset.univ.sup fun q => a i (col b q))
    (fun b => sup_isReal Finset.univ univ2048_nonempty _ fun q => ha (col b q))
  rw [hm, sum_mul_of_nonneg _ _
    (fun b _ => Finset.sum_nonneg fun q _ => mul_nonneg (exp_nonneg _) (notSelf_nonneg _ _))]
  refine Finset.sum_congr rfl fun b _ => ?_
  rw [sum_mul_of_nonneg _ _ (fun q _ => mul_nonneg (exp_nonneg _) (notSelf_nonneg _ _))]
  refine Finset.sum_congr rfl fun q _ => ?_
  obtain ⟨x, hx⟩ := ha (col b q)
  rw [hx]; exact exp_rescale x m m' _

/-- What the state is after the blocks `b < n` of row `i`: the maximum over those blocks, the exponential sum over them
    against that maximum, and the two plain sums over them. -/
structure WalkInv (n : ℕ) (st : Acc) : Prop where
  m : st.m = (blocksBelow n).sup fun b => Finset.univ.sup fun q => a i (col b q)
  l : st.l = ∑ b ∈ blocksBelow n, ∑ q, Ideal.exp (a i (col b q) - st.m) * notSelf i (col b q)
  s : st.s = ∑ b ∈ blocksBelow n, ∑ q, pos lab i (col b q) * a i (col b q)
  c : st.c = ∑ b ∈ blocksBelow n, ∑ q, pos lab i (col b q)

theorem walkInv_init : WalkInv lab a i 0 accInit := by
  refine ⟨?_, ?_, ?_, ?_⟩ <;> simp [accInit, blocksBelow_zero]

/-- One block keeps the invariant. -/
theorem walkInv_step (ha : ∀ j, ∃ r : ℝ, a i j = (r : EReal)) (n : ℕ) (h : n < 6) (st : Acc)
    (inv : WalkInv lab a i n st) : WalkInv lab a i (n + 1) (accStep lab a i ⟨n, h⟩ st) := by
  have hnew := notMem_blocksBelow n h
  have hm' : max st.m (Finset.univ.sup fun q => a i (col ⟨n, h⟩ q))
      = (blocksBelow (n + 1)).sup fun b => Finset.univ.sup fun q => a i (col b q) := by
    rw [blocksBelow_succ n h, Finset.sup_insert, inv.m, max_comm]
  obtain ⟨r', hr'⟩ := sup_isReal (blocksBelow (n + 1))
    ⟨⟨n, h⟩, by rw [blocksBelow_succ n h]; exact Finset.mem_insert_self _ _⟩
    (fun b => Finset.univ.sup fun q => a i (col b q))
    (fun b => sup_isReal Finset.univ univ2048_nonempty _ fun q => ha (col b q))
  refine ⟨?_, ?_, ?_, ?_⟩
  · exact hm'
  · show st.l * Ideal.exp (st.m - max st.m (Finset.univ.sup fun q => a i (col ⟨n, h⟩ q)))
        + ∑ q, Ideal.exp (a i (col ⟨n, h⟩ q) - max st.m (Finset.univ.sup fun q => a i (col ⟨n, h⟩ q))) * notSelf i (col ⟨n, h⟩ q)
      = ∑ b ∈ blocksBelow (n + 1), ∑ q,
          Ideal.exp (a i (col b q) - max st.m (Finset.univ.sup fun q => a i (col ⟨n, h⟩ q))) * notSelf i (col b q)
    rw [hm', hr', blocksBelow_succ n h, Finset.sum_insert hnew, add_comm]
    congr 1
    rw [inv.l, inv.m]
    exact rescale_sum a i ha (blocksBelow n) r'
  · show st.s + ∑ q, pos lab i (col ⟨n, h⟩ q) * a i (col ⟨n, h⟩ q) = _
    rw [blocksBelow_succ n h, Finset.sum_insert hnew, add_comm, inv.s]
  · show st.c + ∑ q, pos lab i (col ⟨n, h⟩ q) = _
    rw [blocksBelow_succ n h, Finset.sum_insert hnew, add_comm, inv.c]

/-- The invariant holds after every number of blocks up to six. -/
theorem walkInv_accAfter (ha : ∀ j, ∃ r : ℝ, a i j = (r : EReal)) (n : ℕ) (hn : n ≤ 6) :
    WalkInv lab a i n (accAfter lab a i n) := by
  induction n with
  | zero => exact walkInv_init lab a i
  | succ n ih =>
    have h : n < 6 := hn
    have e : accAfter lab a i (n + 1) = accStep lab a i ⟨n, h⟩ (accAfter lab a i n) := by
      rw [accAfter, dif_pos h]
    rw [e]; exact walkInv_step lab a i ha n h _ (ih (by omega))

end Walk

/-- The block walk ends at the whole-row quantities: after the six blocks the running maximum is the row's maximum, the rescaled
    exponential sum is the row's sum of exponentials against that maximum, and the two plain sums are the row's. -/
theorem meanOfAcc_accAfter (lab : Fin 12288 → BitVec 32) (a : Fin 4096 → Fin 12288 → EReal) (i : Fin 4096)
    (ha : ∀ j, ∃ r : ℝ, a i j = (r : EReal)) : meanOfAcc (accAfter lab a i 6) = meanShifted lab a i := by
  have inv := walkInv_accAfter lab a i ha 6 le_rfl
  have hm : (accAfter lab a i 6).m = rowMax a i := by
    rw [inv.m, blocksBelow_six]; exact sup_blocks (a i)
  have hl : (accAfter lab a i 6).l = expSum a i := by
    rw [inv.l, hm, blocksBelow_six]
    exact sum_blocks fun j => Ideal.exp (a i j - rowMax a i) * notSelf i j
  have hs : (accAfter lab a i 6).s = ∑ j, pos lab i j * a i j := by
    rw [inv.s, blocksBelow_six]; exact sum_blocks fun j => pos lab i j * a i j
  have hc : (accAfter lab a i 6).c = posCount lab i := by
    rw [inv.c, blocksBelow_six]; exact sum_blocks (pos lab i)
  rw [meanOfAcc, meanShifted, hm, hl, hs, hc]

end Cert.Spec

end
-- ==== Proof.SpecLaws.lean ====
/-
  The two arrangements of the loss agree on finite data.

  The temperature is a dyadic rational, so dividing by it is multiplying by its reciprocal at every extended real,
  the infinities included. For one anchor whose similarities are all real, the mean over the positives of the
  log-probabilities equals the mean of the similarities with the maximum and the log-sum subtracted once: with
  n ≥ 1 positives this is (S − n·K)/n = S/n − K over the reals; with none, both sides are the quotient 0/0 = ⊥, which
  the subtraction of reals keeps. On the cross-entropy side every class log-probability is real, so the sum of
  the negated terms is the negated sum, and the quotient by the batch size commutes with negation.
-/
import proofs.«404244_j8306466750557_2_alg».proof.Proof.Spec

noncomputable section

namespace Cert.Spec

open Idealize.ShloMosaic

/-! ### The constants -/

/-- The temperature's word: exponent field 123, fraction 1006633, so (2²³ + 1006633) · 2⁻²⁷. -/
theorem temp_eq : temp = ((9395241 / 134217728 : ℝ) : EReal) := by
  unfold temp
  simp [Ideal.ofBits, Ideal.ieee, -EReal.coe_mul]; norm_num

/-- The guard under the logarithm: exponent field 87, fraction 834764, so 9223372 · 2⁻⁶³, a positive real. -/
private theorem eps_eq : eps = ((9223372 / 9223372036854775808 : ℝ) : EReal) := by
  unfold eps
  simp [Ideal.ofBits, Ideal.ieee, -EReal.coe_mul]; norm_num

/-- The batch size: exponent field 139, fraction 0, so 2¹² = 4096. -/
private theorem count_eq : count = ((4096 : ℝ) : EReal) := by
  unfold count
  simp [Ideal.ofBits, Ideal.ieee, -EReal.coe_mul]; norm_num

/-- The quotient by the temperature is the product with its reciprocal, at every extended real. -/
theorem div_temp (x : EReal) : Ideal.div x temp = x * invTemp := by
  rw [temp_eq, Ideal.div_coe (by norm_num)]
  unfold invTemp
  norm_num

theorem simDiv_eq_simMul (f : Fin 12288 → Fin 128 → EReal) : simDiv f = simMul f := by
  funext i j
  simp only [simDiv, simMul, div_temp]

/-! ### Reals inside the extended reals -/

/-- A finite sum of reals, read in the extended reals, is the real sum. -/
private theorem coe_sum {ι : Type} (s : Finset ι) (g : ι → ℝ) :
    ∑ j ∈ s, ((g j : ℝ) : EReal) = ((∑ j ∈ s, g j : ℝ) : EReal) := by
  classical
  refine Finset.induction_on s (by simp) ?_
  intro a s ha ih
  rw [Finset.sum_insert ha, Finset.sum_insert ha, ih, EReal.coe_add]

/-- The supremum of finitely many reals over a nonempty index set is attained, hence real. -/
private theorem sup_real {ι : Type} [Fintype ι] [Nonempty ι] (g : ι → EReal)
    (hg : ∀ j, ∃ r : ℝ, g j = (r : EReal)) : ∃ r : ℝ, Finset.univ.sup g = (r : EReal) := by
  obtain ⟨j, -, hj⟩ := Finset.exists_mem_eq_sup Finset.univ Finset.univ_nonempty g
  obtain ⟨r, hr⟩ := hg j
  exact ⟨r, hj.trans hr⟩

/-- The off-diagonal indicator is the real 0 or 1. -/
private theorem notSelf_real (i : Fin 4096) (j : Fin 12288) : ∃ q : ℝ, 0 ≤ q ∧ notSelf i j = (q : EReal) := by
  unfold notSelf
  split_ifs
  · exact ⟨0, le_rfl, by simp⟩
  · exact ⟨1, zero_le_one, by simp⟩

/-- So is the indicator of the positives, a product of two such. -/
private theorem pos_real (lab : Fin 12288 → BitVec 32) (i : Fin 4096) (j : Fin 12288) :
    ∃ p : ℝ, 0 ≤ p ∧ pos lab i j = (p : EReal) := by
  unfold pos sameLabel notSelf
  by_cases h1 : lab (anchor i) = lab j <;> by_cases h2 : i.val = j.val
  · exact ⟨0, le_rfl, by simp [h1, h2]⟩
  · exact ⟨1, zero_le_one, by simp [h1, h2]⟩
  · exact ⟨0, le_rfl, by simp [h1, h2]⟩
  · exact ⟨0, le_rfl, by simp [h1, h2]⟩

/-! ### The contrastive term -/

private theorem rowMax_real (a : Fin 4096 → Fin 12288 → EReal) (i : Fin 4096)
    (ha : ∀ j, ∃ r : ℝ, a i j = (r : EReal)) : ∃ M : ℝ, rowMax a i = (M : EReal) :=
  sup_real (a i) ha

/-- The softmax denominator of a real row is a nonnegative real: a sum of exponentials times indicators. -/
private theorem expSum_real (a : Fin 4096 → Fin 12288 → EReal) (i : Fin 4096)
    (ha : ∀ j, ∃ r : ℝ, a i j = (r : EReal)) : ∃ E : ℝ, 0 ≤ E ∧ expSum a i = (E : EReal) := by
  obtain ⟨M, hM⟩ := rowMax_real a i ha
  choose r hr using ha
  choose q hq0 hq using notSelf_real i
  refine ⟨∑ j, Real.exp (r j - M) * q j,
    Finset.sum_nonneg fun j _ => mul_nonneg (Real.exp_pos _).le (hq0 j), ?_⟩
  unfold expSum
  rw [← coe_sum]
  refine Finset.sum_congr rfl fun j _ => ?_
  rw [hr, hM, hq, ← EReal.coe_sub, Ideal.exp_coe, EReal.coe_mul]

/-- With the positive guard added, the argument of the logarithm is a positive real, so the log term is real. -/
private theorem logTerm_real (a : Fin 4096 → Fin 12288 → EReal) (i : Fin 4096)
    (ha : ∀ j, ∃ r : ℝ, a i j = (r : EReal)) : ∃ L : ℝ, Ideal.log (expSum a i + eps) = (L : EReal) := by
  obtain ⟨E, hE0, hE⟩ := expSum_real a i ha
  have hpos : ¬ (E + 9223372 / 9223372036854775808 ≤ 0) :=
    not_le.mpr (add_pos_of_nonneg_of_pos hE0 (by norm_num))
  exact ⟨Real.log (E + 9223372 / 9223372036854775808), by
    rw [hE, eps_eq, ← EReal.coe_add, Ideal.log_coe, if_neg hpos]⟩

/-- Over the reals, with weights of nonzero total n: (∑ p (r − M − L)) / n = (∑ p r) / n − M − L. -/
private theorem real_mean {ι : Type} [Fintype ι] (p r : ι → ℝ) (M L : ℝ) (hn : ∑ j, p j ≠ 0) :
    (∑ j, p j * ((r j - M) - L)) * (1 / ∑ j, p j) = (∑ j, p j * r j) * (1 / ∑ j, p j) - M - L := by
  have h : ∑ j, p j * ((r j - M) - L) = ∑ j, p j * r j - (∑ j, p j) * M - (∑ j, p j) * L := by
    simp only [mul_sub, Finset.sum_sub_distrib, Finset.sum_mul]
  rw [h]
  field_simp

/-- Averaging the log-probabilities entry by entry, or subtracting the maximum and the log-sum once from the
    averaged similarities: the same extended real. With no positive both are ⊥. -/
theorem meanLogProb_eq_meanShifted (lab : Fin 12288 → BitVec 32) (a : Fin 4096 → Fin 12288 → EReal) (i : Fin 4096)
    (ha : ∀ j, ∃ r : ℝ, a i j = (r : EReal)) : meanLogProb lab a i = meanShifted lab a i := by
  obtain ⟨M, hM⟩ := rowMax_real a i ha
  obtain ⟨L, hL⟩ := logTerm_real a i ha
  choose r hr using ha
  choose p hp0 hp using pos_real lab i
  have hc : posCount lab i = ((∑ j, p j : ℝ) : EReal) := by
    unfold posCount
    rw [← coe_sum]
    exact Finset.sum_congr rfl fun j _ => hp j
  have h1 : ∑ j, pos lab i j * logProb a i j = ((∑ j, p j * ((r j - M) - L) : ℝ) : EReal) := by
    rw [← coe_sum]
    refine Finset.sum_congr rfl fun j _ => ?_
    rw [logProb, hp, hr, hM, hL, ← EReal.coe_sub, ← EReal.coe_sub, ← EReal.coe_mul]
  have h2 : ∑ j, pos lab i j * a i j = ((∑ j, p j * r j : ℝ) : EReal) := by
    rw [← coe_sum]
    refine Finset.sum_congr rfl fun j _ => ?_
    rw [hp, hr, ← EReal.coe_mul]
  unfold meanLogProb meanShifted
  rw [h1, h2, hc, hM, hL]
  by_cases hn : (∑ j, p j) = 0
  · -- nonnegative weights of total zero all vanish, so both numerators are 0 and both quotients are 0/0 = ⊥
    have hz : ∀ j, p j = 0 := fun j =>
      (Finset.sum_eq_zero_iff_of_nonneg fun j _ => hp0 j).mp hn j (Finset.mem_univ j)
    simp only [hz, zero_mul, Finset.sum_const_zero, EReal.coe_zero, Ideal.div, if_true, lt_irrefl, if_false,
      EReal.bot_sub]
  · rw [Ideal.div_coe hn, Ideal.div_coe hn, ← EReal.coe_mul, ← EReal.coe_mul, ← EReal.coe_sub, ← EReal.coe_sub,
      real_mean p r M L hn]

/-- A finite inner product times the reciprocal temperature is real. -/
theorem dot_finite (f : Fin 12288 → Fin 128 → EReal) (hf : ∀ j k, ∃ r : ℝ, f j k = (r : EReal)) (i : Fin 4096)
    (j : Fin 12288) : ∃ r : ℝ, simMul f i j = (r : EReal) := by
  choose g hg using hf
  refine ⟨(∑ k, g (anchor i) k * g j k) * (134217728 / 9395241), ?_⟩
  unfold simMul dot invTemp
  rw [EReal.coe_mul, ← coe_sum]
  congr 1
  refine Finset.sum_congr rfl fun k _ => ?_
  rw [hg, hg, EReal.coe_mul]

theorem rowLoss_eq (f : Fin 12288 → Fin 128 → EReal) (lab : Fin 12288 → BitVec 32) (rew : Fin 4096 → EReal)
    (i : Fin 4096) (hf : ∀ j k, ∃ r : ℝ, f j k = (r : EReal)) : rowLossMul f lab rew i = rowLossDiv f lab rew i := by
  unfold rowLossMul rowLossDiv
  rw [simDiv_eq_simMul, meanLogProb_eq_meanShifted lab (simMul f) i fun j => dot_finite f hf i j]

/-! ### The cross-entropy term -/

private theorem logit_real (s : Fin 4096 → Fin 1000 → EReal) (w : Fin 1000 → EReal)
    (hs : ∀ i k, ∃ r : ℝ, s i k = (r : EReal)) (hw : ∀ k, ∃ r : ℝ, w k = (r : EReal)) (i : Fin 4096) (k : Fin 1000) :
    ∃ r : ℝ, logit s w i k = (r : EReal) := by
  obtain ⟨x, hx⟩ := hs i k
  obtain ⟨y, hy⟩ := hw k
  exact ⟨x + y, by rw [logit, hx, hy, EReal.coe_add]⟩

private theorem shifted_real (s : Fin 4096 → Fin 1000 → EReal) (w : Fin 1000 → EReal)
    (hs : ∀ i k, ∃ r : ℝ, s i k = (r : EReal)) (hw : ∀ k, ∃ r : ℝ, w k = (r : EReal)) (i : Fin 4096) (k : Fin 1000) :
    ∃ r : ℝ, shifted s w i k = (r : EReal) := by
  obtain ⟨x, hx⟩ := logit_real s w hs hw i k
  obtain ⟨M, hM⟩ := sup_real (logit s w i) (logit_real s w hs hw i)
  exact ⟨x - M, by rw [shifted, logitMax, hx, hM, EReal.coe_sub]⟩

/-- The log-sum-exp of a real row: a sum of positive reals over a nonempty set is positive, so its logarithm is real. -/
private theorem lse_real (s : Fin 4096 → Fin 1000 → EReal) (w : Fin 1000 → EReal)
    (hs : ∀ i k, ∃ r : ℝ, s i k = (r : EReal)) (hw : ∀ k, ∃ r : ℝ, w k = (r : EReal)) (i : Fin 4096) :
    ∃ r : ℝ, lse s w i = (r : EReal) := by
  choose x hx using shifted_real s w hs hw i
  have hsum : ∑ k, Ideal.exp (shifted s w i k) = ((∑ k, Real.exp (x k) : ℝ) : EReal) := by
    rw [← coe_sum]
    refine Finset.sum_congr rfl fun k _ => ?_
    rw [hx, Ideal.exp_coe]
  have hpos : ¬ (∑ k, Real.exp (x k) ≤ 0) :=
    not_le.mpr (Finset.sum_pos (fun k _ => Real.exp_pos _) Finset.univ_nonempty)
  exact ⟨Real.log (∑ k, Real.exp (x k)), by rw [lse, hsum, Ideal.log_coe, if_neg hpos]⟩

theorem target_finite (s : Fin 4096 → Fin 1000 → EReal) (w : Fin 1000 → EReal) (cls : Fin 4096 → Fin 1000)
    (hs : ∀ i k, ∃ r : ℝ, s i k = (r : EReal)) (hw : ∀ k, ∃ r : ℝ, w k = (r : EReal)) (i : Fin 4096) :
    ∃ r : ℝ, target s w cls i = (r : EReal) := by
  obtain ⟨x, hx⟩ := shifted_real s w hs hw i (cls i)
  obtain ⟨y, hy⟩ := lse_real s w hs hw i
  exact ⟨x - y, by rw [target, logp, hx, hy, EReal.coe_sub]⟩

/-- On reals the sum of the terms 0 − t is minus the sum, and the quotient by 4096 commutes with negation. -/
theorem ce_mean_eq (s : Fin 4096 → Fin 1000 → EReal) (w : Fin 1000 → EReal) (cls : Fin 4096 → Fin 1000)
    (hs : ∀ i k, ∃ r : ℝ, s i k = (r : EReal)) (hw : ∀ k, ∃ r : ℝ, w k = (r : EReal)) :
    Ideal.div (∑ i, ((0 : EReal) - target s w cls i)) count = -(Ideal.div (∑ i, target s w cls i) count) := by
  choose t ht using target_finite s w cls hs hw
  have h1 : ∑ i, ((0 : EReal) - target s w cls i) = ((-(∑ i, t i) : ℝ) : EReal) := by
    rw [← Finset.sum_neg_distrib, ← coe_sum]
    refine Finset.sum_congr rfl fun i _ => ?_
    rw [ht, zero_sub, EReal.coe_neg]
  have h2 : ∑ i, target s w cls i = ((∑ i, t i : ℝ) : EReal) := by
    rw [← coe_sum]
    exact Finset.sum_congr rfl fun i _ => ht i
  rw [h1, h2, count_eq, Ideal.div_coe (by norm_num), Ideal.div_coe (by norm_num), EReal.coe_neg, neg_mul]

/-! ### The result -/

theorem result_eq (f : Fin 12288 → Fin 128 → EReal) (lab : Fin 12288 → BitVec 32) (s : Fin 4096 → Fin 1000 → EReal)
    (w : Fin 1000 → EReal) (cls : Fin 4096 → Fin 1000) (rew : Fin 4096 → EReal)
    (hf : ∀ j k, ∃ r : ℝ, f j k = (r : EReal)) (hs : ∀ i k, ∃ r : ℝ, s i k = (r : EReal))
    (hw : ∀ k, ∃ r : ℝ, w k = (r : EReal)) : resultMul f lab s w cls rew = resultDiv f lab s w cls rew := by
  unfold resultMul resultDiv
  rw [ce_mean_eq s w cls hs hw, Finset.sum_congr rfl fun i _ => rowLoss_eq f lab rew i hf]

end Cert.Spec

end
-- ==== Proof.R0Value.lean ====
/-
  The value of the contrastive region: what its output array holds after the 24 grid points.

  Point t is row block t / 6 and column block t % 6. The body's four accumulators are carried from point to point
  inside a row block: at a first column block they start from the empty state, at every other point from what
  the point before left. Read at row p of the row block they follow the block walk of the specification for the
  batch row 1024 (t / 6) + p: after the point's column block b they hold the walk's state after b + 1 blocks. This is
  proved by induction over the points, each point being one block step (the payloads' values at a row) on what
  the body loads there (the anchors' rows, labels and weights of the row block; the table's rows and labels of the
  column block). At a last column block the stored output row is minus one times the walk's result after all six
  blocks, times the row's weight; by the online-softmax law that result is the whole-row quantity, so the stored
  row is the weighted row loss. The output blocks of the four last column blocks cover the output array.
-/
import proofs.«404244_j8306466750557_2_alg».proof.Proof.R0Frame
import proofs.«404244_j8306466750557_2_alg».proof.Proof.R0Pieces
import proofs.«404244_j8306466750557_2_alg».proof.Proof.R0Payloads
import proofs.«404244_j8306466750557_2_alg».proof.Proof.R0Blocks
import proofs.«404244_j8306466750557_2_alg».proof.Proof.SpecOnline
import proofs.«404244_j8306466750557_2_alg».proof.Proof.SpecLaws
import proofs.«404244_j8306466750557_2_alg».proof.Proof.Arrays

set_option maxRecDepth 16384

noncomputable section

namespace Cert.KernelIdeal.R0Value

open Cert.KernelIdeal Cert.KernelIdeal.Gen Cert.KernelIdeal.Frame Cert.KernelIdeal.R0Pieces Cert.KernelIdeal.R0Payloads Cert.KernelIdeal.R0Blocks
open Idealize.ShloMosaic Idealize.ShloMosaic.TcCoe Idealize.ShloMosaic.Tactic Idealize.SL.Sem Idealize.ShloMosaic.ValueIdx

/-! ### The grid: point `t` is row block `t / 6`, column block `t % 6` -/

theorem coords_val : ∀ t : Fin cfg0.N, ((grid0.coords t) 0).val = t.val / 6 ∧ ((grid0.coords t) 1).val = t.val % 6 :=
  (by decide +kernel : ∀ t : Fin grid0.N, ((grid0.coords t) 0).val = t.val / 6 ∧ ((grid0.coords t) 1).val = t.val % 6)

/-- The column block of point `t`. -/
def blkAt (t : Fin cfg0.N) : Fin 6 := ⟨t.val % 6, Nat.mod_lt _ (by norm_num)⟩

section Walk

variable (V : (c : Dev nD) → (b : Ref sig .tc) → Buf (Elt Ideal) ((c : Thread nD τ).loc b)) (c : Dev nD)

/-- What the body loads at point `t`: the anchors' block, the whole table and its slice for the column block, the
    anchors' labels, all labels and their slice, the anchors' weights. -/
abbrev X0 (t : Fin cfg0.N) : FVec Ideal S1024x128 .f32 := iblk0 V c 0 t
abbrev X1 (t : Fin cfg0.N) : FVec Ideal S12288x128 .f32 := iblk0 V c 1 t
abbrev X2 (t : Fin cfg0.N) : IVec S1024x1 32 := iblk0 V c 2 t
abbrev X3 (t : Fin cfg0.N) : IVec S1x12288 32 := iblk0 V c 3 t
abbrev X4 (t : Fin cfg0.N) : FVec Ideal S1024x1 .f32 := iblk0 V c 4 t
abbrev KS (t : Fin cfg0.N) : FVec Ideal S2048x128 .f32 :=
  View.ld (Val := Elt Ideal) (e' := .f32) (X1 V c t) (Rect.unit (s := S12288x128) (k0_off1 (grid0.coords t)) S2048x128.size (k0_off1_inb (grid0.coords t)))
abbrev LS (t : Fin cfg0.N) : IVec S1x2048 32 :=
  View.ld (Val := Elt Ideal) (e' := .i32) (X3 V c t) (Rect.unit (s := S1x12288) (k0_off2 (grid0.coords t)) S1x2048.size (k0_off2_inb (grid0.coords t)))

/-! ### The accumulators after a point, from the point's loads and the accumulators before it -/

theorem accA_m (t : Fin cfg0.N) (h0 : t.val % 6 = 0) :
    (outsAt0 V c t.val t.isLt).2.1 = k0_pay4 (k0_pay13 (F := Ideal) (KS V c t) (X0 V c t) (k0_pay6 (F := Ideal))) := by
  have h1 := congrArg (fun x => x.2.1) (outsAt0_A V c t h0 (by omega))
  dsimp only at h1
  rw [h1]
  exact sout0_A_0_eq ..

theorem accA_l (t : Fin cfg0.N) (h0 : t.val % 6 = 0) :
    (outsAt0 V c t.val t.isLt).2.2.1 = k0_pay1 (k0_pay10 (F := Ideal) (KS V c t) (X0 V c t)) (k0_pay11 (F := Ideal) (grid0.coords t)) (k0_pay13 (F := Ideal) (KS V c t) (X0 V c t) (k0_pay6 (F := Ideal))) (k0_pay14 (F := Ideal) (KS V c t) (X0 V c t) (k0_pay6 (F := Ideal)) (k0_pay6 (F := Ideal))) (k0_pay7 (F := Ideal)) := by
  have h1 := congrArg (fun x => x.2.2.1) (outsAt0_A V c t h0 (by omega))
  dsimp only at h1
  rw [h1]
  exact sout0_A_1_eq ..

theorem accA_s (t : Fin cfg0.N) (h0 : t.val % 6 = 0) :
    (outsAt0 V c t.val t.isLt).2.2.2.1 = k0_pay2 (k0_pay10 (F := Ideal) (KS V c t) (X0 V c t)) (k0_pay12 (F := Ideal) (grid0.coords t) (LS V c t) (X2 V c t)) (k0_pay8 (F := Ideal)) := by
  have h1 := congrArg (fun x => x.2.2.2.1) (outsAt0_A V c t h0 (by omega))
  dsimp only at h1
  rw [h1]
  exact sout0_A_2_eq ..

theorem accA_c (t : Fin cfg0.N) (h0 : t.val % 6 = 0) :
    (outsAt0 V c t.val t.isLt).2.2.2.2 = k0_pay3 (k0_pay12 (F := Ideal) (grid0.coords t) (LS V c t) (X2 V c t)) (k0_pay9 (F := Ideal)) := by
  have h1 := congrArg (fun x => x.2.2.2.2) (outsAt0_A V c t h0 (by omega))
  dsimp only at h1
  rw [h1]
  exact sout0_A_3_eq ..

theorem accBC_m (m : ℕ) (hn : m + 1 < cfg0.N) (h0 : ¬(m + 1) % 6 = 0) :
    (outsAt0 V c (m + 1) hn).2.1 = k0_pay4 (k0_pay13 (F := Ideal) (KS V c ⟨m + 1, hn⟩) (X0 V c ⟨m + 1, hn⟩) ((outsAt0 V c m (Nat.lt_of_succ_lt hn)).2.1)) := by
  by_cases h5 : (m + 1) % 6 = 5
  · have h1 := congrArg (fun x => x.2.1) (outsAt0_C V c ⟨m + 1, hn⟩ h0 h5)
    dsimp only at h1
    rw [h1]
    exact sout0_C_0_eq ..
  · have h1 := congrArg (fun x => x.2.1) (outsAt0_B V c ⟨m + 1, hn⟩ h0 h5)
    dsimp only at h1
    rw [h1]
    exact sout0_B_0_eq ..

theorem accBC_l (m : ℕ) (hn : m + 1 < cfg0.N) (h0 : ¬(m + 1) % 6 = 0) :
    (outsAt0 V c (m + 1) hn).2.2.1 = k0_pay1 (k0_pay10 (F := Ideal) (KS V c ⟨m + 1, hn⟩) (X0 V c ⟨m + 1, hn⟩)) (k0_pay11 (F := Ideal) (grid0.coords ⟨m + 1, hn⟩)) (k0_pay13 (F := Ideal) (KS V c ⟨m + 1, hn⟩) (X0 V c ⟨m + 1, hn⟩) ((outsAt0 V c m (Nat.lt_of_succ_lt hn)).2.1)) (k0_pay14 (F := Ideal) (KS V c ⟨m + 1, hn⟩) (X0 V c ⟨m + 1, hn⟩) ((outsAt0 V c m (Nat.lt_of_succ_lt hn)).2.1) ((outsAt0 V c m (Nat.lt_of_succ_lt hn)).2.1)) ((outsAt0 V c m (Nat.lt_of_succ_lt hn)).2.2.1) := by
  by_cases h5 : (m + 1) % 6 = 5
  · have h1 := congrArg (fun x => x.2.2.1) (outsAt0_C V c ⟨m + 1, hn⟩ h0 h5)
    dsimp only at h1
    rw [h1]
    exact sout0_C_1_eq ..
  · have h1 := congrArg (fun x => x.2.2.1) (outsAt0_B V c ⟨m + 1, hn⟩ h0 h5)
    dsimp only at h1
    rw [h1]
    exact sout0_B_1_eq ..

theorem accBC_s (m : ℕ) (hn : m + 1 < cfg0.N) (h0 : ¬(m + 1) % 6 = 0) :
    (outsAt0 V c (m + 1) hn).2.2.2.1 = k0_pay2 (k0_pay10 (F := Ideal) (KS V c ⟨m + 1, hn⟩) (X0 V c ⟨m + 1, hn⟩)) (k0_pay12 (F := Ideal) (grid0.coords ⟨m + 1, hn⟩) (LS V c ⟨m + 1, hn⟩) (X2 V c ⟨m + 1, hn⟩)) ((outsAt0 V c m (Nat.lt_of_succ_lt hn)).2.2.2.1) := by
  by_cases h5 : (m + 1) % 6 = 5
  · have h1 := congrArg (fun x => x.2.2.2.1) (outsAt0_C V c ⟨m + 1, hn⟩ h0 h5)
    dsimp only at h1
    rw [h1]
    exact sout0_C_2_eq ..
  · have h1 := congrArg (fun x => x.2.2.2.1) (outsAt0_B V c ⟨m + 1, hn⟩ h0 h5)
    dsimp only at h1
    rw [h1]
    exact sout0_B_2_eq ..

theorem accBC_c (m : ℕ) (hn : m + 1 < cfg0.N) (h0 : ¬(m + 1) % 6 = 0) :
    (outsAt0 V c (m + 1) hn).2.2.2.2 = k0_pay3 (k0_pay12 (F := Ideal) (grid0.coords ⟨m + 1, hn⟩) (LS V c ⟨m + 1, hn⟩) (X2 V c ⟨m + 1, hn⟩)) ((outsAt0 V c m (Nat.lt_of_succ_lt hn)).2.2.2.2) := by
  by_cases h5 : (m + 1) % 6 = 5
  · have h1 := congrArg (fun x => x.2.2.2.2) (outsAt0_C V c ⟨m + 1, hn⟩ h0 h5)
    dsimp only at h1
    rw [h1]
    exact sout0_C_3_eq ..
  · have h1 := congrArg (fun x => x.2.2.2.2) (outsAt0_B V c ⟨m + 1, hn⟩ h0 h5)
    dsimp only at h1
    rw [h1]
    exact sout0_B_3_eq ..

/-- At a last column block the stored output block is the row loss formed from the accumulators the point leaves. -/
theorem outC (m : ℕ) (hn : m + 1 < cfg0.N) (h0 : ¬(m + 1) % 6 = 0) (h5 : (m + 1) % 6 = 5) :
    (outsAt0 V c (m + 1) hn).1
      = k0_pay5 (F := Ideal) ((outsAt0 V c (m + 1) hn).2.2.2.1) ((outsAt0 V c (m + 1) hn).2.2.2.2) ((outsAt0 V c (m + 1) hn).2.1)
          ((outsAt0 V c (m + 1) hn).2.2.1) (X4 V c ⟨m + 1, hn⟩) := by
  rw [accBC_m V c m hn h0, accBC_l V c m hn h0, accBC_s V c m hn h0, accBC_c V c m hn h0]
  have h1 := congrArg (fun x => x.1) (outsAt0_C V c ⟨m + 1, hn⟩ h0 h5)
  dsimp only at h1
  rw [h1]
  exact out0_C_5_eq ..

end Walk

/-! ### The invariant of the walk over the points -/

theorem accAfter_succ (lab : Fin 12288 → BitVec 32) (a : Fin 4096 → Fin 12288 → EReal) (i : Fin 4096) (n : ℕ) (h : n < 6) :
    Spec.accAfter lab a i (n + 1) = Spec.accStep lab a i ⟨n, h⟩ (Spec.accAfter lab a i n) := by
  rw [Spec.accAfter, dif_pos h]

section Inv

variable (V : (c : Dev nD) → (b : Ref sig .tc) → Buf (Elt Ideal) ((c : Thread nD τ).loc b)) (c : Dev nD)
  (f : Fin 12288 → Fin 128 → EReal) (lab : Fin 12288 → BitVec 32) (rew : Fin 4096 → EReal)

/-- What the loaded blocks hold, in the specification's terms: the anchors' block and labels and weights are the rows of
    the point's row block, the two slices are the rows of its column block. -/
structure Reads : Prop where
  x0 : ∀ (t : Fin cfg0.N) (p : Fin 1024) (k : Fin 128), X0 V c t (ix2 p k) = f (Spec.anchor (rowOf t p)) k
  ks : ∀ (t : Fin cfg0.N) (q : Fin 2048) (k : Fin 128), KS V c t (ix2 q k) = f (Spec.col (blkAt t) q) k
  x2 : ∀ (t : Fin cfg0.N) (p : Fin 1024), X2 V c t (ix2 p 0) = lab (Spec.anchor (rowOf t p))
  ls : ∀ (t : Fin cfg0.N) (q : Fin 2048), LS V c t (ix2 0 q) = lab (Spec.col (blkAt t) q)
  x4 : ∀ (t : Fin cfg0.N) (p : Fin 1024), X4 V c t (ix2 p 0) = rew (rowOf t p)

/-- One point at row `p`: from accumulators holding a state of the walk to accumulators holding its next state. -/
theorem step (R : Reads V c f lab rew) (t : Fin cfg0.N) (p : Fin 1024) (st : Spec.Acc)
    (mOld lOld sOld cOld : FVec Ideal S1024x1 .f32)
    (hm : mOld (ix2 p 0) = st.m) (hl : lOld (ix2 p 0) = st.l) (hs : sOld (ix2 p 0) = st.s) (hc : cOld (ix2 p 0) = st.c) :
    k0_pay4 (k0_pay13 (F := Ideal) (KS V c t) (X0 V c t) mOld) (ix2 p 0)
        = (Spec.accStep lab (Spec.simMul f) (rowOf t p) (blkAt t) st).m
    ∧ k0_pay1 (k0_pay10 (F := Ideal) (KS V c t) (X0 V c t)) (k0_pay11 (F := Ideal) (grid0.coords t))
          (k0_pay13 (F := Ideal) (KS V c t) (X0 V c t) mOld) (k0_pay14 (F := Ideal) (KS V c t) (X0 V c t) mOld mOld) lOld (ix2 p 0)
        = (Spec.accStep lab (Spec.simMul f) (rowOf t p) (blkAt t) st).l
    ∧ k0_pay2 (k0_pay10 (F := Ideal) (KS V c t) (X0 V c t)) (k0_pay12 (F := Ideal) (grid0.coords t) (LS V c t) (X2 V c t)) sOld (ix2 p 0)
        = (Spec.accStep lab (Spec.simMul f) (rowOf t p) (blkAt t) st).s
    ∧ k0_pay3 (k0_pay12 (F := Ideal) (grid0.coords t) (LS V c t) (X2 V c t)) cOld (ix2 p 0)
        = (Spec.accStep lab (Spec.simMul f) (rowOf t p) (blkAt t) st).c := by
  have hrow : (rowOf t p).val = 1024 * ((grid0.coords t) 0).val + p.val := by rw [(coords_val t).1]
  have hb : (blkAt t).val = ((grid0.coords t) 1).val := (coords_val t).2.symm
  exact ⟨pay_m f lab p (rowOf t p) (blkAt t) (X0 V c t) (KS V c t) st mOld (R.x0 t p) (R.ks t) hm,
    pay_l f lab (grid0.coords t) p (rowOf t p) (blkAt t) (X0 V c t) (KS V c t) st mOld lOld hrow hb (R.x0 t p) (R.ks t) hm hl,
    pay_s f lab (grid0.coords t) p (rowOf t p) (blkAt t) (X0 V c t) (KS V c t) (X2 V c t) (LS V c t) st sOld hrow hb
      (R.x0 t p) (R.ks t) (R.x2 t p) (R.ls t) hs,
    pay_c f lab (grid0.coords t) p (rowOf t p) (blkAt t) (X2 V c t) (LS V c t) st cOld hrow hb (R.x2 t p) (R.ls t) hc⟩

/-- After point `n` the four accumulators hold, at every row of the row block, the walk's state after the point's column block. -/
def AccInv (n : ℕ) (hn : n < cfg0.N) : Prop := ∀ p : Fin 1024,
  (outsAt0 V c n hn).2.1 (ix2 p 0) = (Spec.accAfter lab (Spec.simMul f) (rowOf ⟨n, hn⟩ p) (n % 6 + 1)).m
  ∧ (outsAt0 V c n hn).2.2.1 (ix2 p 0) = (Spec.accAfter lab (Spec.simMul f) (rowOf ⟨n, hn⟩ p) (n % 6 + 1)).l
  ∧ (outsAt0 V c n hn).2.2.2.1 (ix2 p 0) = (Spec.accAfter lab (Spec.simMul f) (rowOf ⟨n, hn⟩ p) (n % 6 + 1)).s
  ∧ (outsAt0 V c n hn).2.2.2.2 (ix2 p 0) = (Spec.accAfter lab (Spec.simMul f) (rowOf ⟨n, hn⟩ p) (n % 6 + 1)).c

/-- The state after a point's column block is one step from the state before it. -/
theorem accAfter_at (t : Fin cfg0.N) (i : Fin 4096) :
    Spec.accAfter lab (Spec.simMul f) i (t.val % 6 + 1) = Spec.accStep lab (Spec.simMul f) i (blkAt t) (Spec.accAfter lab (Spec.simMul f) i (t.val % 6)) :=
  accAfter_succ lab (Spec.simMul f) i (t.val % 6) (Nat.mod_lt _ (by norm_num))

/-- A first column block starts from the empty state. -/
theorem accInv_first (R : Reads V c f lab rew) (n : ℕ) (hn : n < cfg0.N) (h0 : n % 6 = 0) : AccInv V c f lab n hn := by
  intro p
  have hinit : Spec.accAfter lab (Spec.simMul f) (rowOf ⟨n, hn⟩ p) ((⟨n, hn⟩ : Fin cfg0.N).val % 6) = Spec.accInit := by
    show Spec.accAfter lab (Spec.simMul f) (rowOf ⟨n, hn⟩ p) (n % 6) = Spec.accInit
    rw [h0]; rfl
  have hst := accAfter_at f lab ⟨n, hn⟩ (rowOf ⟨n, hn⟩ p)
  rw [hinit] at hst
  rw [show Spec.accAfter lab (Spec.simMul f) (rowOf ⟨n, hn⟩ p) (n % 6 + 1) = _ from hst,
    show (outsAt0 V c n hn).2.1 = _ from accA_m V c ⟨n, hn⟩ h0,
    show (outsAt0 V c n hn).2.2.1 = _ from accA_l V c ⟨n, hn⟩ h0,
    show (outsAt0 V c n hn).2.2.2.1 = _ from accA_s V c ⟨n, hn⟩ h0,
    show (outsAt0 V c n hn).2.2.2.2 = _ from accA_c V c ⟨n, hn⟩ h0]
  exact step V c f lab rew R ⟨n, hn⟩ p Spec.accInit (k0_pay6 (F := Ideal)) (k0_pay7 (F := Ideal)) (k0_pay8 (F := Ideal)) (k0_pay9 (F := Ideal))
    (pay_init_m p) (pay_init_l p) (pay_init_s p) (pay_init_c p)

/-- The invariant holds after every point. -/
theorem accInv (R : Reads V c f lab rew) : ∀ (n : ℕ) (hn : n < cfg0.N), AccInv V c f lab n hn := by
  intro n
  induction n with
  | zero => intro hn; exact accInv_first V c f lab rew R 0 hn rfl
  | succ m ih =>
    intro hn
    by_cases h0 : (m + 1) % 6 = 0
    · exact accInv_first V c f lab rew R (m + 1) hn h0
    · intro p
      have ih' := ih (Nat.lt_of_succ_lt hn) p
      have hrow : rowOf ⟨m, Nat.lt_of_succ_lt hn⟩ p = rowOf ⟨m + 1, hn⟩ p :=
        Fin.ext (by show 1024 * (m / 6) + p.val = 1024 * ((m + 1) / 6) + p.val; omega)
      have hcb : m % 6 + 1 = (m + 1) % 6 := by omega
      rw [hrow, hcb] at ih'
      have hst := accAfter_at f lab ⟨m + 1, hn⟩ (rowOf ⟨m + 1, hn⟩ p)
      rw [show Spec.accAfter lab (Spec.simMul f) (rowOf ⟨m + 1, hn⟩ p) ((m + 1) % 6 + 1) = _ from hst,
        accBC_m V c m hn h0, accBC_l V c m hn h0, accBC_s V c m hn h0, accBC_c V c m hn h0]
      exact step V c f lab rew R ⟨m + 1, hn⟩ p _ _ _ _ _ ih'.1 ih'.2.1 ih'.2.2.1 ih'.2.2.2

/-- At a last column block the stored output, at row `p`, is the weighted row loss of that row of the batch. -/
theorem out_row (R : Reads V c f lab rew) (hfin : ∀ j k, ∃ x : ℝ, f j k = (x : EReal))
    (m : ℕ) (hn : m + 1 < cfg0.N) (h5 : (m + 1) % 6 = 5) (p : Fin 1024) :
    (outsAt0 V c (m + 1) hn).1 (ix2 p 0) = Spec.rowLossMul f lab rew (rowOf ⟨m + 1, hn⟩ p) := by
  have h0 : ¬(m + 1) % 6 = 0 := by omega
  obtain ⟨hm, hl, hs, hc⟩ := accInv V c f lab rew R (m + 1) hn p
  have h6 : (m + 1) % 6 + 1 = 6 := by omega
  rw [h6] at hm hl hs hc
  rw [outC V c m hn h0 h5, pay_out, hm, hl, hs, hc, R.x4]
  show (Spec.negOne * Spec.meanOfAcc (Spec.accAfter lab (Spec.simMul f) (rowOf ⟨m + 1, hn⟩ p) 6)) * rew (rowOf ⟨m + 1, hn⟩ p) = _
  rw [Spec.meanOfAcc_accAfter lab (Spec.simMul f) (rowOf ⟨m + 1, hn⟩ p) (fun j => Spec.dot_finite f hfin (rowOf ⟨m + 1, hn⟩ p) j)]
  rfl

end Inv

/-! ### The output array -/

/-- The weighted row losses as the output array's contents. -/
def lossArr (f : Fin 12288 → Fin 128 → EReal) (lab : Fin 12288 → BitVec 32) (rew : Fin 4096 → EReal) : S4096x1.Idx → EReal :=
  fun j => Spec.rowLossMul f lab rew ⟨(j 0).val, idx2_lt0 j⟩

/-- The region's output array holds, at row `r`, the weighted contrastive row loss of anchor `r`, in the arrangement
    that multiplies by the reciprocal temperature and walks the columns in blocks. -/
theorem arrAt_out (V : (c : Dev nD) → (b : Ref sig .tc) → Buf (Elt Ideal) ((c : Thread nD τ).loc b)) (c : Dev nD)
    (f : Fin 12288 → Fin 128 → EReal) (lab : Fin 12288 → BitVec 32) (rew : Fin 4096 → EReal)
    (hq : ∀ r k, (V c main_v12 : S4096x128.Idx → EReal) (ix2 r k) = f (Spec.anchor r) k)
    (hk : ∀ j k, (V c main_arg0 : S12288x128.Idx → EReal) (ix2 j k) = f j k)
    (hlr : ∀ r, (V c main_v1 : S4096x1.Idx → BitVec 32) (ix2 r 0) = lab (Spec.anchor r))
    (hlc : ∀ j, (V c main_v2 : S1x12288.Idx → BitVec 32) (ix2 0 j) = lab j)
    (hrew : ∀ r, (V c main_v11 : S4096x1.Idx → EReal) (ix2 r 0) = rew r)
    (hf : ∀ j k, ∃ x : ℝ, f j k = (x : EReal)) (r : Fin 4096) :
    ((Frame.dat0 V c).arrAt 5 cfg0.N : S4096x1.Idx → EReal) (ix2 r 0) = Spec.rowLossMul f lab rew r := by
  have R : Reads V c f lab rew :=
    { x0 := fun t p k => (blk0_apply V c t p k).trans (hq _ k)
      ks := fun t q k => (kslice_apply (F := Ideal) (X1 V c t) t q k).trans ((congrFun (blk1_eq V c t) _).trans (hk _ k))
      x2 := fun t p => (blk2_apply V c t p).trans (hlr _)
      ls := fun t q => (lslice_apply (F := Ideal) (X3 V c t) t q).trans ((congrFun (blk3_eq V c t) _).trans (hlc _))
      x4 := fun t p => (blk4_apply V c t p).trans (hrew _) }
  have hG : (Frame.dat0 V c).arrAt 5 cfg0.N = lossArr f lab rew := arrAt5_of V c (lossArr f lab rew) (fun t h5 => by
    show ((Frame.dat0 V c).flushed 5 t : S1024x1.Idx → EReal)
      = (((cfg0.win 5).blk t).view.read (Elt Ideal) (lossArr f lab rew) : S1024x1.Idx → EReal)
    funext y
    obtain ⟨p, u, rfl⟩ : ∃ (p : Fin 1024) (u : Fin 1), y = ix2 p u := ⟨y 0, y 1, eq_ix2 y⟩
    obtain rfl : u = 0 := Subsingleton.elim u 0
    refine Eq.trans ?_ (blk5_read (F := Ideal) (lossArr f lab rew) t p).symm
    show ((Frame.dat0 V c).after 5 t : S1024x1.Idx → EReal) (ix2 p 0) = _
    rw [after0_5]
    obtain ⟨n, hn⟩ := t
    cases n with
    | zero => exact absurd h5 (by norm_num)
    | succ m => exact out_row V c f lab rew R hf m hn h5 p)
  exact (congrFun hG (ix2 r 0)).trans rfl

end Cert.KernelIdeal.R0Value
end
-- ==== Proof.KerValue.lean ====
/- The kernel program's result as a function of its five argument arrays.

   The run's buffer contents are a fold from the launch memory through five segments. Read backwards from the result
   buffer: the last host stretch averages the cross-entropy region's 4096 row values and adds one times the mean the
   middle stretch took of the contrastive region's 4096 row values. Each region's row values are what its value module
   says of the arrays it is entered from, and those arrays walk back through the fold to the launch memory: an argument
   is written by no host operation and only read by a region; the label column, the anchors' rows and the anchors'
   weights are what the first host stretch cut out of the arguments. Together: the mean of the negated class
   log-probabilities plus one times the mean contrastive term. -/
import proofs.«404244_j8306466750557_2_alg».proof.Proof.Run
import proofs.«404244_j8306466750557_2_alg».proof.Proof.HostGlue
import proofs.«404244_j8306466750557_2_alg».proof.Proof.R1Value
import proofs.«404244_j8306466750557_2_alg».proof.Proof.R0Value
import proofs.«404244_j8306466750557_2_alg».proof.Proof.Arrays

noncomputable section

namespace Cert.KernelIdeal.KerValue

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-! ## What the cross-entropy region is entered from, walked back to the launch -/

/-- The logits array reaches the cross-entropy region as launched: no host operation writes it and the contrastive
    region does not stage it. -/
theorem V3_main_arg1 (c : Dev nD) : Frame.V3 m c main_arg1 = m ((c : Thread nD τ).loc main_arg1) :=
  calc Frame.W3 m c (Proc.devRef .tc main_arg1)
    _ = Frame.W2 m c (Proc.devRef .tc main_arg1) := StableHlo.after_of_writes_sub hostOps1 _ hostOps1_writes (by decide)
    _ = Frame.W1 m c (Proc.devRef .tc main_arg1) := Frame.W2_of_ne m c main_arg1 (by decide)
    _ = Frame.W0 m c (Proc.devRef .tc main_arg1) := StableHlo.after_of_writes_sub hostOps0 _ hostOps0_writes (by decide)
    _ = m ((c : Thread nD τ).loc main_arg1) := rfl

/-- The weight row likewise. -/
theorem V3_main_arg2 (c : Dev nD) : Frame.V3 m c main_arg2 = m ((c : Thread nD τ).loc main_arg2) :=
  calc Frame.W3 m c (Proc.devRef .tc main_arg2)
    _ = Frame.W2 m c (Proc.devRef .tc main_arg2) := StableHlo.after_of_writes_sub hostOps1 _ hostOps1_writes (by decide)
    _ = Frame.W1 m c (Proc.devRef .tc main_arg2) := Frame.W2_of_ne m c main_arg2 (by decide)
    _ = Frame.W0 m c (Proc.devRef .tc main_arg2) := StableHlo.after_of_writes_sub hostOps0 _ hostOps0_writes (by decide)
    _ = m ((c : Thread nD τ).loc main_arg2) := rfl

/-- The label column reaches the cross-entropy region as the first host stretch made it: the second stretch does not
    write it, and the contrastive region only reads it (it is one of that region's input windows). -/
theorem V3_main_v1 (c : Dev nD) : Frame.V3 m c main_v1 = Frame.W1 m c (Proc.devRef .tc main_v1) :=
  calc Frame.W3 m c (Proc.devRef .tc main_v1)
    _ = Frame.W2 m c (Proc.devRef .tc main_v1) := StableHlo.after_of_writes_sub hostOps1 _ hostOps1_writes (by decide)
    _ = Frame.W1 m c (Proc.devRef .tc main_v1) :=
        (Frame.W2_arr m c 2).trans (((Frame.dat0 (Frame.V1 m) c).arrAt_in 2 rfl _).trans (Frame.A_eq0 (Frame.V1 m) c 2))

/-- So the labels the cross-entropy region reads are the anchors' class numbers. -/
theorem labels3 (c : Dev nD) (cls : Fin 4096 → Fin 1000) (hcls : Arrays.ClassesOf (m ((c : Thread nD τ).loc main_arg4)) cls) (r : Fin 4096) :
    (Frame.V3 m c main_v1 : S4096x1.Idx → BitVec 32) (ix2 r 0) = BitVec.ofNat 32 (cls r).val :=
  (congrFun (V3_main_v1 m c : (Frame.V3 m c main_v1 : S4096x1.Idx → BitVec 32) = _) (ix2 r 0)).trans
    ((HostGlue.labRow_apply (Frame.W0 m c) r).trans (hcls r))

/-! ## The two regions' output arrays, row by row -/

/-- The cross-entropy region's output at row r: zero minus the log-probability of row r's class. -/
theorem row1 (c : Dev nD) (cls : Fin 4096 → Fin 1000) (hcls : Arrays.ClassesOf (m ((c : Thread nD τ).loc main_arg4)) cls) (r : Fin 4096) :
    (Frame.W4 m c (Proc.devRef .tc main_v17) : S4096x1.Idx → EReal) (ix2 r 0)
      = (0 : EReal) - Spec.target (Arrays.supOf (m ((c : Thread nD τ).loc main_arg1))) (Arrays.wOf (m ((c : Thread nD τ).loc main_arg2))) cls r := by
  have h := R1Value.arrAt_out (Frame.V3 m) c cls (labels3 m c cls hcls) r
  rw [V3_main_arg1, V3_main_arg2] at h
  exact (congrFun (Frame.W4_arr m c 3 : (Frame.W4 m c (Proc.devRef .tc main_v17) : S4096x1.Idx → EReal) = _) (ix2 r 0)).trans h

/-- The contrastive region's output at row r: the anchor's weighted contrastive term. -/
theorem row0 (c : Dev nD) (cls : Fin 4096 → Fin 1000) (hcls : Arrays.ClassesOf (m ((c : Thread nD τ).loc main_arg4)) cls)
    (hfin : Arrays.Finite (m ((c : Thread nD τ).loc main_arg0))) (r : Fin 4096) :
    (Frame.W2 m c (Proc.devRef .tc main_v13) : S4096x1.Idx → EReal) (ix2 r 0)
      = Spec.rowLossMul (Arrays.featOf (m ((c : Thread nD τ).loc main_arg0))) (Arrays.labOf (m ((c : Thread nD τ).loc main_arg4)))
          (Arrays.rewOf (m ((c : Thread nD τ).loc main_arg3)) cls) r :=
  (congrFun (Frame.W2_arr m c 5 : (Frame.W2 m c (Proc.devRef .tc main_v13) : S4096x1.Idx → EReal) = _) (ix2 r 0)).trans
    (R0Value.arrAt_out (Frame.V1 m) c (Arrays.featOf (m ((c : Thread nD τ).loc main_arg0))) (Arrays.labOf (m ((c : Thread nD τ).loc main_arg4)))
      (Arrays.rewOf (m ((c : Thread nD τ).loc main_arg3)) cls)
      (fun r k => HostGlue.q_apply (Frame.W0 m c) r k)
      (fun j k => congrFun (HostGlue.keeps0 (Frame.W0 m c) main_arg0 (by decide) :
        (Frame.V1 m c main_arg0 : S12288x128.Idx → EReal) = (Frame.W0 m c (Proc.devRef .tc main_arg0) : S12288x128.Idx → EReal)) (ix2 j k))
      (fun r => HostGlue.labRow_apply (Frame.W0 m c) r)
      (fun j => HostGlue.labCol_apply (Frame.W0 m c) j)
      (fun r => HostGlue.rew_apply (Frame.W0 m c) cls hcls r)
      (fun j k => hfin (ix2 j k)) r)

/-- The mean of the contrastive terms, as the cross-entropy region's exit still holds it. -/
theorem mean0 (c : Dev nD) (cls : Fin 4096 → Fin 1000) (hcls : Arrays.ClassesOf (m ((c : Thread nD τ).loc main_arg4)) cls)
    (hfin : Arrays.Finite (m ((c : Thread nD τ).loc main_arg0))) :
    (Frame.W4 m c (Proc.devRef .tc main_v16) : S_.Idx → EReal) ix0
      = Ideal.div (∑ r : Fin 4096, Spec.rowLossMul (Arrays.featOf (m ((c : Thread nD τ).loc main_arg0))) (Arrays.labOf (m ((c : Thread nD τ).loc main_arg4)))
          (Arrays.rewOf (m ((c : Thread nD τ).loc main_arg3)) cls) r) Spec.count := by
  have e : Frame.W4 m c (Proc.devRef .tc main_v16) = Frame.W3 m c (Proc.devRef .tc main_v16) := Frame.W4_of_ne m c main_v16 (by decide)
  refine (congrFun (e : (Frame.W4 m c (Proc.devRef .tc main_v16) : S_.Idx → EReal) = _) ix0).trans ?_
  refine (HostGlue.mean0_apply (Frame.W2 m c)).trans ?_
  exact congrArg (fun s => Ideal.div s Spec.count) (Finset.sum_congr rfl fun r _ => row0 m c cls hcls hfin r)

/-! ## The result -/

/-- THE KERNEL PROGRAM'S RESULT, as the fold from the launch memory computes it: the mean of the negated class
    log-probabilities plus one times the mean contrastive term. -/
theorem ker_result (m : (ℓ : Loc nD τ sig) → Buf (Elt Ideal) ℓ) (c : Dev nD) (cls : Fin 4096 → Fin 1000)
    (hcls : Arrays.ClassesOf (m ((c : Thread nD τ).loc main_arg4)) cls) (hfin : Arrays.Finite (m ((c : Thread nD τ).loc main_arg0))) :
    (Frame.W5 m c (Proc.devRef .tc main_v22) : S_.Idx → EReal) ix0
      = Arrays.resultMul (m ((c : Thread nD τ).loc main_arg0)) (m ((c : Thread nD τ).loc main_arg1)) (m ((c : Thread nD τ).loc main_arg2)) (m ((c : Thread nD τ).loc main_arg3)) (m ((c : Thread nD τ).loc main_arg4)) cls := by
  refine (HostGlue.result_apply (Frame.W4 m c)).trans ?_
  have hs : ((∑ r : Fin 4096, (Frame.W4 m c (Proc.devRef .tc main_v17) : S4096x1.Idx → EReal) (ix2 r 0)) : EReal)
      = ∑ r : Fin 4096, ((0 : EReal) - Spec.target (Arrays.supOf (m ((c : Thread nD τ).loc main_arg1))) (Arrays.wOf (m ((c : Thread nD τ).loc main_arg2))) cls r) :=
    Finset.sum_congr rfl fun r _ => row1 m c cls hcls r
  rw [hs, mean0 m c cls hcls hfin]
  rfl

end Cert.KernelIdeal.KerValue

end
-- ==== Proof.RefA.lean ====
/-
  The reference's first thirteen operations, read at an index.

  They build two 4096 × 12288 arrays from the arguments. The label-match array compares the anchors' labels (the first
  4096 of the 12288, one per row) with every row's label (one per column) and converts the comparison to a float: one
  where the labels agree, zero elsewhere. The similarity array is the product of the anchors' features (the first 4096
  rows of the 12288 × 128 table) with the table's transpose, contracted over the 128 coordinates, divided entrywise by
  the temperature word: entry (i, j) is the inner product of anchor i and row j over the temperature.
-/
import proofs.«404244_j8306466750557_2_alg».proof.Proof.RefOps
import proofs.«404244_j8306466750557_2_alg».proof.Proof.Arrays
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.ReferenceIdeal.RefA

open Cert.ReferenceIdeal Cert.ReferenceIdeal.Gen Cert.ReferenceIdeal.ValueP Idealize.ShloMosaic Idealize.ShloMosaic.TcCoe
  Idealize.ShloMosaic.StableHlo Idealize.ShloMosaic.ValueIdx

/-! ### What the stretch writes -/

/-- The buffers the first thirteen operations write. -/
abbrev writtenA : List (Ref sig .tc) :=
  [main_v0, main_v1, main_v2, main_v3, main_v4, main_v5, main_v6, main_v7, main_v8, main_v9, main_cst, main_v10, main_v11]

theorem opsA_writes : (opsA : List (HloOp τ sig (Elt Ideal))).Forall fun op =>
    op.writes ⊆ (writtenA.map (Proc.devRef (τ := τ) .tc)).toFinset := by
  simp only [List.Forall]
  and_intros <;>
    (simp only [nullary_writes, unary_writes, binary_writes, ternary_writes, Finset.singleton_subset_iff, List.mem_toFinset]
     exact List.mem_map_of_mem (by decide))

/-- Every other buffer keeps its contents. -/
theorem keepsA (W : Valuation τ sig (Elt Ideal)) (b : Ref sig .tc) (hb : b ∉ writtenA) :
    after opsA W (Proc.devRef .tc b) = W (Proc.devRef .tc b) :=
  after_of_writes_sub opsA W opsA_writes hb

/-! ### The label-match array -/

/-- The seventh result as the composed term of the operations it depends on. -/
theorem v6_term (W : Valuation τ sig (Elt Ideal)) :
    after opsA W (Proc.devRef .tc main_v6)
      = (uitofp (F := Ideal) .f32 (cmpi .eq
          (broadcastInDim S4096x12288 ![0, 1] bcast_S4096x1_S4096x12288_0_1
            (broadcastInDim S4096x1 ![0] bcast_S4096_S4096x1_0
              (extractStridedSlice S4096 ![0] (W (Proc.devRef .tc main_arg4)) slices_S12288_S4096_0)))
          (broadcastInDim S4096x12288 ![0, 1] bcast_S1x12288_S4096x12288_0_1
            (broadcastInDim S1x12288 ![1] bcast_S12288_S1x12288_1 (W (Proc.devRef .tc main_arg4)))))
          : (⟨S4096x12288, .f32⟩ : BufTy).Contents (Elt Ideal)) := by
  after_results

/-- Entry (i, j) of the label-match array: one where row j carries anchor i's label, else zero. -/
theorem v6_apply (W : Valuation τ sig (Elt Ideal)) (i : Fin 4096) (j : Fin 12288) :
    (after opsA W (Proc.devRef .tc main_v6) : S4096x12288.Idx → EReal) (ix2 i j)
      = Spec.sameLabel (Arrays.labOf (W (Proc.devRef .tc main_arg4))) i j := by
  rw [v6_term]
  generalize (W (Proc.devRef .tc main_arg4) : S12288.Idx → BitVec 32) = x4
  have hA : broadcastInDim S4096x12288 ![0, 1] bcast_S4096x1_S4096x12288_0_1
      (broadcastInDim S4096x1 ![0] bcast_S4096_S4096x1_0
        (extractStridedSlice S4096 ![0] x4 slices_S12288_S4096_0)) (ix2 i j) = x4 (ix1 (Spec.anchor i)) := by
    rw [broadcastInDim_apply _ bcast_S4096x1_S4096x12288_0_1 _ (ix2 i j) (ix2 i (0 : Fin 1)) (fun a => match a with
        | ⟨0, _⟩ => by show i.val = if (4096 : Nat) = 1 then 0 else i.val; rw [if_neg (by decide)]
        | ⟨1, _⟩ => by show 0 = if (1 : Nat) = 1 then 0 else j.val; rw [if_pos rfl]),
      broadcastInDim_apply _ bcast_S4096_S4096x1_0 _ (ix2 i (0 : Fin 1)) (ix1 i) (fun a => match a with
        | ⟨0, _⟩ => by show i.val = if (4096 : Nat) = 1 then 0 else i.val; rw [if_neg (by decide)]),
      extractStridedSlice_apply ![0] x4 slices_S12288_S4096_0 (ix1 i) (ix1 (Spec.anchor i)) (fun a => match a with
        | ⟨0, _⟩ => by show (Spec.anchor i).val = 0 + i.val; rw [Nat.zero_add]; rfl)]
  have hB : broadcastInDim S4096x12288 ![0, 1] bcast_S1x12288_S4096x12288_0_1
      (broadcastInDim S1x12288 ![1] bcast_S12288_S1x12288_1 x4) (ix2 i j) = x4 (ix1 j) := by
    rw [broadcastInDim_apply _ bcast_S1x12288_S4096x12288_0_1 _ (ix2 i j) (ix2 (0 : Fin 1) j) (fun a => match a with
        | ⟨0, _⟩ => by show 0 = if (1 : Nat) = 1 then 0 else i.val; rw [if_pos rfl]
        | ⟨1, _⟩ => by show j.val = if (12288 : Nat) = 1 then 0 else j.val; rw [if_neg (by decide)]),
      broadcastInDim_apply _ bcast_S12288_S1x12288_1 x4 (ix2 (0 : Fin 1) j) (ix1 j) (fun a => match a with
        | ⟨0, _⟩ => by show j.val = if (12288 : Nat) = 1 then 0 else j.val; rw [if_neg (by decide)])]
  show FloatOps.uitofp (F := Ideal) .f32 (IntOp.cmpi .eq _ _) = _
  rw [hA, hB]
  unfold Spec.sameLabel Arrays.labOf
  by_cases h : x4 (ix1 (Spec.anchor i)) = x4 (ix1 j)
  · rw [if_pos h, Predicate.cmpi_eq_iff.mpr h]
    show (((1#1 : BitVec 1).toNat : ℝ) : EReal) = 1
    simp
  · rw [if_neg h]
    have h0 : IntOp.cmpi .eq (x4 (ix1 (Spec.anchor i))) (x4 (ix1 j)) = 0#1 := by
      simp only [IntOp.cmpi, beq_eq_false_iff_ne.mpr h, BitVec.ofBool_false]; rfl
    rw [h0]
    show (((0#1 : BitVec 1).toNat : ℝ) : EReal) = 0
    simp

/-! ### The similarity array -/

/-- The thirteenth result as the composed term of the operations it depends on. -/
theorem v11_term (W : Valuation τ sig (Elt Ideal)) :
    after opsA W (Proc.devRef .tc main_v11)
      = (Host.divf (F := Ideal)
          (Host.dotGeneral (F := Ideal) (φ₁ := .f32) (φ₂ := .f32) dot_S4096x128_S128x12288_S4096x12288_1_0_0_1_n_n none
            (extractStridedSlice S4096x128 ![0, 0] (W (Proc.devRef .tc main_arg0)) slices_S12288x128_S4096x128_0_0)
            (transpose S128x12288 [1, 0] (W (Proc.devRef .tc main_arg0)) transposes_S12288x128_S128x12288_1_0))
          (broadcastInDim S4096x12288 ![] bcast_S_S4096x12288 (constant (F := Ideal) S_ .f32 0x3D8F5C29#32))
          : (⟨S4096x12288, .f32⟩ : BufTy).Contents (Elt Ideal)) := by
  after_results

/-- The product's operand indices at output (i, j) and contraction coordinate q: (i, q) on the left, (q, j) on the right. -/
private theorem lhs_0 (i : S4096x12288.Idx) (q : dot_S4096x128_S128x12288_S4096x12288_1_0_0_1_n_n.contr.Idx) :
    (dot_S4096x128_S128x12288_S4096x12288_1_0_0_1_n_n.lhsIdx i q 0).val = (i 0).val := by
  unfold DotDims.lhsIdx
  rw [dif_neg (show ¬(0 : Fin S4096x128.rank) ∈ dot_S4096x128_S128x12288_S4096x12288_1_0_0_1_n_n.lhsBatch by decide),
    dif_pos (show (0 : Fin S4096x128.rank) ∈ dot_S4096x128_S128x12288_S4096x12288_1_0_0_1_n_n.lhsNonContracting by decide)]
  rfl
private theorem lhs_1 (i : S4096x12288.Idx) (q : dot_S4096x128_S128x12288_S4096x12288_1_0_0_1_n_n.contr.Idx) :
    (dot_S4096x128_S128x12288_S4096x12288_1_0_0_1_n_n.lhsIdx i q 1).val = (q ⟨0, by decide⟩).val :=
  dot_S4096x128_S128x12288_S4096x12288_1_0_0_1_n_n.lhsIdx_val_of_single rfl i q
private theorem rhs_0 (i : S4096x12288.Idx) (q : dot_S4096x128_S128x12288_S4096x12288_1_0_0_1_n_n.contr.Idx) :
    (dot_S4096x128_S128x12288_S4096x12288_1_0_0_1_n_n.rhsIdx i q 0).val = (q ⟨0, by decide⟩).val :=
  dot_S4096x128_S128x12288_S4096x12288_1_0_0_1_n_n.rhsIdx_val_of_single rfl i q
private theorem rhs_1 (i : S4096x12288.Idx) (q : dot_S4096x128_S128x12288_S4096x12288_1_0_0_1_n_n.contr.Idx) :
    (dot_S4096x128_S128x12288_S4096x12288_1_0_0_1_n_n.rhsIdx i q 1).val = (i 1).val := by
  unfold DotDims.rhsIdx
  rw [dif_neg (show ¬(1 : Fin S128x12288.rank) ∈ dot_S4096x128_S128x12288_S4096x12288_1_0_0_1_n_n.rhsBatch by decide),
    dif_pos (show (1 : Fin S128x12288.rank) ∈ dot_S4096x128_S128x12288_S4096x12288_1_0_0_1_n_n.rhsNonContracting by decide)]
  rfl

/-- The product of two arrays at (i, j): the sum over the 128 coordinates of left (i, k) times right (k, j). -/
private theorem dot_apply (l : S4096x128.Idx → EReal) (r : S128x12288.Idx → EReal) (i : Fin 4096) (j : Fin 12288) :
    (Host.dotGeneral (F := Ideal) (φ₁ := .f32) (φ₂ := .f32) dot_S4096x128_S128x12288_S4096x12288_1_0_0_1_n_n none l r : S4096x12288.Idx → EReal) (ix2 i j)
      = ∑ k : Fin 128, l (ix2 i k) * r (ix2 k j) := by
  simp only [Host.dotGeneral]
  rw [Ideal.dotGeneral_apply,
    ← Equiv.sum_comp (ValueIdx.contrEquiv1 dot_S4096x128_S128x12288_S4096x12288_1_0_0_1_n_n 128 rfl rfl).symm]
  refine Finset.sum_congr rfl fun k _ => ?_
  have hk := ValueIdx.contrEquiv1_symm_val dot_S4096x128_S128x12288_S4096x12288_1_0_0_1_n_n 128 rfl rfl k
  have el : dot_S4096x128_S128x12288_S4096x12288_1_0_0_1_n_n.lhsIdx (ix2 i j)
      ((ValueIdx.contrEquiv1 dot_S4096x128_S128x12288_S4096x12288_1_0_0_1_n_n 128 rfl rfl).symm k) = ix2 i k :=
    funext fun a => Fin.ext (by
      match a with
      | ⟨0, _⟩ => exact lhs_0 _ _
      | ⟨1, _⟩ => exact (lhs_1 _ _).trans hk)
  have er : dot_S4096x128_S128x12288_S4096x12288_1_0_0_1_n_n.rhsIdx (ix2 i j)
      ((ValueIdx.contrEquiv1 dot_S4096x128_S128x12288_S4096x12288_1_0_0_1_n_n 128 rfl rfl).symm k) = ix2 k j :=
    funext fun a => Fin.ext (by
      match a with
      | ⟨0, _⟩ => exact (rhs_0 _ _).trans hk
      | ⟨1, _⟩ => exact rhs_1 _ _)
  rw [el, er]

/-- Entry (i, j) of the similarity array: the inner product of anchor i and row j over the temperature. -/
theorem v11_apply (W : Valuation τ sig (Elt Ideal)) (i : Fin 4096) (j : Fin 12288) :
    (after opsA W (Proc.devRef .tc main_v11) : S4096x12288.Idx → EReal) (ix2 i j)
      = Spec.simDiv (Arrays.featOf (W (Proc.devRef .tc main_arg0))) i j := by
  rw [v11_term]
  generalize (W (Proc.devRef .tc main_arg0) : S12288x128.Idx → EReal) = x0
  show FloatOps.hostDivf (F := Ideal)
      ((Host.dotGeneral (F := Ideal) (φ₁ := .f32) (φ₂ := .f32) dot_S4096x128_S128x12288_S4096x12288_1_0_0_1_n_n none
        (extractStridedSlice S4096x128 ![0, 0] x0 slices_S12288x128_S4096x128_0_0)
        (transpose S128x12288 [1, 0] x0 transposes_S12288x128_S128x12288_1_0) : S4096x12288.Idx → EReal) (ix2 i j))
      ((broadcastInDim S4096x12288 ![] bcast_S_S4096x12288 (constant (F := Ideal) S_ .f32 0x3D8F5C29#32)
        : S4096x12288.Idx → EReal) (ix2 i j)) = _
  rw [dot_apply,
    broadcastInDim_apply _ bcast_S_S4096x12288 _ (ix2 i j) (fun a => a.elim0) (fun a => a.elim0)]
  unfold Spec.simDiv Spec.dot Arrays.featOf
  show Ideal.div _ (Ideal.ofBits .f32 0x3D8F5C29#32) = Ideal.div _ Spec.temp
  refine congrArg (Ideal.div · _) (Finset.sum_congr rfl fun k _ => ?_)
  rw [extractStridedSlice_apply ![0, 0] x0 slices_S12288x128_S4096x128_0_0 (ix2 i k) (ix2 (Spec.anchor i) k) (fun a => match a with
      | ⟨0, _⟩ => by show (Spec.anchor i).val = 0 + i.val; rw [Nat.zero_add]; rfl
      | ⟨1, _⟩ => by show k.val = 0 + k.val; rw [Nat.zero_add]),
    transpose_apply [1, 0] x0 transposes_S12288x128_S128x12288_1_0 (ix2 k j) (ix2 j k) (fun b => match b with
      | ⟨0, _⟩ => rfl
      | ⟨1, _⟩ => rfl)]

end Cert.ReferenceIdeal.RefA

end
-- ==== Proof.RefB.lean ====
/-
  The reference's operations 14 to 18, read at an index.

  From the similarity array they take each row's maximum — a reduction over the 12288 columns with the maximum as its
  body, started from the word of −∞, so the fold of the maximum from the bottom element, which is the supremum of
  the row — and subtract it from every entry of the row.
-/
import proofs.«404244_j8306466750557_2_alg».proof.Proof.RefOps
import proofs.«404244_j8306466750557_2_alg».proof.Proof.Arrays
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.ReferenceIdeal.RefB

open Cert.ReferenceIdeal Cert.ReferenceIdeal.Gen Cert.ReferenceIdeal.ValueP Idealize.ShloMosaic Idealize.ShloMosaic.TcCoe
  Idealize.ShloMosaic.StableHlo Idealize.ShloMosaic.ValueIdx

/-! ### What the stretch writes -/

/-- The buffers operations 14 to 18 write. -/
abbrev writtenB : List (Ref sig .tc) := [main_cst_0, main_v12, main_v13, main_v14, main_v15]

theorem opsB_writes : (opsB : List (HloOp τ sig (Elt Ideal))).Forall fun op =>
    op.writes ⊆ (writtenB.map (Proc.devRef (τ := τ) .tc)).toFinset := by
  simp only [List.Forall]
  and_intros <;>
    (simp only [nullary_writes, unary_writes, binary_writes, ternary_writes, Finset.singleton_subset_iff, List.mem_toFinset]
     exact List.mem_map_of_mem (by decide))

/-- Every other buffer keeps its contents. -/
theorem keepsB (W : Valuation τ sig (Elt Ideal)) (b : Ref sig .tc) (hb : b ∉ writtenB) :
    after opsB W (Proc.devRef .tc b) = W (Proc.devRef .tc b) :=
  after_of_writes_sub opsB W opsB_writes hb

/-! ### The similarities less their row maximum -/

/-- The stretch's last result as the composed term of its five operations. -/
theorem v15_term (W : Valuation τ sig (Elt Ideal)) :
    after opsB W (Proc.devRef .tc main_v15)
      = (subf (F := Ideal) (W (Proc.devRef .tc main_v11))
          (broadcastInDim S4096x12288 ![0, 1] bcast_S4096x1_S4096x12288_0_1
            (broadcastInDim S4096x1 ![0] bcast_S4096_S4096x1_0
              (Host.reduce (FloatOps.maximumf (F := Ideal) (φ := .f32)) (W (Proc.devRef .tc main_v11))
                (constant (F := Ideal) S_ .f32 0xFF800000#32) reducesTo_S4096x12288_S4096_d1 h_S_)))
          : (⟨S4096x12288, .f32⟩ : BufTy).Contents (Elt Ideal)) := by
  after_results

/-- Row i with column k put back is (i, k). -/
private theorem lift_row (h : S4096x12288.Reduces [1] S4096) (i : Fin 4096) (k : Fin (S4096x12288.size 1)) :
    h.lift (ix1 i) k = ix2 i (⟨k.val, k.isLt⟩ : Fin 12288) := by
  funext c; apply Fin.ext
  fin_cases c <;> rfl

/-- The fold of the maximum from the bottom element is the supremum. -/
private theorem fold_max_eq_sup {ι : Type} (s : Finset ι) (g : ι → EReal) : s.fold max ⊥ g = s.sup g := by
  classical
  refine Finset.induction_on s (by simp) ?_
  intro a s ha ih
  rw [Finset.fold_insert ha, Finset.sup_insert, ih]

/-- From −∞ the maximum over axis 1, at row i, is the supremum of the row. -/
private theorem rowMax_read (x : (⟨S4096x12288, .f32⟩ : BufTy).Contents (Elt Ideal)) (i : Fin 4096) :
    (Host.reduce (FloatOps.maximumf (F := Ideal) (φ := .f32)) x (constant (F := Ideal) S_ .f32 0xFF800000#32)
        reducesTo_S4096x12288_S4096_d1 h_S_ : S4096.Idx → EReal) (ix1 i)
      = Finset.univ.sup fun k : Fin 12288 => x (ix2 i k) := by
  have h : S4096x12288.Reduces [1] S4096 := by decide
  rw [Host.reduce_eq_fold_single (FloatOps.maximumf (F := Ideal) (φ := .f32)) x _ reducesTo_S4096x12288_S4096_d1 h h_S_]
  have hb : (constant (F := Ideal) S_ .f32 0xFF800000#32 : S_.Idx → EReal) (Shape.Idx.first h_S_) = ⊥ := by
    show Ideal.ofBits .f32 0xFF800000#32 = ⊥
    simp [Ideal.ofBits, Ideal.ieee]
  have hf : (x ∘ h.lift (ix1 i)) = fun k : Fin 12288 => x (ix2 i k) :=
    funext fun k => congrArg x (lift_row h i k)
  rw [hb, hf]
  exact fold_max_eq_sup Finset.univ _

/-- Entry (i, j): the similarity less the largest similarity of row i. -/
theorem v15_apply (W : Valuation τ sig (Elt Ideal)) (a : Fin 4096 → Fin 12288 → EReal)
    (ha : ∀ i j, (W (Proc.devRef .tc main_v11) : S4096x12288.Idx → EReal) (ix2 i j) = a i j) (i : Fin 4096) (j : Fin 12288) :
    (after opsB W (Proc.devRef .tc main_v15) : S4096x12288.Idx → EReal) (ix2 i j) = a i j - Spec.rowMax a i := by
  rw [v15_term]
  show FloatOps.subf (F := Ideal) ((W (Proc.devRef .tc main_v11) : S4096x12288.Idx → EReal) (ix2 i j))
      ((broadcastInDim S4096x12288 ![0, 1] bcast_S4096x1_S4096x12288_0_1
        (broadcastInDim S4096x1 ![0] bcast_S4096_S4096x1_0
          (Host.reduce (FloatOps.maximumf (F := Ideal) (φ := .f32)) (W (Proc.devRef .tc main_v11))
            (constant (F := Ideal) S_ .f32 0xFF800000#32) reducesTo_S4096x12288_S4096_d1 h_S_)) : S4096x12288.Idx → EReal) (ix2 i j)) = _
  rw [broadcastInDim_apply _ bcast_S4096x1_S4096x12288_0_1 _ (ix2 i j) (ix2 i (0 : Fin 1)) (fun a => match a with
      | ⟨0, _⟩ => by show i.val = if (4096 : Nat) = 1 then 0 else i.val; rw [if_neg (by decide)]
      | ⟨1, _⟩ => by show 0 = if (1 : Nat) = 1 then 0 else j.val; rw [if_pos rfl]),
    broadcastInDim_apply _ bcast_S4096_S4096x1_0 _ (ix2 i (0 : Fin 1)) (ix1 i) (fun a => match a with
      | ⟨0, _⟩ => by show i.val = if (4096 : Nat) = 1 then 0 else i.val; rw [if_neg (by decide)]),
    rowMax_read, ha]
  simp only [ha]
  rfl

end Cert.ReferenceIdeal.RefB

end
-- ==== Proof.RefC.lean ====
/-
  The reference's mask of the anchors' own columns, read at an index, over the extended reals.

  This stretch of the reference builds the 4096 by 12288 array that is zero at (i, i) and one elsewhere, as jnp's
  ones.at[idx, idx].set(0.0) with idx the positions 0 … 4095: the positions are wrapped as jnp wraps a negative
  position (once by the row count, once by the column count; no position is negative, so each is kept), laid out as
  two columns and joined into the pairs (r, r), and a scatter writes the value zero at each pair into an array of
  ones. The scatter is a fold over the 4096 updates, each overwriting one entry; since every update writes the same
  value, the entry at (i, j) after the fold is that value if some update lands on (i, j), and the one that was there
  if none does, whatever the order. Update r lands on (r, r), so some update lands on (i, j) exactly when i = j.
-/
import proofs.«404244_j8306466750557_2_alg».proof.Proof.RefOps
import proofs.«404244_j8306466750557_2_alg».proof.Proof.Arrays
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.IdealHost

noncomputable section

namespace Cert.ReferenceIdeal.RefC

open Cert.ReferenceIdeal Cert.ReferenceIdeal.Gen Cert.ReferenceIdeal.ValueP Idealize.ShloMosaic Idealize.ShloMosaic.StableHlo
  Idealize.ShloMosaic.ValueIdx

/-! ## A scatter that writes one value everywhere it lands, read at an index -/

section Scatter

variable {s si u : Shape} {w : Nat} {α : Type}

/-- The scatter's fold at an index no update of the list lands on: what was there. -/
theorem foldl_set_miss (d : ScatterDims s si u) (idx : IVec si w) (z : α) (k : s.Idx) :
    ∀ (l : List (Fin u.numel)) (x : s.Idx → α), (¬ ∃ n ∈ l, d.resultIdx? (u.rowMajor.symm n) idx = some k) →
      l.foldl (fun r n =>
          match d.resultIdx? (u.rowMajor.symm n) idx with
          | some i => fun i' => if i' = i then z else r i'
          | none => r) x k = x k := by
  intro l
  induction l with
  | nil => intro x _; rfl
  | cons a l ih =>
    intro x h
    rw [List.foldl_cons, ih _ (fun ⟨n, hn, hp⟩ => h ⟨n, List.mem_cons_of_mem _ hn, hp⟩)]
    have ha : d.resultIdx? (u.rowMajor.symm a) idx ≠ some k := fun e => h ⟨a, List.mem_cons_self, e⟩
    generalize d.resultIdx? (u.rowMajor.symm a) idx = o at ha
    cases o with
    | none => rfl
    | some i =>
      show (if k = i then z else x k) = x k
      rw [if_neg (fun e => ha (by rw [e]))]

/-- The scatter's fold at an index some update of the list lands on: the value written. -/
theorem foldl_set_hit (d : ScatterDims s si u) (idx : IVec si w) (z : α) (k : s.Idx) :
    ∀ (l : List (Fin u.numel)) (x : s.Idx → α), (∃ n ∈ l, d.resultIdx? (u.rowMajor.symm n) idx = some k) →
      l.foldl (fun r n =>
          match d.resultIdx? (u.rowMajor.symm n) idx with
          | some i => fun i' => if i' = i then z else r i'
          | none => r) x k = z := by
  intro l
  induction l with
  | nil => intro x ⟨n, hn, _⟩; exact absurd hn List.not_mem_nil
  | cons a l ih =>
    intro x ⟨n, hn, hp⟩
    rw [List.foldl_cons]
    by_cases hl : ∃ n ∈ l, d.resultIdx? (u.rowMajor.symm n) idx = some k
    · exact ih _ hl
    · rw [foldl_set_miss d idx z k l _ hl]
      have hna : n = a := by
        rcases List.mem_cons.1 hn with e | hn'
        · exact e
        · exact absurd ⟨n, hn', hp⟩ hl
      rw [hna] at hp
      rw [hp]
      show (if k = k then z else x k) = z
      rw [if_pos rfl]

/-- A scatter of the one value z, at an index some update lands on: z. -/
theorem scatter_const_hit (d : ScatterDims s si u) (x : s.Idx → α) (idx : IVec si w) (z : α) (k : s.Idx)
    (h : ∃ j : u.Idx, d.resultIdx? j idx = some k) :
    Host.scatter d (fun _ b => b) x idx (fun _ => z) k = z := by
  obtain ⟨j, hj⟩ := h
  unfold Host.scatter
  exact foldl_set_hit d idx z k _ x ⟨u.rowMajor j, List.mem_finRange _, by rw [Equiv.symm_apply_apply]; exact hj⟩

/-- A scatter of the one value z, at an index no update lands on: the operand's entry. -/
theorem scatter_const_miss (d : ScatterDims s si u) (x : s.Idx → α) (idx : IVec si w) (z : α) (k : s.Idx)
    (h : ∀ j : u.Idx, d.resultIdx? j idx ≠ some k) :
    Host.scatter d (fun _ b => b) x idx (fun _ => z) k = x k := by
  unfold Host.scatter
  exact foldl_set_miss d idx z k _ x (fun ⟨n, _, hp⟩ => h _ hp)

end Scatter

/-! ## The index pairs -/

/-- The word of a number below 2^31, read signed, is not negative. -/
theorem small_not_neg (n : Nat) (hn : n < 2 ^ 31) : IntOp.cmpi .slt (BitVec.ofNat 32 n) 0#32 = 0#1 := by
  refine eq_zero_of_ne_one fun h => ?_
  have h' := (StableHlo.Predicate.slt_iff_toNat (a := BitVec.ofNat 32 n) (b := 0#32)
    (by rw [BitVec.toNat_ofNat]; omega) (by decide)).mp h
  exact absurd h' (by simp)

/-- The positions 0 … 4095, each moved up by k were it negative. -/
abbrev wrapped (k : BitVec 32) : S4096.Idx → BitVec 32 :=
  select (cmpi .slt (iotaInDim S4096 32 0) (broadcastInDim S4096 ![] bcast_S_S4096 (constantI S_ 32 0#32)))
    (addi (iotaInDim S4096 32 0) (broadcastInDim S4096 ![] bcast_S_S4096 (constantI S_ 32 k))) (iotaInDim S4096 32 0)

/-- No position is negative: entry r of the wrapped positions is r. -/
theorem wrapped_apply (k : BitVec 32) (r : Fin 4096) : wrapped k (ix1 r) = BitVec.ofNat 32 r.val := by
  show Scalar.select (IntOp.cmpi .slt (BitVec.ofNat 32 r.val) 0#32) _ (BitVec.ofNat 32 r.val) = _
  rw [small_not_neg r.val (by have := r.isLt; omega), select_zero]

/-- A vector laid out as a column reads, at row r, the vector at r. -/
theorem column_apply {β : Type} (y : S4096.Idx → β) (q : S4096x1.Idx) :
    broadcastInDim S4096x1 ![0] bcast_S4096_S4096x1_0 y q = y (ix1 (q 0)) :=
  broadcastInDim_apply _ bcast_S4096_S4096x1_0 y q (ix1 (q 0)) (fun a => match a with
    | ⟨0, _⟩ => by show (q 0).val = if (4096 : Nat) = 1 then 0 else (q 0).val; rw [if_neg (by decide)])

/-- Two columns joined side by side read, at (r, 0), the first at row r and, at (r, 1), the second. -/
theorem pair_apply {β : Type} (c₁ c₂ : S4096x1.Idx → β) (q : S4096x2.Idx) :
    concatenate S4096x2 1 [⟨S4096x1, c₁⟩, ⟨S4096x1, c₂⟩] concatenates_S4096x1_S4096x1_S4096x2_d1 q
      = if (q 1).val = 0 then c₁ (ix2 (q 0) 0) else c₂ (ix2 (q 0) 0) := by
  have h1 : (q 1).val < 2 := idx2_lt1 q
  split
  · next h0 =>
    exact concatenate_pair_apply_left 1 c₁ c₂ concatenates_S4096x1_S4096x1_S4096x2_d1 q rfl (ix2 (q 0) 0) (fun b => match b with
      | ⟨0, _⟩ => rfl
      | ⟨1, _⟩ => h0.symm)
  · next h0 =>
    exact concatenate_pair_apply_right 1 c₁ c₂ concatenates_S4096x1_S4096x1_S4096x2_d1 q rfl rfl (ix2 (q 0) 0)
      (fun b hb => match b, hb with
        | ⟨0, _⟩, _ => rfl
        | ⟨1, _⟩, hb => absurd (Fin.ext rfl) hb)
      (by show 0 + 1 = (q 1).val; omega)

/-- The index pairs the scatter reads. -/
abbrev pairs : S4096x2.Idx → BitVec 32 :=
  concatenate S4096x2 1
    [⟨S4096x1, broadcastInDim S4096x1 ![0] bcast_S4096_S4096x1_0 (wrapped 4096#32)⟩,
      ⟨S4096x1, broadcastInDim S4096x1 ![0] bcast_S4096_S4096x1_0 (wrapped 12288#32)⟩]
    concatenates_S4096x1_S4096x1_S4096x2_d1

/-- Both components of pair r are r. -/
theorem pairs_apply (q : S4096x2.Idx) : pairs q = BitVec.ofNat 32 (q 0).val := by
  unfold pairs
  rw [pair_apply]
  split
  · rw [column_apply]; exact wrapped_apply _ (q 0)
  · rw [column_apply]; exact wrapped_apply _ (q 0)

/-! ## Where update r lands -/

/-- The scatter's dimension numbers: both axes of the operand are indexed, the pair's components in order. -/
abbrev dS : ScatterDims S4096x12288 S4096x2 S4096 := scatter_S4096x12288_S4096x2_S4096_n_01_01_1

/-- The start index of update j is read in row j of the index array. -/
theorem siIdx_row (j : S4096.Idx) (c : Fin dS.scatterDimsToOperandDims.length) : (dS.siIdx j c 0).val = (j 0).val := by
  have e : ∀ X : Fin 1, (j X).val = (j 0).val := fun X => by rw [Subsingleton.elim X 0]
  unfold ScatterDims.siIdx
  rw [dif_neg (by show ¬ ((0 : Nat) = 1); decide)]
  unfold ScatterDims.siCoord
  simp only [Fin.val_cast]
  exact e _

/-- Each component of update j's start index is j, over index pairs whose components are the row number. -/
theorem start_eq (idx : IVec S4096x2 32) (hidx : ∀ q, idx q = BitVec.ofNat 32 (q 0).val) (j : S4096.Idx) (a : Fin 2) :
    dS.start j idx a = ((j 0).val : Int) := by
  have hj : (j 0).val < 4096 := (j 0).isLt
  have ha : a ∈ dS.scatterDimsToOperandDims := by
    show a ∈ ([0, 1] : List (Fin 2))
    fin_cases a <;> simp
  unfold ScatterDims.start
  rw [dif_pos ha, hidx, siIdx_row, StableHlo.Predicate.toInt_ofNat_small _ (by omega)]

/-- The updates are single entries: no window coordinate. -/
theorem window_eq (j : S4096.Idx) (a : Fin 2) : dS.window j a = 0 := by
  unfold ScatterDims.window
  rw [dif_neg]
  show a ∉ S4096x12288.kept [0, 1]
  fin_cases a <;> decide

/-- UPDATE j LANDS ON (j, j). -/
theorem resultIdx_eq (idx : IVec S4096x2 32) (hidx : ∀ q, idx q = BitVec.ofNat 32 (q 0).val) (j : S4096.Idx) :
    dS.resultIdx? j idx = some (ix2 (j 0) (Cert.Spec.anchor (j 0))) := by
  have hj : (j 0).val < 4096 := (j 0).isLt
  have hin : ∀ a, 0 ≤ dS.start j idx a + dS.window j a ∧ dS.start j idx a + dS.window j a < S4096x12288.size a := by
    intro a
    rw [start_eq idx hidx, window_eq]
    match a with
    | ⟨0, _⟩ => show (0 : Int) ≤ ((j 0).val : Int) + ((0 : Nat) : Int) ∧ ((j 0).val : Int) + ((0 : Nat) : Int) < ((4096 : Nat) : Int); omega
    | ⟨1, _⟩ => show (0 : Int) ≤ ((j 0).val : Int) + ((0 : Nat) : Int) ∧ ((j 0).val : Int) + ((0 : Nat) : Int) < ((12288 : Nat) : Int); omega
  unfold ScatterDims.resultIdx?
  rw [dif_pos hin]
  congr 1
  funext a
  apply Fin.ext
  show (dS.start j idx a + dS.window j a).toNat = _
  rw [start_eq idx hidx, window_eq]
  match a with
  | ⟨0, _⟩ => show (((j 0).val : Int) + ((0 : Nat) : Int)).toNat = (j 0).val; omega
  | ⟨1, _⟩ => show (((j 0).val : Int) + ((0 : Nat) : Int)).toNat = (j 0).val; omega

/-! ## The stretch -/

/-- The mask of the anchors' own columns: zero at (i, i), one elsewhere. -/
theorem v32_apply (W : Valuation τ sig (Elt Ideal)) (i : Fin 4096) (j : Fin 12288) :
    (after (opsC (F := Ideal)) W (Proc.devRef .tc main_v32) : S4096x12288.Idx → EReal) (ix2 i j) = Cert.Spec.notSelf i j := by
  have e : (after (opsC (F := Ideal)) W (Proc.devRef .tc main_v32) : S4096x12288.Idx → EReal)
      = Host.scatter dS (fun _ b => b)
          (broadcastInDim S4096x12288 ![] bcast_S_S4096x12288 (constant (F := Ideal) S_ .f32 0x3F800000#32))
          pairs
          (broadcastInDim S4096 ![] bcast_S_S4096 (constant (F := Ideal) S_ .f32 0x00000000#32)) := by
    show after opsC W (Proc.devRef .tc main_v32) = _
    after_results <;> rfl
  have hupd : (broadcastInDim S4096 ![] bcast_S_S4096 (constant (F := Ideal) S_ .f32 0x00000000#32) : S4096.Idx → EReal)
      = fun _ => (0 : EReal) := funext fun _ => Ideal.ofBits_zero_f32
  rw [e, hupd]
  unfold Cert.Spec.notSelf
  by_cases hij : i.val = j.val
  · rw [if_pos hij]
    refine scatter_const_hit (α := EReal) dS _ pairs (0 : EReal) _ ⟨ix1 i, (resultIdx_eq pairs pairs_apply (ix1 i)).trans (congrArg some ?_)⟩
    show ix2 i (Cert.Spec.anchor i) = ix2 i j
    rw [show Cert.Spec.anchor i = j from Fin.ext hij]
  · rw [if_neg hij, scatter_const_miss (α := EReal) dS _ pairs (0 : EReal) _ (fun jj h => by
      rw [resultIdx_eq pairs pairs_apply] at h
      have h' := Option.some.inj h
      have h0 : jj 0 = i := congrFun h' 0
      have h1 : Cert.Spec.anchor (jj 0) = j := congrFun h' 1
      exact hij (by rw [← h1, h0]; rfl))]
    exact Ideal.ofBits_one_f32

/-! ## What the stretch writes -/

/-- The buffers the stretch writes. -/
abbrev writtenC : List (Ref sig .tc) :=
  [main_v16, main_cst_1, main_v17, main_c, main_v18, main_v19, main_c_2, main_v20, main_v21, main_v22, main_c_3, main_v23, main_v24,
    main_c_4, main_v25, main_v26, main_v27, main_v28, main_v29, main_v30, main_cst_5, main_v31, main_v32]

/-- Every operation of the stretch writes one of them. -/
theorem writesC : (opsC (F := Ideal)).Forall fun op => op.writes ⊆ (writtenC.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)

/-- A buffer the stretch does not write keeps its contents. -/
theorem keepsC (W : Valuation τ sig (Elt Ideal)) (b : Ref sig .tc) (hb : b ∉ writtenC) :
    after (opsC (F := Ideal)) W (Proc.devRef .tc b) = W (Proc.devRef .tc b) :=
  after_of_writes_sub opsC W writesC hb

end Cert.ReferenceIdeal.RefC

end
-- ==== Proof.RefD.lean ====
/-
  The reference's operations 42 to 59, read at an index.

  From the label-match array, the similarities less their row maximum, and the off-diagonal mask, they compute for
  each anchor the mean over its positives of the log-probabilities: the positives' indicator is the product of the
  label match and the mask; the softmax denominator of a row is the sum of the masked exponentials; the
  log-probability of an entry is the shifted similarity less the logarithm of that denominator plus the guard word;
  the result is the row sum of indicator times log-probability over the row sum of the indicator. Each row sum starts
  from the zero word, which adds nothing.
-/
import proofs.«404244_j8306466750557_2_alg».proof.Proof.RefOps
import proofs.«404244_j8306466750557_2_alg».proof.Proof.Arrays
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.ReferenceIdeal.RefD

open Cert.ReferenceIdeal Cert.ReferenceIdeal.Gen Cert.ReferenceIdeal.ValueP Idealize.ShloMosaic Idealize.ShloMosaic.TcCoe
  Idealize.ShloMosaic.StableHlo Idealize.ShloMosaic.ValueIdx

/-! ### What the stretch writes -/

/-- The buffers operations 42 to 59 write. -/
abbrev writtenD : List (Ref sig .tc) :=
  [main_v33, main_v34, main_v35, main_cst_6, main_v36, main_v37, main_cst_7, main_v38, main_v39, main_v40, main_v41, main_v42,
    main_v43, main_cst_8, main_v44, main_cst_9, main_v45, main_v46]

theorem opsD_writes : (opsD : List (HloOp τ sig (Elt Ideal))).Forall fun op =>
    op.writes ⊆ (writtenD.map (Proc.devRef (τ := τ) .tc)).toFinset := by
  simp only [List.Forall]
  and_intros <;>
    (simp only [nullary_writes, unary_writes, binary_writes, ternary_writes, Finset.singleton_subset_iff, List.mem_toFinset]
     exact List.mem_map_of_mem (by decide))

/-- Every other buffer keeps its contents. -/
theorem keepsD (W : Valuation τ sig (Elt Ideal)) (b : Ref sig .tc) (hb : b ∉ writtenD) :
    after opsD W (Proc.devRef .tc b) = W (Proc.devRef .tc b) :=
  after_of_writes_sub opsD W opsD_writes hb

/-! ### The stretch's intermediate arrays, as functions of the three arrays it reads -/

section Terms

variable (v6 v15 v32 : (⟨S4096x12288, .f32⟩ : BufTy).Contents (Elt Ideal))

/-- The sum over axis 1 from the zero word. -/
abbrev rowSum (y : (⟨S4096x12288, .f32⟩ : BufTy).Contents (Elt Ideal)) : (⟨S4096, .f32⟩ : BufTy).Contents (Elt Ideal) :=
  Host.reduceAdd (F := Ideal) (φ := .f32) y (constant (F := Ideal) S_ .f32 0x00000000#32) reducesTo_S4096x12288_S4096_d1 h_S_

/-- The positives' indicator: the label match times the off-diagonal mask. -/
def t33 : (⟨S4096x12288, .f32⟩ : BufTy).Contents (Elt Ideal) := mulf (F := Ideal) (φ := .f32) v6 v32
/-- The softmax denominator of each row. -/
def t36 : (⟨S4096, .f32⟩ : BufTy).Contents (Elt Ideal) := rowSum (mulf (F := Ideal) (φ := .f32) (Host.exp (F := Ideal) (φ := .f32) v15) v32)
/-- Its logarithm, the guard word added, as a column. -/
def t40 : (⟨S4096x1, .f32⟩ : BufTy).Contents (Elt Ideal) :=
  Host.log (F := Ideal) (φ := .f32) (addf (F := Ideal) (φ := .f32) (broadcastInDim S4096x1 ![0] bcast_S4096_S4096x1_0 (t36 v15 v32))
    (broadcastInDim S4096x1 ![] bcast_S_S4096x1 (constant (F := Ideal) S_ .f32 0x2B8CBCCC#32)))
/-- The log-probabilities. -/
def t42 : (⟨S4096x12288, .f32⟩ : BufTy).Contents (Elt Ideal) :=
  subf (F := Ideal) (φ := .f32) v15 (broadcastInDim S4096x12288 ![0, 1] bcast_S4096x1_S4096x12288_0_1 (t40 v15 v32))

end Terms

set_option maxHeartbeats 2000000 in
/-- The stretch's last result as the quotient of two row sums of those arrays. -/
theorem v46_term (W : Valuation τ sig (Elt Ideal)) :
    after opsD W (Proc.devRef .tc main_v46)
      = (Host.divf (F := Ideal) (φ := .f32)
          (rowSum (mulf (F := Ideal) (φ := .f32) (t33 (W (Proc.devRef .tc main_v6)) (W (Proc.devRef .tc main_v32)))
            (t42 (W (Proc.devRef .tc main_v15)) (W (Proc.devRef .tc main_v32)))))
          (rowSum (t33 (W (Proc.devRef .tc main_v6)) (W (Proc.devRef .tc main_v32))))
          : (⟨S4096, .f32⟩ : BufTy).Contents (Elt Ideal)) := by
  after_results_simp
  rfl

/-! ### Reading them at an index -/

/-- From the zero word the sum over axis 1, at row i, is the sum of the row. -/
private theorem rowSum_read (y : (⟨S4096x12288, .f32⟩ : BufTy).Contents (Elt Ideal)) (i : Fin 4096) :
    (rowSum y : S4096.Idx → EReal) (ix1 i) = ∑ k : Fin 12288, y (ix2 i k) := by
  simp only [rowSum, Host.reduceAdd, Ideal.hostReduceAdd_def]
  rw [Ideal.hostReduceAdd_single reducesTo_S4096x12288_S4096_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- A column broadcast along the rows, read at (i, j), is the column at (i, 0); a vector made a column, read there, is the vector at i. -/
private theorem bcast_col_read (y : (⟨S4096x1, .f32⟩ : BufTy).Contents (Elt Ideal)) (i : Fin 4096) (j : Fin 12288) :
    (broadcastInDim S4096x12288 ![0, 1] bcast_S4096x1_S4096x12288_0_1 y : S4096x12288.Idx → EReal) (ix2 i j) = y (ix2 i (0 : Fin 1)) :=
  broadcastInDim_apply _ bcast_S4096x1_S4096x12288_0_1 y (ix2 i j) (ix2 i (0 : Fin 1)) (fun a => match a with
    | ⟨0, _⟩ => by show i.val = if (4096 : Nat) = 1 then 0 else i.val; rw [if_neg (by decide)]
    | ⟨1, _⟩ => by show 0 = if (1 : Nat) = 1 then 0 else j.val; rw [if_pos rfl])
private theorem bcast_vec_read (y : (⟨S4096, .f32⟩ : BufTy).Contents (Elt Ideal)) (i : Fin 4096) :
    (broadcastInDim S4096x1 ![0] bcast_S4096_S4096x1_0 y : S4096x1.Idx → EReal) (ix2 i (0 : Fin 1)) = y (ix1 i) :=
  broadcastInDim_apply _ bcast_S4096_S4096x1_0 y (ix2 i (0 : Fin 1)) (ix1 i) (fun a => match a with
    | ⟨0, _⟩ => by show i.val = if (4096 : Nat) = 1 then 0 else i.val; rw [if_neg (by decide)])

section Read

variable (lab : Fin 12288 → BitVec 32) (a : Fin 4096 → Fin 12288 → EReal)
  (v6 v15 v32 : (⟨S4096x12288, .f32⟩ : BufTy).Contents (Elt Ideal))
  (h6 : ∀ i j, v6 (ix2 i j) = Spec.sameLabel lab i j)
  (h15 : ∀ i j, v15 (ix2 i j) = a i j - Spec.rowMax a i)
  (h32 : ∀ i j, v32 (ix2 i j) = Spec.notSelf i j)

include h6 h32 in
private theorem t33_read (i : Fin 4096) (j : Fin 12288) : t33 v6 v32 (ix2 i j) = Spec.pos lab i j := by
  show v6 (ix2 i j) * v32 (ix2 i j) = _
  rw [h6, h32]; rfl

include h15 h32 in
private theorem t36_read (i : Fin 4096) : t36 v15 v32 (ix1 i) = Spec.expSum a i := by
  unfold t36
  rw [rowSum_read]
  unfold Spec.expSum
  refine Finset.sum_congr rfl fun j _ => ?_
  show Ideal.exp (v15 (ix2 i j)) * v32 (ix2 i j) = _
  rw [h15, h32]

include h15 h32 in
private theorem t40_read (i : Fin 4096) : t40 v15 v32 (ix2 i (0 : Fin 1)) = Ideal.log (Spec.expSum a i + Spec.eps) := by
  show Ideal.log ((broadcastInDim S4096x1 ![0] bcast_S4096_S4096x1_0 (t36 v15 v32) : S4096x1.Idx → EReal) (ix2 i (0 : Fin 1))
    + (broadcastInDim S4096x1 ![] bcast_S_S4096x1 (constant (F := Ideal) S_ .f32 0x2B8CBCCC#32) : S4096x1.Idx → EReal) (ix2 i (0 : Fin 1))) = _
  rw [bcast_vec_read, t36_read a v15 v32 h15 h32,
    broadcastInDim_apply _ bcast_S_S4096x1 _ (ix2 i (0 : Fin 1)) (fun a => a.elim0) (fun a => a.elim0)]
  rfl

include h15 h32 in
private theorem t42_read (i : Fin 4096) (j : Fin 12288) : t42 v15 v32 (ix2 i j) = Spec.logProb a i j := by
  show v15 (ix2 i j) - (broadcastInDim S4096x12288 ![0, 1] bcast_S4096x1_S4096x12288_0_1 (t40 v15 v32) : S4096x12288.Idx → EReal) (ix2 i j) = _
  rw [bcast_col_read, t40_read a v15 v32 h15 h32, h15]
  rfl

end Read

/-- Entry i: the mean over anchor i's positives of the log-probabilities. -/
theorem v46_apply (W : Valuation τ sig (Elt Ideal)) (lab : Fin 12288 → BitVec 32) (a : Fin 4096 → Fin 12288 → EReal)
    (h6 : ∀ i j, (W (Proc.devRef .tc main_v6) : S4096x12288.Idx → EReal) (ix2 i j) = Spec.sameLabel lab i j)
    (h15 : ∀ i j, (W (Proc.devRef .tc main_v15) : S4096x12288.Idx → EReal) (ix2 i j) = a i j - Spec.rowMax a i)
    (h32 : ∀ i j, (W (Proc.devRef .tc main_v32) : S4096x12288.Idx → EReal) (ix2 i j) = Spec.notSelf i j) (i : Fin 4096) :
    (after opsD W (Proc.devRef .tc main_v46) : S4096.Idx → EReal) (ix1 i) = Spec.meanLogProb lab a i := by
  rw [v46_term]
  show Ideal.div ((rowSum _ : S4096.Idx → EReal) (ix1 i)) ((rowSum _ : S4096.Idx → EReal) (ix1 i)) = _
  rw [rowSum_read, rowSum_read]
  unfold Spec.meanLogProb Spec.posCount
  congr 1
  · refine Finset.sum_congr rfl fun j _ => ?_
    show t33 _ _ (ix2 i j) * t42 _ _ (ix2 i j) = _
    rw [t33_read lab _ _ h6 h32, t42_read a _ _ h15 h32]
  · exact Finset.sum_congr rfl fun j _ => t33_read lab _ _ h6 h32 i j

end Cert.ReferenceIdeal.RefD

end
-- ==== Proof.RefE.lean ====
/-
  The reference's weighted mean of the anchors' mean log-probabilities, read at its one index, over the extended
  reals.

  This stretch of the reference cuts the anchors' labels off the label array and turns each into a position in the
  table of per-class weights: a negative position would be moved up by the table's length, and a label that is a
  class number below 1000 is not negative, so it is kept and names its own entry of the table. The stretch takes the
  weight at that position, multiplies minus one times the anchor's mean log-probability by it, sums the 4096
  products from zero, and divides the sum by the batch size. The statement is over arbitrary contents before the
  stretch; the mean log-probabilities are whatever the contents hold for them.
-/
import proofs.«404244_j8306466750557_2_alg».proof.Proof.RefOps
import proofs.«404244_j8306466750557_2_alg».proof.Proof.Arrays
import Idealize.ShloMosaic.Lib.StableHlo.Run
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.IdealHost

noncomputable section

namespace Cert.ReferenceIdeal.RefE

open Cert.ReferenceIdeal Cert.ReferenceIdeal.Gen Cert.ReferenceIdeal.ValueP Idealize.ShloMosaic Idealize.ShloMosaic.StableHlo
  Idealize.ShloMosaic.ValueIdx

/-! ## Small reads -/

/-- The two spellings of the rank-1 index at a coordinate agree. -/
theorem ix1_eq_ofFin {n : Nat} (p : Fin n) : ix1 p = Shape.Idx.ofFin p := by
  funext a
  match a with
  | ⟨0, _⟩ => exact Fin.ext rfl

/-- A sum over a rank-1 index set is the sum over its coordinate. -/
theorem sum_rank1 {M : Type*} [AddCommMonoid M] {n : Nat} (f : (⟨1, ![n]⟩ : Shape).Idx → M) :
    ∑ j, f j = ∑ p : Fin n, f (ix1 p) :=
  (Equiv.sum_comp (idxEquiv1 (n := n)).symm f).symm

/-- Entry p of the leading 4096 labels is the label of anchor p. -/
theorem head_label (a4 : S12288.Idx → BitVec 32) (p : Fin 4096) :
    extractStridedSlice S4096 ![0] a4 slices_S12288_S4096_0 (Shape.Idx.ofFin p) = a4 (ix1 (Cert.Spec.anchor p)) :=
  extractStridedSlice_apply ![0] a4 slices_S12288_S4096_0 _ _ (fun a => match a with
    | ⟨0, _⟩ => (Nat.zero_add _).symm)

/-- A class number below 1000, as a signed word, is not negative. -/
theorem class_not_neg (c : Fin 1000) : IntOp.cmpi .slt (BitVec.ofNat 32 c.val) 0#32 = 0#1 := by
  have hc := c.isLt
  refine eq_zero_of_ne_one fun h => ?_
  have h' := (StableHlo.Predicate.slt_iff_toNat (a := BitVec.ofNat 32 c.val) (b := 0#32)
    (by rw [BitVec.toNat_ofNat]; omega) (by decide)).mp h
  exact absurd h' (by simp)

/-- THE WEIGHT TAKE at anchor p: where the anchor's label is the class number c, the take reads the table at c. -/
theorem take_at (tab : S1000.Idx → EReal) (a4 : S12288.Idx → BitVec 32) (p : Fin 4096) (c : Fin 1000)
    (hlab : a4 (ix1 (Cert.Spec.anchor p)) = BitVec.ofNat 32 c.val) :
    Host.gather gather_S1000_S4096x1_S4096_n_0_n_n_0_1_1 tab
        (broadcastInDim S4096x1 ![0] bcast_S4096_S4096x1_0
          (select (cmpi .slt (extractStridedSlice S4096 ![0] a4 slices_S12288_S4096_0) (broadcastInDim S4096 ![] bcast_S_S4096 (constantI S_ 32 0#32)))
            (addi (extractStridedSlice S4096 ![0] a4 slices_S12288_S4096_0) (broadcastInDim S4096 ![] bcast_S_S4096 (constantI S_ 32 1000#32)))
            (extractStridedSlice S4096 ![0] a4 slices_S12288_S4096_0))) (ix1 p)
      = tab (ix1 c) := by
  have hc := c.isLt
  -- the start index of anchor p is its class number: the select keeps a label that is not negative
  have hstart : (broadcastInDim S4096x1 ![0] bcast_S4096_S4096x1_0
          (select (cmpi .slt (extractStridedSlice S4096 ![0] a4 slices_S12288_S4096_0) (broadcastInDim S4096 ![] bcast_S_S4096 (constantI S_ 32 0#32)))
            (addi (extractStridedSlice S4096 ![0] a4 slices_S12288_S4096_0) (broadcastInDim S4096 ![] bcast_S_S4096 (constantI S_ 32 1000#32)))
            (extractStridedSlice S4096 ![0] a4 slices_S12288_S4096_0))) (StableHlo.Predicate.ixP p) = BitVec.ofNat 32 c.val := by
    rw [StableHlo.Predicate.bcast_col1]
    show Scalar.select (IntOp.cmpi .slt (extractStridedSlice S4096 ![0] a4 slices_S12288_S4096_0 (Shape.Idx.ofFin p)) 0#32) _
      (extractStridedSlice S4096 ![0] a4 slices_S12288_S4096_0 (Shape.Idx.ofFin p)) = _
    rw [head_label, hlab, class_not_neg, select_zero]
  rw [ix1_eq_ofFin p, StableHlo.Predicate.gather_take _ rfl rfl rfl rfl _ _ p (by decide), ix1_eq_ofFin c]
  refine congrArg tab (congrArg Shape.Idx.ofFin (Fin.ext ?_))
  show min _ (1000 - 1) = c.val
  rw [hstart, StableHlo.Predicate.toInt_ofNat_small c.val (by omega), Int.toNat_natCast]
  omega

/-! ## The stretch -/

/-- The weighted mean: minus one times each anchor's mean log-probability, times the anchor's weight, summed over
    the 4096 anchors from zero and divided by the batch size. -/
theorem v59_apply (W : Valuation τ sig (Elt Ideal)) (cls : Fin 4096 → Fin 1000)
    (hcls : Cert.Arrays.ClassesOf (W (Proc.devRef .tc main_arg4)) cls) (mlp : Fin 4096 → EReal)
    (h46 : ∀ i, (W (Proc.devRef .tc main_v46) : S4096.Idx → EReal) (ix1 i) = mlp i) :
    (after (opsE (F := Ideal)) W (Proc.devRef .tc main_v59) : S_.Idx → EReal) ix0
      = Ideal.div (∑ i : Fin 4096, (Cert.Spec.negOne * mlp i) * Cert.Arrays.rewOf (W (Proc.devRef .tc main_arg3)) cls i)
          Cert.Spec.count := by
  have e : (after (opsE (F := Ideal)) W (Proc.devRef .tc main_v59) : S_.Idx → EReal)
      = Host.divf
          (Host.reduceAdd
            (mulf
              (mulf (broadcastInDim S4096 ![] bcast_S_S4096 (constant (F := Ideal) S_ .f32 0xBF800000#32))
                (W (Proc.devRef .tc main_v46) : S4096.Idx → EReal))
              (Host.gather gather_S1000_S4096x1_S4096_n_0_n_n_0_1_1 (W (Proc.devRef .tc main_arg3) : S1000.Idx → EReal)
                (broadcastInDim S4096x1 ![0] bcast_S4096_S4096x1_0
          (select (cmpi .slt (extractStridedSlice S4096 ![0] (W (Proc.devRef .tc main_arg4) : S12288.Idx → BitVec 32) slices_S12288_S4096_0) (broadcastInDim S4096 ![] bcast_S_S4096 (constantI S_ 32 0#32)))
            (addi (extractStridedSlice S4096 ![0] (W (Proc.devRef .tc main_arg4) : S12288.Idx → BitVec 32) slices_S12288_S4096_0) (broadcastInDim S4096 ![] bcast_S_S4096 (constantI S_ 32 1000#32)))
            (extractStridedSlice S4096 ![0] (W (Proc.devRef .tc main_arg4) : S12288.Idx → BitVec 32) slices_S12288_S4096_0)))))
            (constant (F := Ideal) S_ .f32 0x00000000#32) reducesTo_S4096_S_d0 h_S_)
          (constant (F := Ideal) S_ .f32 0x45800000#32) := by
    show after opsE W (Proc.devRef .tc main_v59) = _
    after_results <;> rfl
  rw [e, hostDivf_apply, hostReduceAdd_apply, Ideal.hostReduceAdd_total _ (fun b => b.elim0), constant_apply, constant_apply,
    Ideal.ofBits_zero_f32, zero_add, sum_rank1]
  refine congrArg (fun s => Ideal.div s _) (Finset.sum_congr rfl fun i _ => ?_)
  rw [mulf_apply, mulf_apply, take_at _ _ i (cls i) (hcls i), h46 i]
  rfl

/-! ## What the stretch writes -/

/-- The buffers the stretch writes. -/
abbrev writtenE : List (Ref sig .tc) :=
  [main_v47, main_c_10, main_v48, main_v49, main_c_11, main_v50, main_v51, main_v52, main_v53, main_v54, main_cst_12, main_v55,
    main_v56, main_v57, main_cst_13, main_v58, main_cst_14, main_v59]

/-- Every operation of the stretch writes one of them. -/
theorem writesE : (opsE (F := Ideal)).Forall fun op => op.writes ⊆ (writtenE.map (Proc.devRef (τ := τ) .tc)).toFinset := by
  simp only [List.Forall]
  repeat' apply And.intro
  all_goals
    simp only [nullary_writes, unary_writes, binary_writes, ternary_writes, Finset.singleton_subset_iff, List.mem_toFinset]
    exact List.mem_map_of_mem (by decide)

/-- A buffer the stretch does not write keeps its contents. -/
theorem keepsE (W : Valuation τ sig (Elt Ideal)) (b : Ref sig .tc) (hb : b ∉ writtenE) :
    after (opsE (F := Ideal)) W (Proc.devRef .tc b) = W (Proc.devRef .tc b) :=
  after_of_writes_sub opsE W writesE hb

end Cert.ReferenceIdeal.RefE

end
-- ==== Proof.RefF.lean ====
/-
  The log-softmax stretch of the reference: the class logits plus the per-class offset (one row, laid over all rows),
  then, row by row, the largest entry (a maximum folded from minus infinity, and once more against minus infinity,
  which changes nothing), the entries less that maximum, their exponentials summed from zero, the logarithm of the
  sum, and the shifted entries less that logarithm. Read at an index this is the specification's log-probability.
-/
import proofs.«404244_j8306466750557_2_alg».proof.Proof.RefOps
import proofs.«404244_j8306466750557_2_alg».proof.Proof.Arrays
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.IdealHost

noncomputable section

namespace Cert.ReferenceIdeal.RefF

open Cert.ReferenceIdeal Cert.ReferenceIdeal.Gen Cert.ReferenceIdeal.ValueP Idealize.ShloMosaic Idealize.ShloMosaic.StableHlo Idealize.ShloMosaic.ValueIdx

/-! ## What the stretch writes -/

/-- The references the stretch's operations write. -/
abbrev writtenF : List (Ref sig .tc) :=
  [main_v60, main_v61, main_call0_cst, main_call0_v0, main_call0_cst_0, main_call0_v1, main_call0_v2, main_call0_v3,
    main_call0_v4, main_call0_v5, main_call0_v6, main_call0_cst_1, main_call0_v7, main_call0_v8, main_call0_v9,
    main_call0_v10, main_v62]

theorem writesF : (opsF : List (HloOp τ sig (Elt Ideal))).Forall fun op =>
    op.writes ⊆ (writtenF.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A reference the stretch does not write keeps its contents. -/
theorem keepsF (W : Valuation τ sig (Elt Ideal)) (b : Ref sig .tc) (hb : b ∉ writtenF) :
    after opsF W (Proc.devRef .tc b) = W (Proc.devRef .tc b) :=
  after_of_writes_sub opsF _ writesF hb

/-! ## Broadcasts read at an index -/

/-- A vector kept as a column by a broadcast reads, at row `p`, the vector at `p`. -/
theorem bcast_vec_col_apply {α : Type} {n : ℕ} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) :=
  broadcastInDim_apply _ h v _ _ (fun a => by
    match a with
    | ⟨0, _⟩ =>
      show p.val = if n = 1 then 0 else p.val
      split
      · have := p.isLt; omega
      · rfl)

/-- A column laid along the rows of a rectangle reads, at `(p, q)`, the column at row `p`. -/
theorem bcast_col_apply {α : Type} {n m : ℕ} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p (0 : Fin 1)) :=
  broadcastInDim_apply _ h v _ _ (fun a => by
    match a with
    | ⟨0, _⟩ =>
      show p.val = if n = 1 then 0 else p.val
      split
      · have := p.isLt; omega
      · rfl
    | ⟨1, _⟩ =>
      show 0 = if (1 : ℕ) = 1 then 0 else q.val
      rw [if_pos rfl])

/-- One row laid over the rows of a rectangle reads, at `(p, q)`, the row at `q`. -/
theorem bcast_row_apply {α : Type} {n m : ℕ} (h : (⟨2, ![1, m]⟩ : Shape).BroadcastsInDim ⟨2, ![n, m]⟩ ![0, 1])
    (v : (⟨2, ![1, m]⟩ : Shape).Idx → α) (p : Fin n) (q : Fin m) :
    broadcastInDim ⟨2, ![n, m]⟩ ![0, 1] h v (ix2 p q) = v (ix2 (0 : Fin 1) q) :=
  broadcastInDim_apply _ h v _ _ (fun a => by
    match a with
    | ⟨0, _⟩ =>
      show 0 = if (1 : ℕ) = 1 then 0 else p.val
      rw [if_pos rfl]
    | ⟨1, _⟩ =>
      show q.val = if m = 1 then 0 else q.val
      split
      · have := q.isLt; omega
      · rfl)

/-! ## A row's maximum and a row's sum -/

/-- A fold of `max` from the bottom element is the supremum. -/
theorem fold_max_bot_eq_sup {ι : Type} (s : Finset ι) (f : ι → EReal) : s.fold max ⊥ f = s.sup f := by
  apply le_antisymm
  · rw [Finset.fold_max_le]
    exact ⟨bot_le, fun x hx => Finset.le_sup hx⟩
  · exact Finset.sup_le fun x hx => (Finset.le_fold_max _).mpr (Or.inr ⟨x, hx, le_rfl⟩)

/-- The word of minus infinity is the bottom element. -/
theorem ofBits_neg_inf_f32 : Ideal.ofBits .f32 0xFF800000#32 = (⊥ : EReal) := by simp [Ideal.ofBits, Ideal.ieee]

/-- The host's maximum over the columns, folded from minus infinity, is at row `i` the supremum of the row. -/
theorem rowmax_apply (z : FVec Ideal S4096x1000 .f32) (i : Fin 4096) :
    Host.reduce FloatOps.maximumf z (constant (F := Ideal) S_ .f32 0xFF800000#32) reducesTo_S4096x1000_S4096_d1 h_S_ (ix1 i)
      = Finset.univ.sup fun k : Fin 1000 => z (ix2 i k) := by
  have h : S4096x1000.Reduces [1] S4096 := by decide
  rw [Host.reduce_eq_fold_single FloatOps.maximumf z _ reducesTo_S4096x1000_S4096_d1 h h_S_]
  have hf : (z ∘ h.lift (ix1 i)) = fun k : Fin 1000 => z (ix2 i k) := by
    funext k
    exact congrArg z (funext fun a => Fin.ext (by match a with | ⟨0, _⟩ => rfl | ⟨1, _⟩ => rfl))
  rw [hf]
  show Finset.fold max (Ideal.ofBits .f32 0xFF800000#32) (fun k : Fin 1000 => z (ix2 i k)) Finset.univ = _
  rw [ofBits_neg_inf_f32, fold_max_bot_eq_sup]

/-- The host's sum over the columns, from the zero word, is at row `i` the sum of the row. -/
theorem rowsum_apply (y : FVec Ideal S4096x1000 .f32) (i : Fin 4096) :
    Host.reduceAdd y (constant (F := Ideal) S_ .f32 0x00000000#32) reducesTo_S4096x1000_S4096_d1 h_S_ (ix1 i)
      = ∑ k : Fin 1000, y (ix2 i k) := by
  have h : S4096x1000.Reduces [1] S4096 := by decide
  rw [hostReduceAdd_apply, Ideal.hostReduceAdd_single reducesTo_S4096x1000_S4096_d1 h, constant_apply, Ideal.ofBits_zero_f32,
    zero_add]
  refine Finset.sum_congr rfl fun k _ => ?_
  exact congrArg y (funext fun a => Fin.ext (by match a with | ⟨0, _⟩ => rfl | ⟨1, _⟩ => rfl))

/-! ## The log-softmax of the offset logits, read at an index -/

/-- The host's exponential and logarithm at an index are the extended reals' of the element. -/
theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl

/-- The stretch's composed term over the two argument arrays it reads, read at `(i, k)`: the log-probability of class
    `k` in row `i`. -/
theorem logp_read (s : FVec Ideal S4096x1000 .f32) (w : FVec Ideal S1x1000 .f32) (i : Fin 4096) (k : Fin 1000) :
    subf
        (subf (addf s (broadcastInDim S4096x1000 ![0, 1] bcast_S1x1000_S4096x1000_0_1 w))
          (broadcastInDim S4096x1000 ![0, 1] bcast_S4096x1_S4096x1000_0_1
            (broadcastInDim S4096x1 ![0] bcast_S4096_S4096x1_0
              (maximumf (broadcastInDim S4096 ![] bcast_S_S4096 (constant (F := Ideal) S_ .f32 0xFF800000#32))
                (Host.reduce FloatOps.maximumf (addf s (broadcastInDim S4096x1000 ![0, 1] bcast_S1x1000_S4096x1000_0_1 w))
                  (constant (F := Ideal) S_ .f32 0xFF800000#32) reducesTo_S4096x1000_S4096_d1 h_S_)))))
        (broadcastInDim S4096x1000 ![0, 1] bcast_S4096x1_S4096x1000_0_1
          (Host.log
            (broadcastInDim S4096x1 ![0] bcast_S4096_S4096x1_0
              (Host.reduceAdd
                (Host.exp
                  (subf (addf s (broadcastInDim S4096x1000 ![0, 1] bcast_S1x1000_S4096x1000_0_1 w))
                    (broadcastInDim S4096x1000 ![0, 1] bcast_S4096x1_S4096x1000_0_1
                      (broadcastInDim S4096x1 ![0] bcast_S4096_S4096x1_0
                        (maximumf (broadcastInDim S4096 ![] bcast_S_S4096 (constant (F := Ideal) S_ .f32 0xFF800000#32))
                          (Host.reduce FloatOps.maximumf (addf s (broadcastInDim S4096x1000 ![0, 1] bcast_S1x1000_S4096x1000_0_1 w))
                            (constant (F := Ideal) S_ .f32 0xFF800000#32) reducesTo_S4096x1000_S4096_d1 h_S_))))))
                (constant (F := Ideal) S_ .f32 0x00000000#32) reducesTo_S4096x1000_S4096_d1 h_S_))))
        (ix2 i k)
      = Cert.Spec.logp (Cert.Arrays.supOf s) (Cert.Arrays.wOf w) i k := by
  -- the offset logits, and each row's maximum
  set z : FVec Ideal S4096x1000 .f32 := addf s (broadcastInDim S4096x1000 ![0, 1] bcast_S1x1000_S4096x1000_0_1 w) with hz
  have hzl : ∀ (i : Fin 4096) (k : Fin 1000), z (ix2 i k) = Cert.Spec.logit (Cert.Arrays.supOf s) (Cert.Arrays.wOf w) i k := by
    intro i k
    rw [hz, addf_apply, bcast_row_apply]
    rfl
  set mx : FVec Ideal S4096 .f32 :=
    maximumf (broadcastInDim S4096 ![] bcast_S_S4096 (constant (F := Ideal) S_ .f32 0xFF800000#32))
      (Host.reduce FloatOps.maximumf z (constant (F := Ideal) S_ .f32 0xFF800000#32) reducesTo_S4096x1000_S4096_d1 h_S_) with hmx
  have hmxl : ∀ i : Fin 4096, mx (ix1 i) = Cert.Spec.logitMax (Cert.Arrays.supOf s) (Cert.Arrays.wOf w) i := by
    intro i
    rw [hmx, maximumf_apply, broadcastInDim_scalar_apply, constant_apply, ofBits_neg_inf_f32, rowmax_apply, max_eq_right bot_le]
    unfold Cert.Spec.logitMax
    exact congrArg _ (funext fun k => hzl i k)
  -- the shifted logits
  set sh : FVec Ideal S4096x1000 .f32 :=
    subf z (broadcastInDim S4096x1000 ![0, 1] bcast_S4096x1_S4096x1000_0_1 (broadcastInDim S4096x1 ![0] bcast_S4096_S4096x1_0 mx)) with hsh
  have hshl : ∀ (i : Fin 4096) (k : Fin 1000), sh (ix2 i k) = Cert.Spec.shifted (Cert.Arrays.supOf s) (Cert.Arrays.wOf w) i k := by
    intro i k
    rw [hsh, subf_apply, bcast_col_apply, bcast_vec_col_apply, hzl, hmxl]
    rfl
  -- the logarithm of the row's sum of exponentials, and the result
  rw [subf_apply, bcast_col_apply, hostLog_apply, bcast_vec_col_apply, rowsum_apply, hshl]
  unfold Cert.Spec.logp Cert.Spec.lse
  refine congrArg (fun t => _ - Ideal.log t) (Finset.sum_congr rfl fun k' _ => ?_)
  rw [hostExp_apply, hshl]

/-! ## The stretch's result -/

/-- Contents carried to a typed reference's buffer and read back are the contents. -/
theorem ofBuf_toBuf {T : BufTy} (x : TRef sig T) (v : T.Contents (Elt Ideal)) : x.ofBuf (x.toBuf v) = v := by
  obtain ⟨r, h, od, us⟩ := x
  subst h
  rfl

set_option maxRecDepth 20000 in
theorem v62_apply (W : Valuation τ sig (Elt Ideal)) (i : Fin 4096) (k : Fin 1000) :
    (after opsF W (Proc.devRef .tc main_v62) : S4096x1000.Idx → EReal) (ix2 i k)
      = Cert.Spec.logp (Cert.Arrays.supOf (W (Proc.devRef .tc main_arg1))) (Cert.Arrays.wOf (W (Proc.devRef .tc main_arg2))) i k := by
  refine Eq.trans ?_ (logp_read (W (Proc.devRef .tc main_arg1)) (W (Proc.devRef .tc main_arg2)) i k)
  refine congrFun ?_ (ix2 i k)
  show after opsF W (Proc.devRef .tc main_v62) = _
  after_results
  simp only [ofBuf_toBuf]
  rfl

end Cert.ReferenceIdeal.RefF

end
-- ==== Proof.RefG.lean ====
/-
  The take-along-the-class-axis stretch of the reference: each anchor's log-probability at its own class. The
  anchors' labels are cut off the label vector and kept as a column; a negative label would be moved up by 1000 (a
  class number is not negative and is kept); the column is given a trailing unit axis and tested for lying in
  0 … 999 (a class number does); the row-wise take reads row i of the log-probabilities at the start index of row i,
  clamped into the row (a class number is its own position); where the test failed the result would be the
  not-a-number word, and it does not fail. So the result at row i is the log-probability of row i at its class.
-/
import proofs.«404244_j8306466750557_2_alg».proof.Proof.RefOps
import proofs.«404244_j8306466750557_2_alg».proof.Proof.Arrays
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.IdealHost

noncomputable section

namespace Cert.ReferenceIdeal.RefG

open Cert.ReferenceIdeal Cert.ReferenceIdeal.Gen Cert.ReferenceIdeal.ValueP Idealize.ShloMosaic Idealize.ShloMosaic.StableHlo Idealize.ShloMosaic.ValueIdx

/-! ## What the stretch writes -/

/-- The references the stretch's operations write. -/
abbrev writtenG : List (Ref sig .tc) :=
  [main_v63, main_v64, main_call1_c, main_call1_v0, main_call1_v1, main_call1_c_0, main_call1_v2, main_call1_v3, main_call1_v4,
    main_call1_v5, main_call1_c_1, main_call1_c_2, main_call1_v6, main_call1_v7, main_call1_v8, main_call1_v9, main_call1_v10,
    main_call1_v11, main_call1_c_3, main_call1_v12, main_call1_v13, main_call1_cst, main_call1_v14, main_v65]

theorem writesG : (opsG : List (HloOp τ sig (Elt Ideal))).Forall fun op =>
    op.writes ⊆ (writtenG.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A reference the stretch does not write keeps its contents. -/
theorem keepsG (W : Valuation τ sig (Elt Ideal)) (b : Ref sig .tc) (hb : b ∉ writtenG) :
    after opsG W (Proc.devRef .tc b) = W (Proc.devRef .tc b) :=
  after_of_writes_sub opsG _ writesG hb

/-! ## Layout operations read at an index -/

/-- A vector kept as a column by a broadcast reads, at row `p`, the vector at `p`. -/
theorem bcast_vec_col_apply {α : Type} {n : ℕ} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) :=
  broadcastInDim_apply _ h v _ _ (fun a => by
    match a with
    | ⟨0, _⟩ =>
      show p.val = if n = 1 then 0 else p.val
      split
      · have := p.isLt; omega
      · rfl)

/-- The leading stretch of a vector reads, at `i`, the vector at the same position. -/
theorem slice1_head_apply {α : Type} {n m : ℕ} (x : (⟨1, ![n]⟩ : Shape).Idx → α)
    (h : (⟨1, ![n]⟩ : Shape).Slices ![0] ⟨1, ![m]⟩) (i : Fin m) (k : Fin n) (hk : k.val = i.val) :
    extractStridedSlice ⟨1, ![m]⟩ ![0] x h (ix1 i) = x (ix1 k) :=
  extractStridedSlice_apply _ _ _ _ _ (fun ax => by
    match ax with
    | ⟨0, _⟩ => exact hk.trans (Nat.zero_add _).symm)

/-- A column given a trailing unit axis reads, at `(i, 0, 0)`, the column at row `i`. -/
theorem shapeCast_a1_a11_apply {α : Type} {a : ℕ} (x : (⟨2, ![a, 1]⟩ : Shape).Idx → α)
    (h : (⟨2, ![a, 1]⟩ : Shape).ShapeCasts ⟨3, ![a, 1, 1]⟩) (i : Fin a) :
    shapeCast ⟨3, ![a, 1, 1]⟩ x h (ix3 i (0 : Fin 1) (0 : Fin 1)) = x (ix2 i (0 : Fin 1)) :=
  shapeCast_apply x h _ _ (by
    rw [Shape.rowMajor_val_three, Shape.rowMajor_val_two]
    show i.val * 1 + 0 = (i.val * 1 + 0) * 1 + 0
    omega)

/-- Contents carried to a typed reference's buffer and read back are the contents. -/
theorem ofBuf_toBuf {T : BufTy} (x : TRef sig T) (v : T.Contents (Elt Ideal)) : x.ofBuf (x.toBuf v) = v := by
  obtain ⟨r, h, od, us⟩ := x
  subst h
  rfl

/-! ## The row-wise take and the range test -/

/-- The row-wise take: row `i` of the table at the start index of row `i`, read signed and clamped into the row. -/
theorem gather_row_take (x : FVec Ideal S4096x1000 .f32) (idx : IVec S4096x1x1 32) (i : Fin 4096) :
    Host.gather gather_S4096x1000_S4096x1x1_S4096x1_n_1_0_0_1_2_11 x idx (ix2 i 0)
      = x (ix2 i ⟨min (idx (ix3 i 0 0)).toInt.toNat (1000 - 1), by omega⟩) := by
  unfold Host.gather
  refine congrArg x (funext fun a => Fin.ext ?_)
  match a with
  | ⟨0, _⟩ =>
    -- the batching axis: the row
    show gather_S4096x1000_S4096x1x1_S4096x1_n_1_0_0_1_2_11.start (ix2 i 0) idx 0
        + gather_S4096x1000_S4096x1x1_S4096x1_n_1_0_0_1_2_11.batchCoord (ix2 i 0) 0
        + gather_S4096x1000_S4096x1x1_S4096x1_n_1_0_0_1_2_11.offCoord (ix2 i 0) 0 = i.val
    rw [GatherDims.start_batching _ _ _ _ (by decide), GatherDims.offCoord_eq_zero _ _ _ (by decide), Nat.zero_add, Nat.add_zero]
    unfold GatherDims.batchCoord
    rw [dif_pos (by decide)]
    rfl
  | ⟨1, _⟩ =>
    -- the collapsed, start-indexed axis: the clamped start index
    show gather_S4096x1000_S4096x1x1_S4096x1_n_1_0_0_1_2_11.start (ix2 i 0) idx 1
        + gather_S4096x1000_S4096x1x1_S4096x1_n_1_0_0_1_2_11.batchCoord (ix2 i 0) 1
        + gather_S4096x1000_S4096x1x1_S4096x1_n_1_0_0_1_2_11.offCoord (ix2 i 0) 1 = min (idx (ix3 i 0 0)).toInt.toNat (1000 - 1)
    rw [GatherDims.batchCoord_eq_zero _ _ _ (by decide), GatherDims.offCoord_eq_zero _ _ _ (by decide)]
    simp only [Nat.add_zero]
    unfold GatherDims.start
    rw [dif_pos (by decide)]
    have hsi : gather_S4096x1000_S4096x1x1_S4096x1_n_1_0_0_1_2_11.siIdx (ix2 i 0)
        ⟨List.idxOf (1 : Fin 2) gather_S4096x1000_S4096x1x1_S4096x1_n_1_0_0_1_2_11.startIndexMap,
          List.idxOf_lt_length_iff.2 (by decide)⟩ = ix3 i 0 0 := by
      funext b
      refine Fin.ext ?_
      match b with
      | ⟨0, _⟩ => rfl
      | ⟨1, _⟩ => rfl
      | ⟨2, _⟩ => rfl
    rw [hsi]
    rfl

/-- A fold over the one-element range is one application. -/
theorem fold_univ_fin_one {α : Type} (op : α → α → α) [Std.Commutative op] [Std.Associative op] (b : α) (f : Fin 1 → α) :
    Finset.fold op b f Finset.univ = op (f 0) b := by
  rw [Finset.univ_unique, Finset.fold_singleton]
  rfl

/-- An `and` over a unit axis, from the bit one, is the one entry. -/
theorem reduce_andi_unit (p : IVec S4096x1x1 1) (i : Fin 4096) :
    Host.reduce IntOp.andi p (constantI S_ 1 1#1) reducesTo_S4096x1x1_S4096x1_d2 h_S_ (ix2 i 0) = p (ix3 i 0 0) := by
  have h : S4096x1x1.Reduces [2] S4096x1 := by decide
  rw [Host.reduce_eq_fold_single IntOp.andi p _ reducesTo_S4096x1x1_S4096x1_d2 h h_S_]
  refine (fold_univ_fin_one IntOp.andi _ (p ∘ h.lift (ix2 i 0))).trans ?_
  have hl : h.lift (ix2 i 0) (0 : Fin 1) = ix3 i 0 0 := by
    funext b
    refine Fin.ext ?_
    match b with
    | ⟨0, _⟩ => rfl
    | ⟨1, _⟩ => rfl
    | ⟨2, _⟩ => rfl
  show IntOp.andi (p (h.lift (ix2 i 0) (0 : Fin 1))) 1#1 = _
  rw [hl]
  rcases BitVec.eq_zero_or_eq_one (p (ix3 i 0 0)) with h0 | h1
  · rw [h0]; rfl
  · rw [h1]; rfl

/-! ## The take along the class axis at a label that is a class number -/

/-- The start index: the label, moved up by 1000 where it is negative; a class number is kept. -/
theorem wrapped_label (L : IVec S4096x1 32) (i : Fin 4096) (c : Fin 1000) (hL : L (ix2 i 0) = BitVec.ofNat 32 c.val) :
    shapeCast S4096x1x1
        (select (cmpi .slt L (broadcastInDim S4096x1 ![] bcast_S_S4096x1 (constantI S_ 32 0#32)))
          (addi L (broadcastInDim S4096x1 ![] bcast_S_S4096x1 (constantI S_ 32 1000#32))) L)
        shapeCasts_S4096x1_S4096x1x1 (ix3 i 0 0)
      = BitVec.ofNat 32 c.val := by
  have hc := c.isLt
  have hneg : IntOp.cmpi .slt (BitVec.ofNat 32 c.val) 0#32 = 0#1 := by
    refine eq_zero_of_ne_one fun h => ?_
    have := (StableHlo.Predicate.slt_iff_toNat (a := BitVec.ofNat 32 c.val) (b := 0#32)
      (by rw [BitVec.toNat_ofNat]; omega) (by decide)).mp h
    simp at this
  rw [shapeCast_a1_a11_apply]
  show Scalar.select (IntOp.cmpi .slt (L (ix2 i 0)) 0#32) _ (L (ix2 i 0)) = _
  rw [hL, hneg, select_zero]

/-- With the start index a class number `c`: the range test `0 ≤ · ≤ 999` holds, so the select takes the gathered value,
    and the gather reads row `i` of the table at `c`. -/
theorem take_row_of (lp : FVec Ideal S4096x1000 .f32) (V : IVec S4096x1x1 32) (i : Fin 4096) (c : Fin 1000)
    (hV : V (ix3 i 0 0) = BitVec.ofNat 32 c.val) :
    select
        (Host.reduce IntOp.andi
          (andi (cmpi .sge V (broadcastInDim S4096x1x1 ![] bcast_S_S4096x1x1 (constantI S_ 32 0#32)))
            (cmpi .sle V
              (broadcastInDim S4096x1x1 ![0, 1, 2] bcast_S1x1x1_S4096x1x1_0_1_2
                (broadcastInDim S1x1x1 ![2] bcast_S1_S1x1x1_2 (constantI S1 32 999#32)))))
          (constantI S_ 1 1#1) reducesTo_S4096x1x1_S4096x1_d2 h_S_)
        (Host.gather gather_S4096x1000_S4096x1x1_S4096x1_n_1_0_0_1_2_11 lp V)
        (broadcastInDim S4096x1 ![] bcast_S_S4096x1 (constant (F := Ideal) S_ .f32 0x7FC00000#32))
        (ix2 i 0)
      = lp (ix2 i c) := by
  have hc := c.isLt
  have hn : (BitVec.ofNat 32 c.val).toNat = c.val := by rw [BitVec.toNat_ofNat]; omega
  have hge : IntOp.cmpi .sge (BitVec.ofNat 32 c.val) 0#32 = 1#1 :=
    (StableHlo.Predicate.sge_iff_toNat (a := BitVec.ofNat 32 c.val) (b := 0#32) (by omega) (by decide)).mpr (by simp)
  have hle : IntOp.cmpi .sle (BitVec.ofNat 32 c.val) 999#32 = 1#1 :=
    (StableHlo.Predicate.sle_iff_toNat (a := BitVec.ofNat 32 c.val) (b := 999#32) (by omega) (by decide)).mpr (by
      rw [hn]; show c.val ≤ 999; omega)
  rw [select_apply, reduce_andi_unit]
  show Scalar.select (IntOp.andi (IntOp.cmpi .sge (V (ix3 i 0 0)) 0#32) (IntOp.cmpi .sle (V (ix3 i 0 0)) 999#32)) _ _ = _
  rw [hV, hge, hle, show IntOp.andi 1#1 1#1 = 1#1 from rfl, select_one, gather_row_take]
  refine congrArg lp (congrArg (ix2 i) (Fin.ext ?_))
  change min _ (1000 - 1) = c.val
  rw [hV, StableHlo.Predicate.toInt_ofNat_small c.val (by omega), Int.toNat_natCast]
  omega

/-! ## The stretch's result -/

set_option maxRecDepth 20000 in
set_option maxHeartbeats 4000000 in
theorem v65_apply (W : Valuation τ sig (Elt Ideal)) (cls : Fin 4096 → Fin 1000)
    (hcls : Cert.Arrays.ClassesOf (W (Proc.devRef .tc main_arg4)) cls) (lp : Fin 4096 → Fin 1000 → EReal)
    (h62 : ∀ i k, (W (Proc.devRef .tc main_v62) : S4096x1000.Idx → EReal) (ix2 i k) = lp i k) (i : Fin 4096) :
    (after opsG W (Proc.devRef .tc main_v65) : S4096x1.Idx → EReal) (ix2 i 0) = lp i (cls i) := by
  -- the anchors' labels as a column, and the start indices made of them
  set L : IVec S4096x1 32 := broadcastInDim S4096x1 ![0] bcast_S4096_S4096x1_0
    (extractStridedSlice S4096 ![0] (W (Proc.devRef .tc main_arg4) : S12288.Idx → BitVec 32) slices_S12288_S4096_0) with hLdef
  have hL : L (ix2 i 0) = BitVec.ofNat 32 (cls i).val := by
    rw [hLdef, bcast_vec_col_apply]
    exact (slice1_head_apply _ _ i (Cert.Spec.anchor i) rfl).trans (hcls i)
  set V : IVec S4096x1x1 32 := shapeCast S4096x1x1
    (select (cmpi .slt L (broadcastInDim S4096x1 ![] bcast_S_S4096x1 (constantI S_ 32 0#32)))
      (addi L (broadcastInDim S4096x1 ![] bcast_S_S4096x1 (constantI S_ 32 1000#32))) L)
    shapeCasts_S4096x1_S4096x1x1 with hVdef
  have hV : V (ix3 i 0 0) = BitVec.ofNat 32 (cls i).val := wrapped_label L i (cls i) hL
  refine Eq.trans ?_ ((take_row_of (W (Proc.devRef .tc main_v62)) V i (cls i) hV).trans (h62 i (cls i)))
  refine congrFun ?_ (ix2 i 0)
  show after opsG W (Proc.devRef .tc main_v65) = _
  after_results
  simp only [ofBuf_toBuf]
  rfl

end Cert.ReferenceIdeal.RefG

end
-- ==== Proof.RefH.lean ====
/-
  The last stretch of the reference: the mean of the class log-probabilities, negated, plus one times the mean
  contrastive term. The column of 4096 log-probabilities is summed over both its axes from zero, the sum divided by
  the batch size's word and negated; the contrastive mean, computed earlier, is multiplied by the word of one and added.
-/
import proofs.«404244_j8306466750557_2_alg».proof.Proof.RefOps
import proofs.«404244_j8306466750557_2_alg».proof.Proof.Arrays
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.IdealHost

noncomputable section

namespace Cert.ReferenceIdeal.RefH

open Cert.ReferenceIdeal Cert.ReferenceIdeal.Gen Cert.ReferenceIdeal.ValueP Idealize.ShloMosaic Idealize.ShloMosaic.StableHlo Idealize.ShloMosaic.ValueIdx

/-! ## What the stretch writes -/

/-- The references the stretch's operations write. -/
abbrev writtenH : List (Ref sig .tc) :=
  [main_cst_15, main_v66, main_cst_16, main_v67, main_v68, main_cst_17, main_v69, main_v70]

theorem writesH : (opsH : List (HloOp τ sig (Elt Ideal))).Forall fun op =>
    op.writes ⊆ (writtenH.map (Proc.devRef (τ := τ) .tc)).toFinset := by
  simp only [List.Forall]
  repeat' apply And.intro
  all_goals
    simp only [nullary_writes, unary_writes, binary_writes, ternary_writes, reshape_writes, Finset.singleton_subset_iff,
      List.mem_toFinset]
    exact List.mem_map_of_mem (by decide)

/-- A reference the stretch does not write keeps its contents. -/
theorem keepsH (W : Valuation τ sig (Elt Ideal)) (b : Ref sig .tc) (hb : b ∉ writtenH) :
    after opsH W (Proc.devRef .tc b) = W (Proc.devRef .tc b) :=
  after_of_writes_sub opsH _ writesH hb

/-! ## The negated mean of a column -/

/-- The host's negation at an index is the negation of the element. -/
theorem hostNegf_apply {s : Shape} {φ : FTy} (a : FVec Ideal s φ) (i : s.Idx) : Host.negf a i = -(a i) := rfl

/-- The column summed over both axes from the zero word, divided by the batch size's word, negated. -/
theorem negmean_column (x : FVec Ideal S4096x1 .f32) :
    Host.negf
        (Host.divf (Host.reduceAdd x (constant (F := Ideal) S_ .f32 0x00000000#32) reducesTo_S4096x1_S_d0_1 h_S_)
          (constant (F := Ideal) S_ .f32 0x45800000#32)) ix0
      = -(Ideal.div (∑ i : Fin 4096, x (ix2 i 0)) Cert.Spec.count) := by
  rw [hostNegf_apply, hostDivf_apply, hostReduceAdd_apply, Ideal.hostReduceAdd_total _ (fun b => b.elim0), constant_apply,
    constant_apply, Ideal.ofBits_zero_f32, zero_add, sum_idx2]
  simp only [Fin.sum_univ_one]
  rfl

/-! ## The result -/

theorem v70_apply (W : Valuation τ sig (Elt Ideal)) :
    (after opsH W (Proc.devRef .tc main_v70) : S_.Idx → EReal) ix0
      = (-(Ideal.div (∑ i : Fin 4096, (W (Proc.devRef .tc main_v65) : S4096x1.Idx → EReal) (ix2 i 0)) Cert.Spec.count))
        + Cert.Spec.one * (W (Proc.devRef .tc main_v59) : S_.Idx → EReal) ix0 := by
  have e : (after opsH W (Proc.devRef .tc main_v70) : S_.Idx → EReal)
      = addf
          (Host.negf
            (Host.divf
              (Host.reduceAdd (W (Proc.devRef .tc main_v65) : S4096x1.Idx → EReal) (constant (F := Ideal) S_ .f32 0x00000000#32)
                reducesTo_S4096x1_S_d0_1 h_S_)
              (constant (F := Ideal) S_ .f32 0x45800000#32)))
          (mulf (constant (F := Ideal) S_ .f32 0x3F800000#32) (W (Proc.devRef .tc main_v59) : S_.Idx → EReal)) := by
    show after opsH W (Proc.devRef .tc main_v70) = _
    after_results <;> rfl
  rw [e, addf_apply, mulf_apply, negmean_column, constant_apply]
  rfl

end Cert.ReferenceIdeal.RefH

end
-- ==== Proof.LibFold.lean ====
/-
  A general fact about a straight line of host operations: the contents after two lines run end to end are the
  contents after the second line, started from the contents after the first. With it a long line is evaluated
  stretch by stretch, each stretch from whatever contents the one before left.
-/
import Idealize.ShloMosaic.Lib.StableHlo.Run

namespace Cert.LibFold

open Idealize.ShloMosaic Idealize.ShloMosaic.StableHlo

variable {τ : Topo} {sig : RefSig} {Val : EltTy → Type}

/-- The fold of a line that is two lines end to end. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibFold
-- ==== Proof.RefValue.lean ====
/-
  The reference's result. Its 126 host operations are folded stretch by stretch: the labels' equality and the scaled
  inner products; each row's maximum; the mask that removes each anchor's own column; the mean log-probability over
  the positives; the per-anchor weights and the mean of the weighted terms; the log-softmax of the offset class
  logits; its entry at each anchor's class; the final combination. A buffer a later stretch does not write keeps
  what an earlier one left, so each stretch's fact is carried to where it is used. The result is the specification's
  `resultDiv` of the five argument arrays; the argument arrays themselves are written by no operation.
-/
import proofs.«404244_j8306466750557_2_alg».proof.Proof.RefA
import proofs.«404244_j8306466750557_2_alg».proof.Proof.RefB
import proofs.«404244_j8306466750557_2_alg».proof.Proof.RefC
import proofs.«404244_j8306466750557_2_alg».proof.Proof.RefD
import proofs.«404244_j8306466750557_2_alg».proof.Proof.RefE
import proofs.«404244_j8306466750557_2_alg».proof.Proof.RefF
import proofs.«404244_j8306466750557_2_alg».proof.Proof.RefG
import proofs.«404244_j8306466750557_2_alg».proof.Proof.RefH
import proofs.«404244_j8306466750557_2_alg».proof.Proof.LibFold

noncomputable section

namespace Cert.ReferenceIdeal.RefValue

open Cert.ReferenceIdeal Cert.ReferenceIdeal.Gen Cert.ReferenceIdeal.ValueP
open Idealize.ShloMosaic Idealize.ShloMosaic.TcCoe Idealize.ShloMosaic.StableHlo Idealize.ShloMosaic.ValueIdx Idealize.SL.Sem

variable (W : Valuation τ sig (Elt Ideal))

/-- The contents after each stretch. -/
abbrev WA : Valuation τ sig (Elt Ideal) := after opsA W
abbrev WB : Valuation τ sig (Elt Ideal) := after opsB (WA W)
abbrev WC : Valuation τ sig (Elt Ideal) := after opsC (WB W)
abbrev WD : Valuation τ sig (Elt Ideal) := after opsD (WC W)
abbrev WE : Valuation τ sig (Elt Ideal) := after opsE (WD W)
abbrev WF : Valuation τ sig (Elt Ideal) := after opsF (WE W)
abbrev WG : Valuation τ sig (Elt Ideal) := after opsG (WF W)

/-- The whole line is the eight stretches end to end. -/
theorem after_ops : after ops W = after opsH (WG W) := by
  rw [ops_split]
  simp only [Cert.LibFold.after_append]

/-- A buffer no stretch up to the seventh writes is as launched there. -/
theorem arg_keep (b : Ref sig .tc) (hA : b ∉ RefA.writtenA) (hB : b ∉ RefB.writtenB) (hC : b ∉ RefC.writtenC) (hD : b ∉ RefD.writtenD)
    (hE : b ∉ RefE.writtenE) (hF : b ∉ RefF.writtenF) (hG : b ∉ RefG.writtenG) :
    WG W (Proc.devRef .tc b) = W (Proc.devRef .tc b) ∧ WF W (Proc.devRef .tc b) = W (Proc.devRef .tc b) ∧ WE W (Proc.devRef .tc b) = W (Proc.devRef .tc b) ∧ WD W (Proc.devRef .tc b) = W (Proc.devRef .tc b) :=
  have hd : WD W (Proc.devRef .tc b) = W (Proc.devRef .tc b) :=
    (RefD.keepsD _ b hD).trans ((RefC.keepsC _ b hC).trans ((RefB.keepsB _ b hB).trans (RefA.keepsA _ b hA)))
  have he : WE W (Proc.devRef .tc b) = W (Proc.devRef .tc b) := (RefE.keepsE _ b hE).trans hd
  have hf : WF W (Proc.devRef .tc b) = W (Proc.devRef .tc b) := (RefF.keepsF _ b hF).trans he
  ⟨(RefG.keepsG _ b hG).trans hf, hf, he, hd⟩

/-- THE REFERENCE'S RESULT, from any contents `W` whose anchors' labels are the class numbers `cls`. -/
theorem ref_result (cls : Fin 4096 → Fin 1000) (hcls : Arrays.ClassesOf (W (Proc.devRef .tc main_arg4)) cls) :
    (after ops W (Proc.devRef .tc main_v70) : S_.Idx → EReal) ix0
      = Arrays.resultDiv (W (Proc.devRef .tc main_arg0)) (W (Proc.devRef .tc main_arg1)) (W (Proc.devRef .tc main_arg2)) (W (Proc.devRef .tc main_arg3)) (W (Proc.devRef .tc main_arg4)) cls := by
  have k0 := arg_keep W main_arg0 (by decide) (by decide) (by decide) (by decide) (by decide) (by decide) (by decide)
  have k1 := arg_keep W main_arg1 (by decide) (by decide) (by decide) (by decide) (by decide) (by decide) (by decide)
  have k2 := arg_keep W main_arg2 (by decide) (by decide) (by decide) (by decide) (by decide) (by decide) (by decide)
  have k3 := arg_keep W main_arg3 (by decide) (by decide) (by decide) (by decide) (by decide) (by decide) (by decide)
  have k4 := arg_keep W main_arg4 (by decide) (by decide) (by decide) (by decide) (by decide) (by decide) (by decide)
  -- the contrastive half: the similarity, its row maxima, the masks, the mean log-probability
  have h11 : ∀ i j, (WA W (Proc.devRef .tc main_v11) : S4096x12288.Idx → EReal) (ix2 i j) = Spec.simDiv (Arrays.featOf (W (Proc.devRef .tc main_arg0))) i j :=
    fun i j => RefA.v11_apply W i j
  have h6 : ∀ i j, (WC W (Proc.devRef .tc main_v6) : S4096x12288.Idx → EReal) (ix2 i j) = Spec.sameLabel (Arrays.labOf (W (Proc.devRef .tc main_arg4))) i j := fun i j => by
    rw [show WC W (Proc.devRef .tc main_v6) = WA W (Proc.devRef .tc main_v6) from (RefC.keepsC _ main_v6 (by decide)).trans (RefB.keepsB _ main_v6 (by decide))]
    exact RefA.v6_apply W i j
  have h15 : ∀ i j, (WC W (Proc.devRef .tc main_v15) : S4096x12288.Idx → EReal) (ix2 i j)
      = Spec.simDiv (Arrays.featOf (W (Proc.devRef .tc main_arg0))) i j - Spec.rowMax (Spec.simDiv (Arrays.featOf (W (Proc.devRef .tc main_arg0)))) i := fun i j => by
    rw [show WC W (Proc.devRef .tc main_v15) = WB W (Proc.devRef .tc main_v15) from RefC.keepsC _ main_v15 (by decide)]
    exact RefB.v15_apply (WA W) _ h11 i j
  have h32 : ∀ i j, (WC W (Proc.devRef .tc main_v32) : S4096x12288.Idx → EReal) (ix2 i j) = Spec.notSelf i j := fun i j => RefC.v32_apply (WB W) i j
  have h46 : ∀ i, (WD W (Proc.devRef .tc main_v46) : S4096.Idx → EReal) (ix1 i)
      = Spec.meanLogProb (Arrays.labOf (W (Proc.devRef .tc main_arg4))) (Spec.simDiv (Arrays.featOf (W (Proc.devRef .tc main_arg0)))) i :=
    fun i => RefD.v46_apply (WC W) _ _ h6 h15 h32 i
  have h59 : (WG W (Proc.devRef .tc main_v59) : S_.Idx → EReal) ix0
      = Ideal.div (∑ i : Fin 4096, Spec.rowLossDiv (Arrays.featOf (W (Proc.devRef .tc main_arg0))) (Arrays.labOf (W (Proc.devRef .tc main_arg4))) (Arrays.rewOf (W (Proc.devRef .tc main_arg3)) cls) i) Spec.count := by
    rw [show WG W (Proc.devRef .tc main_v59) = WE W (Proc.devRef .tc main_v59) from (RefG.keepsG _ main_v59 (by decide)).trans (RefF.keepsF _ main_v59 (by decide))]
    have := RefE.v59_apply (WD W) cls (by rw [k4.2.2.2]; exact hcls) _ h46
    rw [k3.2.2.2] at this
    exact this
  -- the cross-entropy half: the log-probabilities and their entries at the anchors' classes
  have h62 : ∀ i k, (WF W (Proc.devRef .tc main_v62) : S4096x1000.Idx → EReal) (ix2 i k)
      = Spec.logp (Arrays.supOf (W (Proc.devRef .tc main_arg1))) (Arrays.wOf (W (Proc.devRef .tc main_arg2))) i k := fun i k => by
    have := RefF.v62_apply (WE W) i k
    rw [k1.2.2.1, k2.2.2.1] at this
    exact this
  have h65 : ∀ i, (WG W (Proc.devRef .tc main_v65) : S4096x1.Idx → EReal) (ix2 i 0)
      = Spec.target (Arrays.supOf (W (Proc.devRef .tc main_arg1))) (Arrays.wOf (W (Proc.devRef .tc main_arg2))) cls i :=
    fun i => RefG.v65_apply (WF W) cls (by rw [k4.2.1]; exact hcls) _ h62 i
  rw [after_ops, RefH.v70_apply, h59]
  simp only [h65]
  rfl

/-- No operation writes an argument: at the end each is as launched. -/
theorem arg_end (b : Ref sig .tc) (hA : b ∉ RefA.writtenA) (hB : b ∉ RefB.writtenB) (hC : b ∉ RefC.writtenC) (hD : b ∉ RefD.writtenD)
    (hE : b ∉ RefE.writtenE) (hF : b ∉ RefF.writtenF) (hG : b ∉ RefG.writtenG) (hH : b ∉ RefH.writtenH) :
    after ops W (Proc.devRef .tc b) = W (Proc.devRef .tc b) := by
  rw [after_ops]
  exact (RefH.keepsH _ b hH).trans (arg_keep W b hA hB hC hD hE hF hG).1

end Cert.ReferenceIdeal.RefValue

end
-- ==== Proof.PreFacts.lean ====
/-
  What the precondition says of the five argument arrays.

  The precondition is a conjunction of five tests. Four say of a float array that every entry's absolute value is
  below plus infinity; over the extended reals an entry with |x| < ⊤ is neither ⊤ nor ⊥, so it is a real number.
  The fifth says of the first 4096 labels that each, read as a signed word, is at least 0 and below 1000; such a
  word is the word of its own unsigned value, and that value is below 1000: it names a class.
-/
import proofs.«404244_j8306466750557_2_alg».proof.Pre_finite_inputs
import proofs.«404244_j8306466750557_2_alg».proof.Proof.Arrays
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx
open Cert.Pre_finite_inputs

/-- The scalar shape has one index. -/
instance : Subsingleton S_.Idx := ⟨fun a b => funext fun d => d.elim0⟩

/-- An extended real whose absolute value is below plus infinity is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | top => simp at h
  | coe r => exact ⟨r, rfl⟩

/-- "All entries have absolute value below plus infinity", as the test prints, says every entry is real. -/
theorem finite_of_all {S : Shape} {axes : List (Fin S.rank)} (x : FVec Ideal S .f32)
    (hb : S_.BroadcastsInDim S (![] : Fin 0 → Fin S.rank)) (hr : S.ReducesTo axes S_) (h0 : 0 < S_.numel)
    (e : Host.reduce IntOp.andi (cmpf .olt (Host.absf x) (broadcastInDim S ![] hb (constant S_ .f32 0x7F800000#32)))
      (constantI S_ 1 1#1) hr h0 ix0 = 1#1) : Cert.Arrays.Finite x := by
  intro i
  exact real_of_abs_lt_inf (x i) (Host.reduce_andi_all _ _ hr h0 ix0 e i)

/-- A signed word that is at least 0 and below 1000 has an unsigned value below 1000. -/
theorem toNat_lt_of_range (w : BitVec 32) (h0 : IntOp.cmpi .sge w 0#32 = 1#1) (h1 : IntOp.cmpi .slt w 1000#32 = 1#1) :
    w.toNat < 1000 := by
  rw [IntOp.cmpi_sge] at h0
  rw [IntOp.cmpi_slt] at h1
  have z : (0#32 : BitVec 32).toInt = 0 := by decide
  have k : (1000#32 : BitVec 32).toInt = 1000 := by decide
  rw [z] at h0
  rw [k] at h1
  have hw := w.isLt
  rw [BitVec.toInt_eq_toNat_cond] at h0 h1
  split at h0 <;> omega

/-- Entry p of the leading slice of the labels is entry p of the labels. -/
theorem slice_apply (a4 : IVec S12288 32) (hs : S12288.Slices ![0] S4096) (i : Fin 4096) :
    extractStridedSlice S4096 ![0] a4 hs (ix1 i) = a4 (ix1 (Spec.anchor i)) := by
  unfold extractStridedSlice
  congr 1
  funext a
  match a with
  | ⟨0, _⟩ => exact Fin.ext (Nat.zero_add _)

/-- "All of the first 4096 labels are at least 0 and below 1000", as the test prints, bounds each of them. -/
theorem label_lt_of_all (a4 : IVec S12288 32) (hs : S12288.Slices ![0] S4096)
    (hb : S_.BroadcastsInDim S4096 (![] : Fin 0 → Fin S4096.rank)) (hr : S4096.ReducesTo [0] S_) (h0 : 0 < S_.numel)
    (e : Host.reduce IntOp.andi
      (andi (cmpi .sge (extractStridedSlice S4096 ![0] a4 hs) (broadcastInDim S4096 ![] hb (constantI S_ 32 0#32)))
        (cmpi .slt (extractStridedSlice S4096 ![0] a4 hs) (broadcastInDim S4096 ![] hb (constantI S_ 32 1000#32))))
      (constantI S_ 1 1#1) hr h0 ix0 = 1#1) (i : Fin 4096) :
    (a4 (ix1 (Spec.anchor i))).toNat < 1000 := by
  have p := Host.reduce_andi_all _ _ hr h0 ix0 e (ix1 i)
  obtain ⟨p0, p1⟩ := IntOp.andi_eq_one.1 p
  rw [← slice_apply a4 hs i]
  exact toNat_lt_of_range _ p0 p1

/-- What the precondition says of the five argument arrays: the three float arrays the proof computes with hold real numbers, and the
    first 4096 labels are class numbers below 1000. -/
theorem decode [Cert.Pre_finite_inputs.Facts]
    (a0 : FVec Ideal Cert.Pre_finite_inputs.S12288x128 .f32) (a1 : FVec Ideal Cert.Pre_finite_inputs.S4096x1000 .f32)
    (a2 : FVec Ideal Cert.Pre_finite_inputs.S1x1000 .f32) (a3 : FVec Ideal Cert.Pre_finite_inputs.S1000 .f32)
    (a4 : IVec Cert.Pre_finite_inputs.S12288 32)
    (h : Cert.Pre_finite_inputs.fn (F := Ideal) a0 a1 a2 a3 a4 = fun _ => 1#1) :
    Cert.Arrays.Finite a0 ∧ Cert.Arrays.Finite a1 ∧ Cert.Arrays.Finite a2
      ∧ ∃ cls : Fin 4096 → Fin 1000, Cert.Arrays.ClassesOf a4 cls := by
  have e := congrFun h ix0
  dsimp only [Cert.Pre_finite_inputs.fn, Cert.Pre_finite_inputs.fn_part1] at e
  obtain ⟨e18, e26⟩ := IntOp.andi_eq_one.1 e
  obtain ⟨e13, -⟩ := IntOp.andi_eq_one.1 e18
  obtain ⟨e8, e12⟩ := IntOp.andi_eq_one.1 e13
  obtain ⟨e3, e7⟩ := IntOp.andi_eq_one.1 e8
  refine ⟨finite_of_all a0 _ _ _ e3, finite_of_all a1 _ _ _ e7, finite_of_all a2 _ _ _ e12, ?_⟩
  have hlt : ∀ i : Fin 4096, (a4 (ix1 (Spec.anchor i))).toNat < 1000 := label_lt_of_all a4 _ _ _ _ e26
  refine ⟨fun i => ⟨(a4 (ix1 (Spec.anchor i))).toNat, hlt i⟩, fun i => ?_⟩
  show a4 (ix1 (Spec.anchor i)) = BitVec.ofNat 32 (a4 (ix1 (Spec.anchor i))).toNat
  apply BitVec.eq_of_toNat_eq
  rw [BitVec.toNat_ofNat, Nat.mod_eq_of_lt (a4 (ix1 (Spec.anchor i))).isLt]

end Cert.PreFacts

end
-- ==== Proof.lean ====
/-
  The certificate of a two-part loss computed by a tiled accelerator program against its plain reference.

  Both programs take a 12288 × 128 feature table whose first 4096 rows are the anchors, class logits and offsets,
  per-class weights and the rows' labels, and return one number: the mean cross-entropy of the offset class logits
  at the anchors' classes, plus the mean over the anchors of a weighted supervised-contrastive term. The reference
  forms the whole 4096 × 12288 similarity matrix (inner products over the temperature), masks each anchor's own
  column, and averages log-probabilities over the columns carrying the anchor's label. The kernel never forms the
  matrix: it walks the columns in six blocks of 2048, keeping per anchor a running maximum, an exponential sum
  rescaled whenever the maximum grows, and two plain sums, and finishes each row block at its last column block; it
  scales by the temperature's reciprocal, named as the exact reciprocal of the reference's own divisor. A second
  kernel computes the cross-entropy rows through a one-hot product where the reference takes an entry.

  On finite inputs with the anchors' labels in the class range the two agree exactly over the extended reals:
  division by the temperature is multiplication by its reciprocal; the block walk ends at the row's maximum and sums
  (rescaling by exp (m − m') is exact on reals); subtracting the maximum and the log-sum once after averaging
  equals averaging the log-probabilities (and with no positive both sides are the same 0/0 followed by the same
  subtractions); a one-hot product picks the entry; negation commutes with the mean. The three frames — each program
  runs to the end, faults nowhere and leaves its argument arrays as launched — come from the programs' runs: the
  two kernel programs' as five segments (host code, region, host code, region, host code) with the contrastive
  region's accumulators held by the region invariant between grid points, the reference's as the fold of its host
  operations.
-/
import proofs.«404244_j8306466750557_2_alg».proof.Defs
import proofs.«404244_j8306466750557_2_alg».proof.Proof.Gen.Kernel
import proofs.«404244_j8306466750557_2_alg».proof.Proof.Gen.KernelIdeal
import proofs.«404244_j8306466750557_2_alg».proof.Proof.Gen.ReferenceIdeal
import proofs.«404244_j8306466750557_2_alg».proof.Proof.Gen.Pre_finite_inputs
import proofs.«404244_j8306466750557_2_alg».proof.Proof.KRun
import proofs.«404244_j8306466750557_2_alg».proof.Proof.Run
import proofs.«404244_j8306466750557_2_alg».proof.Proof.KerValue
import proofs.«404244_j8306466750557_2_alg».proof.Proof.RefValue
import proofs.«404244_j8306466750557_2_alg».proof.Proof.PreFacts
import proofs.«404244_j8306466750557_2_alg».proof.Proof.SpecLaws
import Idealize.ShloMosaic.Adequacy
import Idealize.ShloMosaic.Init

noncomputable section

namespace Cert.Proof

open Idealize.ShloMosaic Idealize.ShloMosaic.TcCoe Idealize.ShloMosaic.StableHlo Idealize.ShloMosaic.ValueIdx Idealize.SL.Sem

/-- The word-level kernel program runs to the end and keeps its arguments (no precondition is needed for that). -/
theorem frame_p : Cert.frame_Kernel := fun m ρ _ => Cert.Kernel.Frame.frame m ρ
/-- So does its idealization. -/
theorem frame_pi : Cert.frame_KernelIdeal := fun m ρ _ => Cert.KernelIdeal.Frame.frame m ρ
/-- The reference is a straight line of host operations none of which writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefValue.arg_end _ Cert.ReferenceIdeal.main_arg0 (by decide) (by decide) (by decide) (by decide) (by decide) (by decide) (by decide) (by decide)),
     (h c Cert.ReferenceIdeal.main_arg1).trans (Cert.ReferenceIdeal.RefValue.arg_end _ Cert.ReferenceIdeal.main_arg1 (by decide) (by decide) (by decide) (by decide) (by decide) (by decide) (by decide) (by decide)),
     (h c Cert.ReferenceIdeal.main_arg2).trans (Cert.ReferenceIdeal.RefValue.arg_end _ Cert.ReferenceIdeal.main_arg2 (by decide) (by decide) (by decide) (by decide) (by decide) (by decide) (by decide) (by decide)),
     (h c Cert.ReferenceIdeal.main_arg3).trans (Cert.ReferenceIdeal.RefValue.arg_end _ Cert.ReferenceIdeal.main_arg3 (by decide) (by decide) (by decide) (by decide) (by decide) (by decide) (by decide) (by decide)),
     (h c Cert.ReferenceIdeal.main_arg4).trans (Cert.ReferenceIdeal.RefValue.arg_end _ Cert.ReferenceIdeal.main_arg4 (by decide) (by decide) (by decide) (by decide) (by decide) (by decide) (by decide) (by decide))⟩)
    (Cert.ReferenceIdeal.ValueP.run (F := Ideal) m ρ)

/-- The one rewrite of the idealization: the kernel's scale is named the exact reciprocal of the reference's divisor. -/
theorem preserves : Cert.preserves_Kernel_KernelIdeal :=
  IdealRules.named_const.statement Cert.KernelIdeal.κ "inv_temp" .f32 0x41649249#32 ((134217728 / 9395241 : ℝ) : EReal) rfl

/-- At the ideal instance the two programs end with the same number. -/
theorem algebraic : Cert.algebraic_KernelIdeal_ReferenceIdeal := by
  intro m ρ m' ρ' hpre hagree
  refine ⟨fun c => Cert.KernelIdeal.Frame.W5 m c (Proc.devRef .tc Cert.KernelIdeal.main_v22), ?_, ?_⟩
  · refine (θ_run Cert.KernelIdeal.defs _ _).mono (fun _ h c => ?_) (Cert.KernelIdeal.Frame.run_all (F := Ideal) m ρ)
    exact ⟨h c _ (Cert.KernelIdeal.Frame.mem_uc Cert.KernelIdeal.main_v22 (by decide)),
      (h c _ (Cert.KernelIdeal.Frame.mem_uc Cert.KernelIdeal.main_arg0 (by decide))).trans (Cert.KernelIdeal.Frame.W5_main_arg0 m c),
      (h c _ (Cert.KernelIdeal.Frame.mem_uc Cert.KernelIdeal.main_arg1 (by decide))).trans (Cert.KernelIdeal.Frame.W5_main_arg1 m c),
      (h c _ (Cert.KernelIdeal.Frame.mem_uc Cert.KernelIdeal.main_arg2 (by decide))).trans (Cert.KernelIdeal.Frame.W5_main_arg2 m c),
      (h c _ (Cert.KernelIdeal.Frame.mem_uc Cert.KernelIdeal.main_arg3 (by decide))).trans (Cert.KernelIdeal.Frame.W5_main_arg3 m c),
      (h c _ (Cert.KernelIdeal.Frame.mem_uc Cert.KernelIdeal.main_arg4 (by decide))).trans (Cert.KernelIdeal.Frame.W5_main_arg4 m c)⟩
  · refine (θ_run Cert.ReferenceIdeal.defs _ _).mono (fun _ h c => ?_) (Cert.ReferenceIdeal.ValueP.run (F := Ideal) m' ρ')
    refine ⟨(h c Cert.ReferenceIdeal.main_v70).trans ?_,
     (h c Cert.ReferenceIdeal.main_arg0).trans (Cert.ReferenceIdeal.RefValue.arg_end _ Cert.ReferenceIdeal.main_arg0 (by decide) (by decide) (by decide) (by decide) (by decide) (by decide) (by decide) (by decide)),
     (h c Cert.ReferenceIdeal.main_arg1).trans (Cert.ReferenceIdeal.RefValue.arg_end _ Cert.ReferenceIdeal.main_arg1 (by decide) (by decide) (by decide) (by decide) (by decide) (by decide) (by decide) (by decide)),
     (h c Cert.ReferenceIdeal.main_arg2).trans (Cert.ReferenceIdeal.RefValue.arg_end _ Cert.ReferenceIdeal.main_arg2 (by decide) (by decide) (by decide) (by decide) (by decide) (by decide) (by decide) (by decide)),
     (h c Cert.ReferenceIdeal.main_arg3).trans (Cert.ReferenceIdeal.RefValue.arg_end _ Cert.ReferenceIdeal.main_arg3 (by decide) (by decide) (by decide) (by decide) (by decide) (by decide) (by decide) (by decide)),
     (h c Cert.ReferenceIdeal.main_arg4).trans (Cert.ReferenceIdeal.RefValue.arg_end _ Cert.ReferenceIdeal.main_arg4 (by decide) (by decide) (by decide) (by decide) (by decide) (by decide) (by decide) (by decide))⟩
    obtain ⟨hf0, hf1, hf2, cls, hcls⟩ := Cert.PreFacts.decode _ _ _ _ _ (hpre c)
    obtain ⟨e0, e1, e2, e3, e4⟩ := hagree c
    have hcls' : Cert.Arrays.ClassesOf (m' ((c.tc : Thread Cert.ReferenceIdeal.nD Cert.ReferenceIdeal.τ).loc Cert.ReferenceIdeal.main_arg4)) cls := by
      rw [e4]; exact hcls
    funext i
    rw [eq_ix0 i]
    refine (Cert.ReferenceIdeal.RefValue.ref_result (launchContents m' c) cls hcls').trans ?_
    show Cert.Arrays.resultDiv (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) cls = _
    rw [e0, e1, e2, e3, e4]
    refine Eq.trans ?_ (Cert.KernelIdeal.KerValue.ker_result m c cls hcls hf0).symm
    exact (Cert.Spec.result_eq _ _ _ _ _ _ (fun j k => hf0 _) (fun i k => hf1 _) (fun k => hf2 _)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
